-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2 : Shape := ⟨2, ![2048, 2]⟩
abbrev S10000x16 : Shape := ⟨2, ![10000, 16]⟩
abbrev S10000x16x8 : Shape := ⟨3, ![10000, 16, 8]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_
  bcast_S_S10000x16 : S_.BroadcastsInDim S10000x16 (![] : Fin 0 → Fin S10000x16.rank)
  reducesTo_S10000x16_S_d0_1 : S10000x16.ReducesTo [0, 1] S_
  bcast_S_S10000x16x8 : S_.BroadcastsInDim S10000x16x8 (![] : Fin 0 → Fin S10000x16x8.rank)
  reducesTo_S10000x16x8_S_d0_1_2 : S10000x16x8.ReducesTo [0, 1, 2] S_

variable [Facts]

def fn_part3 {F : FTy → Type} [FloatOps F] (main_arg2 : IVec S10000x16x8 32) (main_arg3 : IVec S10000x16 32) (main_v50 : IVec S_ 1) : IVec S_ 1 :=
  let main_c_19 : IVec S_ 32 := constantI S_ 32 0#32
  let main_v51 : IVec S10000x16x8 32 := broadcastInDim S10000x16x8 ![] bcast_S_S10000x16x8 main_c_19
  let main_v52 : IVec S10000x16x8 1 := cmpi .sge main_arg2 main_v51
  let main_c_20 : IVec S_ 32 := constantI S_ 32 50000#32
  let main_v53 : IVec S10000x16x8 32 := broadcastInDim S10000x16x8 ![] bcast_S_S10000x16x8 main_c_20
  let main_v54 : IVec S10000x16x8 1 := cmpi .slt main_arg2 main_v53
  let main_v55 : IVec S10000x16x8 1 := andi main_v52 main_v54
  let main_c_21 : IVec S_ 1 := constantI S_ 1 1#1
  let main_v56 : IVec S_ 1 := (fun x v => Host.reduce IntOp.andi x v reducesTo_S10000x16x8_S_d0_1_2 h_S_) main_v55 main_c_21
  let main_v57 : IVec S_ 1 := andi main_v50 main_v56
  let main_c_22 : IVec S_ 32 := constantI S_ 32 0#32
  let main_v58 : IVec S10000x16 32 := broadcastInDim S10000x16 ![] bcast_S_S10000x16 main_c_22
  let main_v59 : IVec S10000x16 1 := cmpi .sge main_arg3 main_v58
  let main_c_23 : IVec S_ 32 := constantI S_ 32 10000#32
  let main_v60 : IVec S10000x16 32 := broadcastInDim S10000x16 ![] bcast_S_S10000x16 main_c_23
  let main_v61 : IVec S10000x16 1 := cmpi .slt main_arg3 main_v60
  let main_v62 : IVec S10000x16 1 := andi main_v59 main_v61
  let main_c_24 : IVec S_ 1 := constantI S_ 1 1#1
  let main_v63 : IVec S_ 1 := (fun x v => Host.reduce IntOp.andi x v reducesTo_S10000x16_S_d0_1 h_S_) main_v62 main_c_24
  let main_v64 : IVec S_ 1 := andi main_v57 main_v63
  main_v64

def fn_part2 {F : FTy → Type} [FloatOps F] (main_arg1 : IVec S10000x16 32) (main_arg2 : IVec S10000x16x8 32) (main_arg3 : IVec S10000x16 32) (main_arg11 : FVec F S2x128 .f32) (main_arg12 : FVec F S2 .f32) (main_v33 : IVec S_ 1) : IVec S_ 1 :=
  let main_v34 : FVec F S2x128 .f32 := Host.absf main_arg11
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg12
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S10000x16 32 := broadcastInDim S10000x16 ![] bcast_S_S10000x16 main_c_16
  let main_v45 : IVec S10000x16 1 := cmpi .sge main_arg1 main_v44
  let main_c_17 : IVec S_ 32 := constantI S_ 32 50000#32
  let main_v46 : IVec S10000x16 32 := broadcastInDim S10000x16 ![] bcast_S_S10000x16 main_c_17
  let main_v47 : IVec S10000x16 1 := cmpi .slt main_arg1 main_v46
  let main_v48 : IVec S10000x16 1 := andi main_v45 main_v47
  let main_c_18 : IVec S_ 1 := constantI S_ 1 1#1
  let main_v49 : IVec S_ 1 := (fun x v => Host.reduce IntOp.andi x v reducesTo_S10000x16_S_d0_1 h_S_) main_v48 main_c_18
  let main_v50 : IVec S_ 1 := andi main_v43 main_v49
  fn_part3 (F := F) main_arg2 main_arg3 main_v50

def fn_part1 {F : FTy → Type} [FloatOps F] (main_arg1 : IVec S10000x16 32) (main_arg2 : IVec S10000x16x8 32) (main_arg3 : IVec S10000x16 32) (main_arg8 : FVec F S128x128 .f32) (main_arg9 : FVec F S128x256 .f32) (main_arg10 : FVec F S128 .f32) (main_arg11 : FVec F S2x128 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg3 main_arg11 main_arg12 main_v33

def fn {F : FTy → Type} [FloatOps F] (main_arg0 : IVec S2048x2 32) (main_arg1 : IVec S10000x16 32) (main_arg2 : IVec S10000x16x8 32) (main_arg3 : IVec S10000x16 32) (main_arg4 : FVec F S50000x128 .f32) (main_arg5 : FVec F S128x128 .f32) (main_arg6 : FVec F S128x128 .f32) (main_arg7 : FVec F S128x128 .f32) (main_arg8 : FVec F S128x128 .f32) (main_arg9 : FVec F S128x256 .f32) (main_arg10 : FVec F S128 .f32) (main_arg11 : FVec F S2x128 .f32) (main_arg12 : FVec F S2 .f32) : IVec S_ 1 :=
  let main_v0 : FVec F S50000x128 .f32 := Host.absf main_arg4
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg3 main_arg8 main_arg9 main_arg10 main_arg11 main_arg12 main_v13 main_v16
-- ==== Kernel.lean ====
abbrev S2048x2 : Shape := ⟨2, ![2048, 2]⟩
abbrev S10000x16 : Shape := ⟨2, ![10000, 16]⟩
abbrev S10000x16x8 : Shape := ⟨3, ![10000, 16, 8]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S160000x1 : Shape := ⟨2, ![160000, 1]⟩
abbrev S1280000x1 : Shape := ⟨2, ![1280000, 1]⟩
abbrev S10000x128 : Shape := ⟨2, ![10000, 128]⟩
abbrev S256x1 : Shape := ⟨2, ![256, 1]⟩
abbrev S2048x1 : Shape := ⟨2, ![2048, 1]⟩
abbrev S16x128 : Shape := ⟨2, ![16, 128]⟩
abbrev S256x128 : Shape := ⟨2, ![256, 128]⟩
abbrev S2048x128 : Shape := ⟨2, ![2048, 128]⟩
abbrev S1x2000 : Shape := ⟨2, ![1, 2000]⟩
abbrev S2000x128 : Shape := ⟨2, ![2000, 128]⟩
abbrev S256x2000 : Shape := ⟨2, ![256, 2000]⟩
abbrev S2048x2000 : Shape := ⟨2, ![2048, 2000]⟩
abbrev S256x8x128 : Shape := ⟨3, ![256, 8, 128]⟩
abbrev S16x16x128 : Shape := ⟨3, ![16, 16, 128]⟩
abbrev S16 : Shape := ⟨1, ![16]⟩
abbrev S16x1 : Shape := ⟨2, ![16, 1]⟩
abbrev S640x1 : Shape := ⟨2, ![640, 1]⟩
abbrev S40x128 : Shape := ⟨2, ![40, 128]⟩
abbrev S640x128 : Shape := ⟨2, ![640, 128]⟩
abbrev S640x2000 : Shape := ⟨2, ![640, 2000]⟩
abbrev S40x16x128 : Shape := ⟨3, ![40, 16, 128]⟩
abbrev S40 : Shape := ⟨1, ![40]⟩
abbrev S40x1 : Shape := ⟨2, ![40, 1]⟩
abbrev S2048 : Shape := ⟨1, ![2048]⟩
abbrev S_ : Shape := ⟨0, ![]⟩
abbrev S2048x256 : Shape := ⟨2, ![2048, 256]⟩
abbrev S1x128 : Shape := ⟨2, ![1, 128]⟩
abbrev S128x2 : Shape := ⟨2, ![128, 2]⟩
abbrev S1x2 : Shape := ⟨2, ![1, 2]⟩

abbrev nBuf : Space → Nat
  | .hbm => 84
  | .vmem => 15
  | .smem => 0
  | _ => 0

abbrev bufTy : (tb : Table) → Fin (tcTables nBuf tb) → BufTy
  | .hbm, ⟨0, _⟩ => ⟨S2048x2, .i32⟩
  | .hbm, ⟨1, _⟩ => ⟨S10000x16, .i32⟩
  | .hbm, ⟨2, _⟩ => ⟨S10000x16x8, .i32⟩
  | .hbm, ⟨3, _⟩ => ⟨S10000x16, .i32⟩
  | .hbm, ⟨4, _⟩ => ⟨S50000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x256, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S128x128, .f32⟩
  | .hbm, ⟨14, _⟩ => ⟨S50000x128, .f32⟩
  | .hbm, ⟨15, _⟩ => ⟨S50000x128, .bf16⟩
  | .hbm, ⟨16, _⟩ => ⟨S128x128, .f32⟩
  | .hbm, ⟨17, _⟩ => ⟨S50000x128, .f32⟩
  | .hbm, ⟨18, _⟩ => ⟨S50000x128, .bf16⟩
  | .hbm, ⟨19, _⟩ => ⟨S160000x1, .i32⟩
  | .hbm, ⟨20, _⟩ => ⟨S1280000x1, .i32⟩
  | .hbm, ⟨21, _⟩ => ⟨S10000x128, .f32⟩
  | .hbm, ⟨22, _⟩ => ⟨S128x128, .f32⟩
  | .hbm, ⟨23, _⟩ => ⟨S10000x128, .f32⟩
  | .hbm, ⟨24, _⟩ => ⟨S128x128, .f32⟩
  | .hbm, ⟨25, _⟩ => ⟨S10000x128, .f32⟩
  | .hbm, ⟨26, _⟩ => ⟨S10000x128, .bf16⟩
  | .hbm, ⟨27, _⟩ => ⟨S160000x1, .i32⟩
  | .hbm, ⟨28, _⟩ => ⟨S10000x128, .f32⟩
  | .hbm, ⟨29, _⟩ => ⟨S2048x1, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x128, .f32⟩
  | .hbm, ⟨40, _⟩ => ⟨S2048x1, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048x1, .i32⟩
  | .hbm, ⟨50, _⟩ => ⟨S2048x128, .f32⟩
  | .hbm, ⟨51, _⟩ => ⟨S2048x256, .f32⟩
  | .hbm, ⟨52, _⟩ => ⟨S256x128, .f32⟩
  | .hbm, ⟨53, _⟩ => ⟨S2048x128, .f32⟩
  | .hbm, ⟨54, _⟩ => ⟨S1x128, .f32⟩
  | .hbm, ⟨55, _⟩ => ⟨S2048x128, .f32⟩
  | .hbm, ⟨56, _⟩ => ⟨S2048x128, .f32⟩
  | .hbm, ⟨57, _⟩ => ⟨S_, .f32⟩
  | .hbm, ⟨58, _⟩ => ⟨S_, .f32⟩
  | .hbm, ⟨59, _⟩ => ⟨S2048x128, .f32⟩
  | .hbm, ⟨60, _⟩ => ⟨S2048x128, .i1⟩
  | .hbm, ⟨61, _⟩ => ⟨S_, .f32⟩
  | .hbm, ⟨62, _⟩ => ⟨S2048x128, .f32⟩
  | .hbm, ⟨63, _⟩ => ⟨S2048x128, .f32⟩
  | .hbm, ⟨64, _⟩ => ⟨S2048x128, .f32⟩
  | .hbm, ⟨65, _⟩ => ⟨S128x2, .f32⟩
  | .hbm, ⟨66, _⟩ => ⟨S2048x2, .f32⟩
  | .hbm, ⟨67, _⟩ => ⟨S1x2, .f32⟩
  | .hbm, ⟨68, _⟩ => ⟨S2048x2, .f32⟩
  | .hbm, ⟨69, _⟩ => ⟨S2048x2, .f32⟩
  | .hbm, ⟨70, _⟩ => ⟨S_, .f32⟩
  | .hbm, ⟨71, _⟩ => ⟨S2048, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048x1, .f32⟩
  | .hbm, ⟨76, _⟩ => ⟨S2048x2, .f32⟩
  | .hbm, ⟨77, _⟩ => ⟨S2048x2, .f32⟩
  | .hbm, ⟨78, _⟩ => ⟨S2048x2, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2, .f32⟩
  | .hbm, ⟨83, _⟩ => ⟨S2048x2, .f32⟩
  | .local _ .vmem, ⟨0, _⟩ => ⟨S256x1, .i32⟩
  | .local _ .vmem, ⟨1, _⟩ => ⟨S256x1, .i32⟩
  | .local _ .vmem, ⟨2, _⟩ => ⟨S2048x1, .i32⟩
  | .local _ .vmem, ⟨3, _⟩ => ⟨S2048x1, .i32⟩
  | .local _ .vmem, ⟨4, _⟩ => ⟨S50000x128, .bf16⟩
  | .local _ .vmem, ⟨5, _⟩ => ⟨S50000x128, .bf16⟩
  | .local _ .vmem, ⟨6, _⟩ => ⟨S16x128, .f32⟩
  | .local _ .vmem, ⟨7, _⟩ => ⟨S16x128, .f32⟩
  | .local _ .vmem, ⟨8, _⟩ => ⟨S640x1, .i32⟩
  | .local _ .vmem, ⟨9, _⟩ => ⟨S640x1, .i32⟩
  | .local _ .vmem, ⟨10, _⟩ => ⟨S40x128, .f32⟩
  | .local _ .vmem, ⟨11, _⟩ => ⟨S40x128, .f32⟩
  | .local _ .vmem, ⟨12, _⟩ => ⟨S10000x128, .bf16⟩
  | .local _ .vmem, ⟨13, _⟩ => ⟨S40x128, .f32⟩
  | .local _ .vmem, ⟨14, _⟩ => ⟨S40x128, .f32⟩
  | _, _ => ⟨S2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32 : BitVec 32 := 0#32
  let c25_i32 : BitVec 32 := 25#32
  let v6 : BitVec 32 := Scalar.addi c0_i32 c25_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c2000_i32 : BitVec 32 := 2000#32
  let v25 : BitVec 32 := Scalar.muli arg6 c2000_i32
  v25
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c2000_i32 : BitVec 32 := 2000#32
  let v25 : BitVec 32 := Scalar.muli arg6 c2000_i32
  let v26 : BitVec 32 := v25
  let v30 : Index := Scalar.indexCast v26
  let c0_12 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

@[reducible] def k1_t1_loop : Scf.Loop 32 :=
  let c0_i32 : BitVec 32 := 0#32
  let c5_i32 : BitVec 32 := 5#32
  let v3 : BitVec 32 := Scalar.addi c0_i32 c5_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c2000_i32 : BitVec 32 := 2000#32
  let v22 : BitVec 32 := Scalar.muli arg5 c2000_i32
  v22
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c2000_i32 : BitVec 32 := 2000#32
  let v22 : BitVec 32 := Scalar.muli arg5 c2000_i32
  let v23 : BitVec 32 := v22
  let v27 : Index := Scalar.indexCast v23
  let c0_10 : Index := 0#32
  ![v27.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S40x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  bitsLt_bf16_f32 : FTy.bits .bf16 < FTy.bits .f32
  shapeCasts_S10000x16_S160000x1 : S10000x16.ShapeCasts S160000x1
  shapeCasts_S10000x16x8_S1280000x1 : S10000x16x8.ShapeCasts S1280000x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x2000_d1_w32 : S1x2000.Iotas .tc 32 [1]
  h_S2000x128 : 0 < S2000x128.numel
  shapeCasts_S2000x128_S2000x128 : S2000x128.ShapeCasts S2000x128
  broadcasts_S256x1_S256x2000 : S256x1.Broadcasts S256x2000
  broadcasts_S1x2000_S256x2000 : S1x2000.Broadcasts S256x2000
  natLt_1_32 : 1 < 32
  broadcasts_S2048x1_S2048x2000 : S2048x1.Broadcasts S2048x2000
  broadcasts_S1x2000_S2048x2000 : S1x2000.Broadcasts S2048x2000
  shapeCasts_S2048x128_S256x8x128 : S2048x128.ShapeCasts S256x8x128
  reduces_S256x8x128_S256x128 : S256x8x128.Reduces [1] S256x128
  shapeCasts_S256x128_S16x16x128 : S256x128.ShapeCasts S16x16x128
  reduces_S16x16x128_S16x128 : S16x16x128.Reduces [1] S16x128
  reduces_S16x128_S16 : S16x128.Reduces [1] S16
  shapeCasts_S16_S16x1 : S16.ShapeCasts S16x1
  broadcasts_S16x1_S16x128 : S16x1.Broadcasts S16x128
  inb_S16x128_S16x128_0_0 : ∀ a, (![0, 0] : Fin 2 → Nat) a + S16x128.size a ≤ S16x128.size a
  h_S16x128 : 0 < S16x128.numel
  inb_S640x1_S640x1_0_0 : ∀ a, (![0, 0] : Fin 2 → Nat) a + S640x1.size a ≤ S640x1.size a
  h_S640x1 : 0 < S640x1.numel
  shapeCasts_S640x1_S640x1 : S640x1.ShapeCasts S640x1
  broadcasts_S640x1_S640x2000 : S640x1.Broadcasts S640x2000
  broadcasts_S1x2000_S640x2000 : S1x2000.Broadcasts S640x2000
  shapeCasts_S640x128_S40x16x128 : S640x128.ShapeCasts S40x16x128
  reduces_S40x16x128_S40x128 : S40x16x128.Reduces [1] S40x128
  inb_S40x128_S40x128_0_0 : ∀ a, (![0, 0] : Fin 2 → Nat) a + S40x128.size a ≤ S40x128.size a
  h_S40x128 : 0 < S40x128.numel
  shapeCasts_S40x128_S40x128 : S40x128.ShapeCasts S40x128
  reduces_S40x128_S40 : S40x128.Reduces [1] S40
  shapeCasts_S40_S40x1 : S40.ShapeCasts S40x1
  broadcasts_S40x1_S40x128 : S40x1.Broadcasts S40x128
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_1 : S2048x2.Slices ![0, 1] S2048x1
  concatenates_S2048x128_S2048x128_S2048x256_d1 : Shape.Concatenates [S2048x128, S2048x128] S2048x256 1
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  transposes_S2x128_S128x2_1_0 : S2x128.Transposes [1, 0] S128x2
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2048_d1 : S2048x2.ReducesTo [1] S2048
  h_S_ : 0 < S_.numel
  bcast_S2048x1_S2048x2_0_1 : S2048x1.BroadcastsInDim S2048x2 (![0, 1] : Fin 2 → Fin S2048x2.rank)
  dot_S50000x128_S128x128_S50000x128_1_0_0_1_n_n_wf : DotDims.WF S50000x128 S128x128 S50000x128 [1] [0] [0] [1] [] []
  dot_S256x2000_S2000x128_S256x128_1_0_0_1_n_n_wf : DotDims.WF S256x2000 S2000x128 S256x128 [1] [0] [0] [1] [] []
  dot_S2048x2000_S2000x128_S2048x128_1_0_0_1_n_n_wf : DotDims.WF S2048x2000 S2000x128 S2048x128 [1] [0] [0] [1] [] []
  dot_S10000x128_S128x128_S10000x128_1_0_0_1_n_n_wf : DotDims.WF S10000x128 S128x128 S10000x128 [1] [0] [0] [1] [] []
  dot_S640x2000_S2000x128_S640x128_1_0_0_1_n_n_wf : DotDims.WF S640x2000 S2000x128 S640x128 [1] [0] [0] [1] [] []
  gather_S10000x128_S2048x1_S2048x128_1_0_n_n_0_1_1128_wf : GatherDims.WF S10000x128 S2048x1 S2048x128 [1] [0] [] [0] [] 1 ![1, 128]
  dot_S2048x256_S256x128_S2048x128_1_0_0_1_n_n_wf : DotDims.WF S2048x256 S256x128 S2048x128 [1] [0] [0] [1] [] []
  dot_S2048x128_S128x2_S2048x2_1_0_0_1_n_n_wf : DotDims.WF S2048x128 S128x2 S2048x2 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S2000x128.size a ≤ S50000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S160000x1.size a
  hwx0_0 : ∀ i : grid0.Coords, EltTy.bits .i32 = 32 ∨ (Rect.block (s := S160000x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S1280000x1.size a
  hwx0_1 : ∀ i : grid0.Coords, EltTy.bits .i32 = 32 ∨ (Rect.block (s := S1280000x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50000x128.size a ≤ S50000x128.size a
  hwx0_2 : ∀ i : grid0.Coords, EltTy.bits .bf16 = 32 ∨ (Rect.block (s := S50000x128) S50000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50000x128.size a ≤ S50000x128.size a
  hwx0_3 : ∀ i : grid0.Coords, EltTy.bits .bf16 = 32 ∨ (Rect.block (s := S50000x128) S50000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S10000x128.size a
  hwx0_4 : ∀ i : grid0.Coords, EltTy.bits .f32 = 32 ∨ (Rect.block (s := S10000x128) S16x128.size (cc0_transform_4 i) (hinb0_4 i)).WholeWords (EltTy.packing .f32)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S2000x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x1.size a ≤ S160000x1.size a
  hwx1_0 : ∀ i : grid1.Coords, EltTy.bits .i32 = 32 ∨ (Rect.block (s := S160000x1) S640x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S40x128.size a ≤ S10000x128.size a
  hwx1_1 : ∀ i : grid1.Coords, EltTy.bits .f32 = 32 ∨ (Rect.block (s := S10000x128) S40x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S40x128.size a ≤ S10000x128.size a
  hwx1_3 : ∀ i : grid1.Coords, EltTy.bits .f32 = 32 ∨ (Rect.block (s := S10000x128) S40x128.size (cc1_transform_3 i) (hinb1_3 i)).WholeWords (EltTy.packing .f32)

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S256x2000_S2000x128_S256x128_1_0_0_1_n_n : DotDims S256x2000 S2000x128 S256x128 where
  lhsContracting := [1]
  rhsContracting := [0]
  lhsNonContracting := [0]
  rhsNonContracting := [1]
  lhsBatch := []
  rhsBatch := []
  wf := dot_S256x2000_S2000x128_S256x128_1_0_0_1_n_n_wf
def dot_S2048x2000_S2000x128_S2048x128_1_0_0_1_n_n : DotDims S2048x2000 S2000x128 S2048x128 where
  lhsContracting := [1]
  rhsContracting := [0]
  lhsNonContracting := [0]
  rhsNonContracting := [1]
  lhsBatch := []
  rhsBatch := []
  wf := dot_S2048x2000_S2000x128_S2048x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S640x2000_S2000x128_S640x128_1_0_0_1_n_n : DotDims S640x2000 S2000x128 S640x128 where
  lhsContracting := [1]
  rhsContracting := [0]
  lhsNonContracting := [0]
  rhsNonContracting := [1]
  lhsBatch := []
  rhsBatch := []
  wf := dot_S640x2000_S2000x128_S640x128_1_0_0_1_n_n_wf
def gather_S10000x128_S2048x1_S2048x128_1_0_n_n_0_1_1128 : GatherDims S10000x128 S2048x1 S2048x128 where
  offsetDims := [1]
  collapsedSliceDims := [0]
  operandBatchingDims := []
  startIndicesBatchingDims := []
  startIndexMap := [0]
  indexVectorDim := 1
  sliceSizes := ![1, 128]
  wf := gather_S10000x128_S2048x1_S2048x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v6) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S50000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S50000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S640x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S40x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S40x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x2 : Shape := ⟨2, ![2048, 2]⟩
abbrev S10000x16 : Shape := ⟨2, ![10000, 16]⟩
abbrev S10000x16x8 : Shape := ⟨3, ![10000, 16, 8]⟩
abbrev S50000x128 : Shape := ⟨2, ![50000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩
abbrev S10000x16x1 : Shape := ⟨3, ![10000, 16, 1]⟩
abbrev S10000x16x128 : Shape := ⟨3, ![10000, 16, 128]⟩
abbrev S10000x16x8x1 : Shape := ⟨4, ![10000, 16, 8, 1]⟩
abbrev S10000x16x8x128 : Shape := ⟨4, ![10000, 16, 8, 128]⟩
abbrev S10000x128 : Shape := ⟨2, ![10000, 128]⟩
abbrev S10000 : Shape := ⟨1, ![10000]⟩
abbrev S10000x1 : Shape := ⟨2, ![10000, 1]⟩
abbrev S2048x1 : Shape := ⟨2, ![2048, 1]⟩
abbrev S2048 : Shape := ⟨1, ![2048]⟩
abbrev S2048x128 : Shape := ⟨2, ![2048, 128]⟩
abbrev S2048x256 : Shape := ⟨2, ![2048, 256]⟩
abbrev S256x128 : Shape := ⟨2, ![256, 128]⟩
abbrev S1x128 : Shape := ⟨2, ![1, 128]⟩
abbrev S128x2 : Shape := ⟨2, ![128, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S2048x2, .i32⟩
  | 1 => ⟨S10000x16, .i32⟩
  | 2 => ⟨S10000x16x8, .i32⟩
  | 3 => ⟨S10000x16, .i32⟩
  | 4 => ⟨S50000x128, .f32⟩
  | 5 => ⟨S128x128, .f32⟩
  | 6 => ⟨S128x128, .f32⟩
  | 7 => ⟨S128x128, .f32⟩
  | 8 => ⟨S128x128, .f32⟩
  | 9 => ⟨S128x256, .f32⟩
  | 10 => ⟨S128, .f32⟩
  | 11 => ⟨S2x128, .f32⟩
  | 12 => ⟨S2, .f32⟩
  | 13 => ⟨S_, .i32⟩
  | 14 => ⟨S10000x16, .i32⟩
  | 15 => ⟨S10000x16, .i1⟩
  | 16 => ⟨S_, .i32⟩
  | 17 => ⟨S10000x16, .i32⟩
  | 18 => ⟨S10000x16, .i32⟩
  | 19 => ⟨S10000x16, .i32⟩
  | 20 => ⟨S10000x16x1, .i32⟩
  | 21 => ⟨S10000x16x128, .f32⟩
  | 22 => ⟨S_, .i32⟩
  | 23 => ⟨S10000x16x8, .i32⟩
  | 24 => ⟨S10000x16x8, .i1⟩
  | 25 => ⟨S_, .i32⟩
  | 26 => ⟨S10000x16x8, .i32⟩
  | 27 => ⟨S10000x16x8, .i32⟩
  | 28 => ⟨S10000x16x8, .i32⟩
  | 29 => ⟨S10000x16x8x1, .i32⟩
  | 30 => ⟨S10000x16x8x128, .f32⟩
  | 31 => ⟨S_, .f32⟩
  | 32 => ⟨S10000x16x128, .f32⟩
  | 33 => ⟨S10000x16x128, .f32⟩
  | 34 => ⟨S10000x16x128, .f32⟩
  | 35 => ⟨S10000x16x128, .f32⟩
  | 36 => ⟨S_, .f32⟩
  | 37 => ⟨S10000x16x128, .f32⟩
  | 38 => ⟨S10000x16x128, .f32⟩
  | 39 => ⟨S_, .f32⟩
  | 40 => ⟨S10000x128, .f32⟩
  | 41 => ⟨S_, .f32⟩
  | 42 => ⟨S10000, .f32⟩
  | 43 => ⟨S_, .f32⟩
  | 44 => ⟨S10000, .f32⟩
  | 45 => ⟨S10000, .f32⟩
  | 46 => ⟨S10000x1, .f32⟩
  | 47 => ⟨S10000x128, .f32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S10000x128, .f32⟩
  | 54 => ⟨S10000x128, .f32⟩
  | 55 => ⟨S_, .i32⟩
  | 56 => ⟨S10000x16, .i32⟩
  | 57 => ⟨S10000x16, .i1⟩
  | 58 => ⟨S_, .i32⟩
  | 59 => ⟨S10000x16, .i32⟩
  | 60 => ⟨S10000x16, .i32⟩
  | 61 => ⟨S10000x16, .i32⟩
  | 62 => ⟨S10000x16x1, .i32⟩
  | 63 => ⟨S10000x16x128, .f32⟩
  | 64 => ⟨S_, .f32⟩
  | 65 => ⟨S10000x128, .f32⟩
  | 66 => ⟨S10000x128, .f32⟩
  | 67 => ⟨S10000x128, .f32⟩
  | 68 => ⟨S10000x128, .f32⟩
  | 69 => ⟨S_, .f32⟩
  | 70 => ⟨S10000x128, .f32⟩
  | 71 => ⟨S10000x128, .f32⟩
  | 72 => ⟨S_, .f32⟩
  | 73 => ⟨S10000, .f32⟩
  | 74 => ⟨S_, .f32⟩
  | 75 => ⟨S10000, .f32⟩
  | 76 => ⟨S10000, .f32⟩
  | 77 => ⟨S10000x1, .f32⟩
  | 78 => ⟨S10000x128, .f32⟩
  | 79 => ⟨S10000x128, .f32⟩
  | 80 => ⟨S10000x128, .f32⟩
  | 81 => ⟨S_, .f32⟩
  | 82 => ⟨S10000, .f32⟩
  | 83 => ⟨S10000x1, .f32⟩
  | 84 => ⟨S10000x128, .f32⟩
  | 85 => ⟨S10000x128, .f32⟩
  | 86 => ⟨S2048x1, .i32⟩
  | 87 => ⟨S2048, .i32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S2048x128, .f32⟩
  | 97 => ⟨S2048x1, .i32⟩
  | 98 => ⟨S2048, .i32⟩
  | 99 => ⟨S_, .i32⟩
  | 100 => ⟨S2048, .i32⟩
  | 101 => ⟨S2048, .i1⟩
  | 102 => ⟨S_, .i32⟩
  | 103 => ⟨S2048, .i32⟩
  | 104 => ⟨S2048, .i32⟩
  | 105 => ⟨S2048, .i32⟩
  | 106 => ⟨S2048x1, .i32⟩
  | 107 => ⟨S2048x128, .f32⟩
  | 108 => ⟨S2048x256, .f32⟩
  | 109 => ⟨S256x128, .f32⟩
  | 110 => ⟨S2048x128, .f32⟩
  | 111 => ⟨S1x128, .f32⟩
  | 112 => ⟨S2048x128, .f32⟩
  | 113 => ⟨S2048x128, .f32⟩
  | 114 => ⟨S_, .f32⟩
  | 115 => ⟨S2048x128, .f32⟩
  | 116 => ⟨S2048x128, .i1⟩
  | 117 => ⟨S_, .f32⟩
  | 118 => ⟨S2048x128, .f32⟩
  | 119 => ⟨S2048x128, .f32⟩
  | 120 => ⟨S2048x128, .f32⟩
  | 121 => ⟨S128x2, .f32⟩
  | 122 => ⟨S2048x2, .f32⟩
  | 123 => ⟨S1x2, .f32⟩
  | 124 => ⟨S2048x2, .f32⟩
  | 125 => ⟨S2048x2, .f32⟩
  | 126 => ⟨S_, .f32⟩
  | 127 => ⟨S2048, .f32⟩
  | _ => ⟨S2048x2, .i32⟩

abbrev hbmTy0_1 (i : Nat) : BufTy := match i % 128 with
  | 0 => ⟨S_, .f32⟩
  | 1 => ⟨S2048, .f32⟩
  | 2 => ⟨S2048, .f32⟩
  | 3 => ⟨S2048x1, .f32⟩
  | 4 => ⟨S2048x2, .f32⟩
  | 5 => ⟨S2048x2, .f32⟩
  | 6 => ⟨S2048x2, .f32⟩
  | 7 => ⟨S_, .f32⟩
  | 8 => ⟨S2048, .f32⟩
  | 9 => ⟨S2048x1, .f32⟩
  | 10 => ⟨S2048x2, .f32⟩
  | 11 => ⟨S2048x2, .f32⟩
  | _ => ⟨S2048x2, .i32⟩

abbrev hbmTy (i : Nat) : BufTy := match i / 128 with
  | 0 => hbmTy0_0 i
  | 1 => hbmTy0_1 i
  | _ => ⟨S2048x2, .i32⟩

abbrev bufTy : (tb : Table) → Fin (tcTables nBuf tb) → BufTy
  | .hbm, ⟨i, _⟩ => hbmTy i
  | _, _ => ⟨S2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_cst : Ref sig .tc := ⟨.hbm, 36, rfl⟩
abbrev main_call0_v0 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_cst : Ref sig .tc := ⟨.hbm, 69, rfl⟩
abbrev main_call1_v0 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_c_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_cst_18 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  bcast_S10000x16_S10000x16x1_0_1 : S10000x16.BroadcastsInDim S10000x16x1 (![0, 1] : Fin 2 → Fin S10000x16x1.rank)
  bcast_S_S10000x16x8 : S_.BroadcastsInDim S10000x16x8 (![] : Fin 0 → Fin S10000x16x8.rank)
  bcast_S10000x16x8_S10000x16x8x1_0_1_2 : S10000x16x8.BroadcastsInDim S10000x16x8x1 (![0, 1, 2] : Fin 3 → Fin S10000x16x8x1.rank)
  reducesTo_S10000x16x8x128_S10000x16x128_d2 : S10000x16x8x128.ReducesTo [2] S10000x16x128
  h_S_ : 0 < S_.numel
  bcast_S_S10000x16x128 : S_.BroadcastsInDim S10000x16x128 (![] : Fin 0 → Fin S10000x16x128.rank)
  reducesTo_S10000x16x128_S10000x128_d1 : S10000x16x128.ReducesTo [1] S10000x128
  reducesTo_S10000x128_S10000_d1 : S10000x128.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_1 : S2048x2.Slices ![0, 1] S2048x1
  concatenates_S2048x128_S2048x128_S2048x256_d1 : Shape.Concatenates [S2048x128, S2048x128] S2048x256 1
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  transposes_S2x128_S128x2_1_0 : S2x128.Transposes [1, 0] S128x2
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  reducesTo_S2048x2_S2048_d1 : S2048x2.ReducesTo [1] S2048
  bcast_S2048x1_S2048x2_0_1 : S2048x1.BroadcastsInDim S2048x2 (![0, 1] : Fin 2 → Fin S2048x2.rank)
  gather_S50000x128_S10000x16x1_S10000x16x128_2_0_n_n_0_2_1128_wf : GatherDims.WF S50000x128 S10000x16x1 S10000x16x128 [2] [0] [] [0] [] 2 ![1, 128]
  gather_S50000x128_S10000x16x8x1_S10000x16x8x128_3_0_n_n_0_3_1128_wf : GatherDims.WF S50000x128 S10000x16x8x1 S10000x16x8x128 [3] [0] [] [0] [] 3 ![1, 128]
  dot_S10000x16x128_S128x128_S10000x16x128_2_1_01_0_n_n_wf : DotDims.WF S10000x16x128 S128x128 S10000x16x128 [2] [1] [0, 1] [0] [] []
  gather_S10000x128_S10000x16x1_S10000x16x128_2_0_n_n_0_2_1128_wf : GatherDims.WF S10000x128 S10000x16x1 S10000x16x128 [2] [0] [] [0] [] 2 ![1, 128]
  dot_S10000x128_S128x128_S10000x128_1_1_0_0_n_n_wf : DotDims.WF S10000x128 S128x128 S10000x128 [1] [1] [0] [0] [] []
  gather_S10000x128_S2048x1_S2048x128_1_0_n_n_0_1_1128_wf : GatherDims.WF S10000x128 S2048x1 S2048x128 [1] [0] [] [0] [] 1 ![1, 128]
  dot_S2048x256_S256x128_S2048x128_1_0_0_1_n_n_wf : DotDims.WF S2048x256 S256x128 S2048x128 [1] [0] [0] [1] [] []
  dot_S2048x128_S128x2_S2048x2_1_0_0_1_n_n_wf : DotDims.WF S2048x128 S128x2 S2048x2 [1] [0] [0] [1] [] []

variable [Facts₀]

def gather_S50000x128_S10000x16x1_S10000x16x128_2_0_n_n_0_2_1128 : GatherDims S50000x128 S10000x16x1 S10000x16x128 where
  offsetDims := [2]
  collapsedSliceDims := [0]
  operandBatchingDims := []
  startIndicesBatchingDims := []
  startIndexMap := [0]
  indexVectorDim := 2
  sliceSizes := ![1, 128]
  wf := gather_S50000x128_S10000x16x1_S10000x16x128_2_0_n_n_0_2_1128_wf
def gather_S50000x128_S10000x16x8x1_S10000x16x8x128_3_0_n_n_0_3_1128 : GatherDims S50000x128 S10000x16x8x1 S10000x16x8x128 where
  offsetDims := [3]
  collapsedSliceDims := [0]
  operandBatchingDims := []
  startIndicesBatchingDims := []
  startIndexMap := [0]
  indexVectorDim := 3
  sliceSizes := ![1, 128]
  wf := gather_S50000x128_S10000x16x8x1_S10000x16x8x128_3_0_n_n_0_3_1128_wf
def dot_S10000x16x128_S128x128_S10000x16x128_2_1_01_0_n_n : DotDims S10000x16x128 S128x128 S10000x16x128 where
  lhsContracting := [2]
  rhsContracting := [1]
  lhsNonContracting := [0, 1]
  rhsNonContracting := [0]
  lhsBatch := []
  rhsBatch := []
  wf := dot_S10000x16x128_S128x128_S10000x16x128_2_1_01_0_n_n_wf
def gather_S10000x128_S10000x16x1_S10000x16x128_2_0_n_n_0_2_1128 : GatherDims S10000x128 S10000x16x1 S10000x16x128 where
  offsetDims := [2]
  collapsedSliceDims := [0]
  operandBatchingDims := []
  startIndicesBatchingDims := []
  startIndexMap := [0]
  indexVectorDim := 2
  sliceSizes := ![1, 128]
  wf := gather_S10000x128_S10000x16x1_S10000x16x128_2_0_n_n_0_2_1128_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S10000x128_S2048x1_S2048x128_1_0_n_n_0_1_1128 : GatherDims S10000x128 S2048x1 S2048x128 where
  offsetDims := [1]
  collapsedSliceDims := [0]
  operandBatchingDims := []
  startIndicesBatchingDims := []
  startIndexMap := [0]
  indexVectorDim := 1
  sliceSizes := ![1, 128]
  wf := gather_S10000x128_S2048x1_S2048x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.Tail.lean ====
import proofs.«404633_j41051297415545_3_alg».proof.Proof.Gen.KernelIdeal
import Idealize.ShloMosaic.PureOps.Ideal

noncomputable section

namespace Cert.KernelIdeal.Tail

open Idealize.ShloMosaic Cert.KernelIdeal Cert.KernelIdeal.Facts₀

variable {F : FTy → Type} [FloatOps F]

/-- The host operations after the second kernel region (55 of them), as a function of that region's result and the arguments they read. -/
def tail (main_v15 : (⟨S10000x128, .f32⟩ : BufTy).Contents (Elt F)) (main_arg0 : (⟨S2048x2, .i32⟩ : BufTy).Contents (Elt F)) (main_arg9 : (⟨S128x256, .f32⟩ : BufTy).Contents (Elt F)) (main_arg10 : (⟨S128, .f32⟩ : BufTy).Contents (Elt F)) (main_arg11 : (⟨S2x128, .f32⟩ : BufTy).Contents (Elt F)) (main_arg12 : (⟨S2, .f32⟩ : BufTy).Contents (Elt F)) :
    (⟨S2048x2, .f32⟩ : BufTy).Contents (Elt F) :=
  let main_v16 : (⟨S2048x1, .i32⟩ : BufTy).Contents (Elt F) := ((extractStridedSlice S2048x1 ![0, 0] · slices_S2048x2_S2048x1_0_0) : (⟨S2048x2, .i32⟩ : BufTy).Contents (Elt F) → (⟨S2048x1, .i32⟩ : BufTy).Contents (Elt F)) main_arg0
  let main_v17 : (⟨S2048, .i32⟩ : BufTy).Contents (Elt F) := shapeCast S2048 main_v16 shapeCasts_S2048x1_S2048
  let main_c : (⟨S_, .i32⟩ : BufTy).Contents (Elt F) := (constantI S_ 32 0#32)
  let main_v18 : (⟨S2048, .i32⟩ : BufTy).Contents (Elt F) := (broadcastInDim S2048 ![] bcast_S_S2048 : (⟨S_, .i32⟩ : BufTy).Contents (Elt F) → (⟨S2048, .i32⟩ : BufTy).Contents (Elt F)) main_c
  let main_v19 : (⟨S2048, .i1⟩ : BufTy).Contents (Elt F) := (cmpi .slt : (⟨S2048, .i32⟩ : BufTy).Contents (Elt F) → (⟨S2048, .i32⟩ : BufTy).Contents (Elt F) → (⟨S2048, .i1⟩ : BufTy).Contents (Elt F)) main_v17 main_v18
  let main_c_0 : (⟨S_, .i32⟩ : BufTy).Contents (Elt F) := (constantI S_ 32 10000#32)
  let main_v20 : (⟨S2048, .i32⟩ : BufTy).Contents (Elt F) := (broadcastInDim S2048 ![] bcast_S_S2048 : (⟨S_, .i32⟩ : BufTy).Contents (Elt F) → (⟨S2048, .i32⟩ : BufTy).Contents (Elt F)) main_c_0
  let main_v21 : (⟨S2048, .i32⟩ : BufTy).Contents (Elt F) := (addi : (⟨S2048, .i32⟩ : BufTy).Contents (Elt F) → (⟨S2048, .i32⟩ : BufTy).Contents (Elt F) → (⟨S2048, .i32⟩ : BufTy).Contents (Elt F)) main_v17 main_v20
  let main_v22 : (⟨S2048, .i32⟩ : BufTy).Contents (Elt F) := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) main_v19 main_v21 main_v17
  let main_v23 : (⟨S2048x1, .i32⟩ : BufTy).Contents (Elt F) := (broadcastInDim S2048x1 ![0] bcast_S2048_S2048x1_0 : (⟨S2048, .i32⟩ : BufTy).Contents (Elt F) → (⟨S2048x1, .i32⟩ : BufTy).Contents (Elt F)) main_v22
  let main_v24 : (⟨S2048x128, .f32⟩ : BufTy).Contents (Elt F) := ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)) main_v15 main_v23
  let main_v25 : (⟨S2048x1, .i32⟩ : BufTy).Contents (Elt F) := ((extractStridedSlice S2048x1 ![0, 1] · slices_S2048x2_S2048x1_0_1) : (⟨S2048x2, .i32⟩ : BufTy).Contents (Elt F) → (⟨S2048x1, .i32⟩ : BufTy).Contents (Elt F)) main_arg0
  let main_v26 : (⟨S2048, .i32⟩ : BufTy).Contents (Elt F) := shapeCast S2048 main_v25 shapeCasts_S2048x1_S2048
  let main_c_1 : (⟨S_, .i32⟩ : BufTy).Contents (Elt F) := (constantI S_ 32 0#32)
  let main_v27 : (⟨S2048, .i32⟩ : BufTy).Contents (Elt F) := (broadcastInDim S2048 ![] bcast_S_S2048 : (⟨S_, .i32⟩ : BufTy).Contents (Elt F) → (⟨S2048, .i32⟩ : BufTy).Contents (Elt F)) main_c_1
  let main_v28 : (⟨S2048, .i1⟩ : BufTy).Contents (Elt F) := (cmpi .slt : (⟨S2048, .i32⟩ : BufTy).Contents (Elt F) → (⟨S2048, .i32⟩ : BufTy).Contents (Elt F) → (⟨S2048, .i1⟩ : BufTy).Contents (Elt F)) main_v26 main_v27
  let main_c_2 : (⟨S_, .i32⟩ : BufTy).Contents (Elt F) := (constantI S_ 32 10000#32)
  let main_v29 : (⟨S2048, .i32⟩ : BufTy).Contents (Elt F) := (broadcastInDim S2048 ![] bcast_S_S2048 : (⟨S_, .i32⟩ : BufTy).Contents (Elt F) → (⟨S2048, .i32⟩ : BufTy).Contents (Elt F)) main_c_2
  let main_v30 : (⟨S2048, .i32⟩ : BufTy).Contents (Elt F) := (addi : (⟨S2048, .i32⟩ : BufTy).Contents (Elt F) → (⟨S2048, .i32⟩ : BufTy).Contents (Elt F) → (⟨S2048, .i32⟩ : BufTy).Contents (Elt F)) main_v26 main_v29
  let main_v31 : (⟨S2048, .i32⟩ : BufTy).Contents (Elt F) := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) main_v28 main_v30 main_v26
  let main_v32 : (⟨S2048x1, .i32⟩ : BufTy).Contents (Elt F) := (broadcastInDim S2048x1 ![0] bcast_S2048_S2048x1_0 : (⟨S2048, .i32⟩ : BufTy).Contents (Elt F) → (⟨S2048x1, .i32⟩ : BufTy).Contents (Elt F)) main_v31
  let main_v33 : (⟨S2048x128, .f32⟩ : BufTy).Contents (Elt F) := ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)) main_v15 main_v32
  let main_v34 : (⟨S2048x256, .f32⟩ : BufTy).Contents (Elt F) := ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)) main_v24 main_v33
  let main_v35 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) main_arg9
  let main_v36 : (⟨S2048x128, .f32⟩ : BufTy).Contents (Elt F) := ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)) main_v34 main_v35
  let main_v37 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg10
  let main_v38 : (⟨S2048x128, .f32⟩ : BufTy).Contents (Elt F) := (broadcastInDim S2048x128 ![0, 1] bcast_S1x128_S2048x128_0_1 : (⟨S1x128, .f32⟩ : BufTy).Contents (Elt F) → (⟨S2048x128, .f32⟩ : BufTy).Contents (Elt F)) main_v37
  let main_v39 : (⟨S2048x128, .f32⟩ : BufTy).Contents (Elt F) := (addf : (⟨S2048x128, .f32⟩ : BufTy).Contents (Elt F) → (⟨S2048x128, .f32⟩ : BufTy).Contents (Elt F) → (⟨S2048x128, .f32⟩ : BufTy).Contents (Elt F)) main_v36 main_v38
  let main_cst : (⟨S_, .f32⟩ : BufTy).Contents (Elt F) := (constant S_ .f32 0x3C23D70A#32)
  let main_call0_cst : (⟨S_, .f32⟩ : BufTy).Contents (Elt F) := (constant S_ .f32 0x00000000#32)
  let main_call0_v0 : (⟨S2048x128, .f32⟩ : BufTy).Contents (Elt F) := (broadcastInDim S2048x128 ![] bcast_S_S2048x128) main_call0_cst
  let main_call0_v1 : (⟨S2048x128, .i1⟩ : BufTy).Contents (Elt F) := (cmpf .oge) main_v39 main_call0_v0
  let main_call0_v2 : (⟨S_, .f32⟩ : BufTy).Contents (Elt F) := id main_cst
  let main_call0_v3 : (⟨S2048x128, .f32⟩ : BufTy).Contents (Elt F) := (broadcastInDim S2048x128 ![] bcast_S_S2048x128) main_call0_v2
  let main_call0_v4 : (⟨S2048x128, .f32⟩ : BufTy).Contents (Elt F) := mulf main_call0_v3 main_v39
  let main_v40 : (⟨S2048x128, .f32⟩ : BufTy).Contents (Elt F) := select main_call0_v1 main_v39 main_call0_v4
  let main_v41 : (⟨S128x2, .f32⟩ : BufTy).Contents (Elt F) := ((transpose S128x2 [1, 0] · transposes_S2x128_S128x2_1_0) : (⟨S2x128, .f32⟩ : BufTy).Contents (Elt F) → (⟨S128x2, .f32⟩ : BufTy).Contents (Elt F)) main_arg11
  let main_v42 : (⟨S2048x2, .f32⟩ : BufTy).Contents (Elt F) := ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)) main_v40 main_v41
  let main_v43 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) main_arg12
  let main_v44 : (⟨S2048x2, .f32⟩ : BufTy).Contents (Elt F) := (broadcastInDim S2048x2 ![0, 1] bcast_S1x2_S2048x2_0_1 : (⟨S1x2, .f32⟩ : BufTy).Contents (Elt F) → (⟨S2048x2, .f32⟩ : BufTy).Contents (Elt F)) main_v43
  let main_v45 : (⟨S2048x2, .f32⟩ : BufTy).Contents (Elt F) := (addf : (⟨S2048x2, .f32⟩ : BufTy).Contents (Elt F) → (⟨S2048x2, .f32⟩ : BufTy).Contents (Elt F) → (⟨S2048x2, .f32⟩ : BufTy).Contents (Elt F)) main_v42 main_v44
  let main_cst_3 : (⟨S_, .f32⟩ : BufTy).Contents (Elt F) := (constant S_ .f32 0xFF800000#32)
  let main_v46 : (⟨S2048, .f32⟩ : BufTy).Contents (Elt F) := ((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)) main_v45 main_cst_3
  let main_cst_4 : (⟨S_, .f32⟩ : BufTy).Contents (Elt F) := (constant S_ .f32 0xFF800000#32)
  let main_v47 : (⟨S2048, .f32⟩ : BufTy).Contents (Elt F) := (broadcastInDim S2048 ![] bcast_S_S2048 : (⟨S_, .f32⟩ : BufTy).Contents (Elt F) → (⟨S2048, .f32⟩ : BufTy).Contents (Elt F)) main_cst_4
  let main_v48 : (⟨S2048, .f32⟩ : BufTy).Contents (Elt F) := (maximumf : (⟨S2048, .f32⟩ : BufTy).Contents (Elt F) → (⟨S2048, .f32⟩ : BufTy).Contents (Elt F) → (⟨S2048, .f32⟩ : BufTy).Contents (Elt F)) main_v47 main_v46
  let main_v49 : (⟨S2048x1, .f32⟩ : BufTy).Contents (Elt F) := (broadcastInDim S2048x1 ![0] bcast_S2048_S2048x1_0 : (⟨S2048, .f32⟩ : BufTy).Contents (Elt F) → (⟨S2048x1, .f32⟩ : BufTy).Contents (Elt F)) main_v48
  let main_v50 : (⟨S2048x2, .f32⟩ : BufTy).Contents (Elt F) := (broadcastInDim S2048x2 ![0, 1] bcast_S2048x1_S2048x2_0_1 : (⟨S2048x1, .f32⟩ : BufTy).Contents (Elt F) → (⟨S2048x2, .f32⟩ : BufTy).Contents (Elt F)) main_v49
  let main_v51 : (⟨S2048x2, .f32⟩ : BufTy).Contents (Elt F) := (subf : (⟨S2048x2, .f32⟩ : BufTy).Contents (Elt F) → (⟨S2048x2, .f32⟩ : BufTy).Contents (Elt F) → (⟨S2048x2, .f32⟩ : BufTy).Contents (Elt F)) main_v45 main_v50
  let main_v52 : (⟨S2048x2, .f32⟩ : BufTy).Contents (Elt F) := (Host.exp : (⟨S2048x2, .f32⟩ : BufTy).Contents (Elt F) → (⟨S2048x2, .f32⟩ : BufTy).Contents (Elt F)) main_v51
  let main_cst_5 : (⟨S_, .f32⟩ : BufTy).Contents (Elt F) := (constant S_ .f32 0x00000000#32)
  let main_v53 : (⟨S2048, .f32⟩ : BufTy).Contents (Elt F) := ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)) main_v52 main_cst_5
  let main_v54 : (⟨S2048x1, .f32⟩ : BufTy).Contents (Elt F) := (broadcastInDim S2048x1 ![0] bcast_S2048_S2048x1_0 : (⟨S2048, .f32⟩ : BufTy).Contents (Elt F) → (⟨S2048x1, .f32⟩ : BufTy).Contents (Elt F)) main_v53
  let main_v55 : (⟨S2048x2, .f32⟩ : BufTy).Contents (Elt F) := (broadcastInDim S2048x2 ![0, 1] bcast_S2048x1_S2048x2_0_1 : (⟨S2048x1, .f32⟩ : BufTy).Contents (Elt F) → (⟨S2048x2, .f32⟩ : BufTy).Contents (Elt F)) main_v54
  let main_v56 : (⟨S2048x2, .f32⟩ : BufTy).Contents (Elt F) := (Host.divf : (⟨S2048x2, .f32⟩ : BufTy).Contents (Elt F) → (⟨S2048x2, .f32⟩ : BufTy).Contents (Elt F) → (⟨S2048x2, .f32⟩ : BufTy).Contents (Elt F)) main_v52 main_v55
  main_v56

end Cert.KernelIdeal.Tail

end
-- ==== Proof.HostK.lean ====
/- What the kernel program's host operations leave in the buffers the two regions and the result read, as functions of
   the contents before each stretch. -/
import proofs.«404633_j41051297415545_3_alg».proof.Proof.Gen.KernelIdeal.Frame
import proofs.«404633_j41051297415545_3_alg».proof.Proof.Tail

noncomputable section

namespace Cert.KernelIdeal.HostK

open Idealize.ShloMosaic Idealize.ShloMosaic.TcCoe Idealize.SL.Sem Idealize.ShloMosaic.StableHlo
open Cert.KernelIdeal Cert.KernelIdeal.Gen

variable (X : Valuation τ sig (Elt Ideal))

/-! ## Before the first region -/

theorem ops0_v2 : after (hostOps0 (F := Ideal)) X (Proc.devRef .tc main_v2)
    = truncf (F := Ideal) .bf16 (Host.dotGeneral (F := Ideal) (φ₁ := .f32) (φ₂ := .f32) dot_S50000x128_S128x128_S50000x128_1_0_0_1_n_n none (X (Proc.devRef .tc main_arg4) : FVec Ideal S50000x128 .f32)
        (transpose S128x128 [1, 0] (X (Proc.devRef .tc main_arg5) : FVec Ideal S128x128 .f32) transposes_S128x128_S128x128_1_0)) bitsLt_bf16_f32 := by
  after_results <;> rfl

theorem ops0_v5 : after (hostOps0 (F := Ideal)) X (Proc.devRef .tc main_v5)
    = truncf (F := Ideal) .bf16 (Host.dotGeneral (F := Ideal) (φ₁ := .f32) (φ₂ := .f32) dot_S50000x128_S128x128_S50000x128_1_0_0_1_n_n none (X (Proc.devRef .tc main_arg4) : FVec Ideal S50000x128 .f32)
        (transpose S128x128 [1, 0] (X (Proc.devRef .tc main_arg6) : FVec Ideal S128x128 .f32) transposes_S128x128_S128x128_1_0)) bitsLt_bf16_f32 := by
  after_results <;> rfl

theorem ops0_v6 : after (hostOps0 (F := Ideal)) X (Proc.devRef .tc main_v6)
    = shapeCast S160000x1 (X (Proc.devRef .tc main_arg1) : IVec S10000x16 32) shapeCasts_S10000x16_S160000x1 := by
  after_results <;> rfl

theorem ops0_v7 : after (hostOps0 (F := Ideal)) X (Proc.devRef .tc main_v7)
    = shapeCast S1280000x1 (X (Proc.devRef .tc main_arg2) : IVec S10000x16x8 32) shapeCasts_S10000x16x8_S1280000x1 := by
  after_results <;> rfl

/-! ## Between the regions -/

theorem ops1_v10 : after (hostOps1 (F := Ideal)) X (Proc.devRef .tc main_v10)
    = Host.dotGeneral (F := Ideal) (φ₁ := .f32) (φ₂ := .f32) dot_S10000x128_S128x128_S10000x128_1_0_0_1_n_n none (X (Proc.devRef .tc main_v8) : FVec Ideal S10000x128 .f32)
        (transpose S128x128 [1, 0] (X (Proc.devRef .tc main_arg7) : FVec Ideal S128x128 .f32) transposes_S128x128_S128x128_1_0) := by
  after_results <;> rfl

theorem ops1_v13 : after (hostOps1 (F := Ideal)) X (Proc.devRef .tc main_v13)
    = truncf (F := Ideal) .bf16 (Host.dotGeneral (F := Ideal) (φ₁ := .f32) (φ₂ := .f32) dot_S10000x128_S128x128_S10000x128_1_0_0_1_n_n none (X (Proc.devRef .tc main_v8) : FVec Ideal S10000x128 .f32)
        (transpose S128x128 [1, 0] (X (Proc.devRef .tc main_arg8) : FVec Ideal S128x128 .f32) transposes_S128x128_S128x128_1_0)) bitsLt_bf16_f32 := by
  after_results <;> rfl

theorem ops1_v14 : after (hostOps1 (F := Ideal)) X (Proc.devRef .tc main_v14)
    = shapeCast S160000x1 (X (Proc.devRef .tc main_arg3) : IVec S10000x16 32) shapeCasts_S10000x16_S160000x1 := by
  after_results <;> rfl

/-! ## After the second region -/

theorem ops2_v56 : after (hostOps2_2 (F := Ideal)) (after (hostOps2_1 (F := Ideal)) (after (hostOps2 (F := Ideal)) X)) (Proc.devRef .tc main_v56)
    = Tail.tail (F := Ideal) (X (Proc.devRef .tc main_v15)) (X (Proc.devRef .tc main_arg0)) (X (Proc.devRef .tc main_arg9)) (X (Proc.devRef .tc main_arg10)) (X (Proc.devRef .tc main_arg11)) (X (Proc.devRef .tc main_arg12)) := by
  after_results_simp <;> rfl

end Cert.KernelIdeal.HostK

end
-- ==== Proof.Keep.lean ====
/- The argument buffers pass through the host stretches before and between the regions unchanged: no operation there
   writes one. -/
import proofs.«404633_j41051297415545_3_alg».proof.Proof.Gen.KernelIdeal.Frame
import Idealize.ShloMosaic.PureOps.Ideal

noncomputable section

namespace Cert.KernelIdeal.Keep

open Idealize.ShloMosaic Idealize.ShloMosaic.TcCoe Idealize.SL.Sem Idealize.ShloMosaic.StableHlo
open Cert.KernelIdeal Cert.KernelIdeal.Gen

variable (X : Valuation τ sig (Elt Ideal))

/-- @main's thirteen arguments. -/
abbrev mainArgs : List (Ref sig .tc) :=
  [main_arg0, main_arg1, main_arg2, main_arg3, main_arg4, main_arg5, main_arg6, main_arg7, main_arg8, main_arg9,
   main_arg10, main_arg11, main_arg12]

/-- The operations before the first region write no argument. -/
theorem ops0_keep (b : Ref sig .tc) (hb : b ∈ mainArgs) :
    after (hostOps0 (F := Ideal)) X (Proc.devRef .tc b) = X (Proc.devRef .tc b) := by
  simp only [mainArgs, List.mem_cons, List.not_mem_nil, or_false] at hb
  rcases hb with rfl | rfl | rfl | rfl | rfl | rfl | rfl | rfl | rfl | rfl | rfl | rfl | rfl
  all_goals
    refine after_of_forall_not_mem _ _ (List.forall_iff_forall_mem.mp ?_)
    simp only [hostOps0, List.Forall, nullary_writes, unary_writes, binary_writes, ternary_writes, reshape_writes,
      Finset.mem_singleton]
    repeat' apply And.intro
    all_goals exact devRef_ne_of_ne (by decide)

/-- The operations between the regions write no argument. -/
theorem ops1_keep (b : Ref sig .tc) (hb : b ∈ mainArgs) :
    after (hostOps1 (F := Ideal)) X (Proc.devRef .tc b) = X (Proc.devRef .tc b) := by
  simp only [mainArgs, List.mem_cons, List.not_mem_nil, or_false] at hb
  rcases hb with rfl | rfl | rfl | rfl | rfl | rfl | rfl | rfl | rfl | rfl | rfl | rfl | rfl
  all_goals
    refine after_of_forall_not_mem _ _ (List.forall_iff_forall_mem.mp ?_)
    simp only [hostOps1, List.Forall, nullary_writes, unary_writes, binary_writes, ternary_writes, reshape_writes,
      Finset.mem_singleton]
    repeat' apply And.intro
    all_goals exact devRef_ne_of_ne (by decide)

end Cert.KernelIdeal.Keep

end
-- ==== Proof.Spec.lean ====
/-
  What both programs compute, stated once over coordinates, on the extended reals.

  A table row is named by a 32-bit index word read signed and clamped into the table (`rowIx`).
  Layer one: for node `n` and feature `q`, the sum over its 16 internal nodes of
  `max (EW[id, q] + Σ_j EM[nid_j, q]) 0`, then a softmax along `q`.  Layer two: the softmax along `q` of
  `max (hU[n, q] + Σ_j hV[ext_j, q]) 0`.  The tables are products with a transposed weight matrix (`mulT`).
-/
import Idealize.ShloMosaic.PureOps.Ideal
import Idealize.ShloMosaic.Lib.ValueIdx

noncomputable section

open scoped BigOperators

namespace Cert.Spec

open Idealize.ShloMosaic Idealize.ShloMosaic.ValueIdx

/-- The row of an `N`-row table that the index word `w` names: `w` read as a signed integer, clamped to `[0, N - 1]`. -/
def rowIx (N : ℕ) (hN : 0 < N) (w : BitVec 32) : Fin N :=
  ⟨min w.toInt.toNat (N - 1), by omega⟩

/-- An index word inside a table of `N` rows names the row of its own value. -/
theorem rowIx_val_of_lt (N : ℕ) (hN : 0 < N) (hN' : N ≤ 2 ^ 31) (w : BitVec 32) (hw : w.toNat < N) :
    (rowIx N hN w).val = w.toNat := by
  have h31 : w.toNat < 2 ^ 31 := lt_of_lt_of_le hw hN'
  have hint : w.toInt = (w.toNat : ℤ) := by
    rw [BitVec.toInt_eq_toNat_cond]; split
    · rfl
    · omega
  unfold rowIx; simp only [hint, Int.toNat_natCast]; omega

/-- The largest entry of a finite row (the lattice's bottom for an empty one). -/
def rowMax {n : ℕ} (r : Fin n → EReal) : EReal := Finset.univ.fold max ⊥ r

/-- The softmax of a finite row at position `i`: `e^(r i - max r) / Σ e^(r i' - max r)`. -/
def softmaxRow {n : ℕ} (r : Fin n → EReal) (i : Fin n) : EReal :=
  Ideal.div (Ideal.exp (r i - rowMax r)) (∑ i' : Fin n, Ideal.exp (r i' - rowMax r))

/-- A rank-2 array read by its two coordinates. -/
abbrev cur2 {α : Type} {a b : ℕ} (X : (⟨2, ![a, b]⟩ : Shape).Idx → α) : Fin a → Fin b → α := fun p q => X (ix2 p q)
/-- A rank-3 array read by its three coordinates. -/
abbrev cur3 {α : Type} {a b c : ℕ} (X : (⟨3, ![a, b, c]⟩ : Shape).Idx → α) : Fin a → Fin b → Fin c → α :=
  fun p q r => X (ix3 p q r)
/-- A function of two coordinates as a rank-2 array. -/
def uncur2 {α : Type} {a b : ℕ} (f : Fin a → Fin b → α) : (⟨2, ![a, b]⟩ : Shape).Idx → α := fun i => f (i 0) (i 1)

theorem uncur2_ix2 {α : Type} {a b : ℕ} (f : Fin a → Fin b → α) (p : Fin a) (q : Fin b) : uncur2 f (ix2 p q) = f p q := rfl

/-- `x · Wᵀ`: entry `(r, i)` is `Σ_d x[r, d] · W[i, d]`. -/
def mulT {a : ℕ} (x : Fin a → Fin 128 → EReal) (W : Fin 128 → Fin 128 → EReal) (r : Fin a) (i : Fin 128) : EReal :=
  ∑ d : Fin 128, x r d * W i d

/-- Layer one before its softmax. -/
def rSum (EW EM : Fin 50000 → Fin 128 → EReal) (ids : Fin 10000 → Fin 16 → BitVec 32)
    (nids : Fin 10000 → Fin 16 → Fin 8 → BitVec 32) (n : Fin 10000) (q : Fin 128) : EReal :=
  ∑ k : Fin 16, max (EW (rowIx 50000 (by norm_num) (ids n k)) q
    + ∑ j : Fin 8, EM (rowIx 50000 (by norm_num) (nids n k j)) q) 0

/-- Layer one: a softmax along the features. -/
def hRow (EW EM : Fin 50000 → Fin 128 → EReal) (ids : Fin 10000 → Fin 16 → BitVec 32)
    (nids : Fin 10000 → Fin 16 → Fin 8 → BitVec 32) (n : Fin 10000) (q : Fin 128) : EReal :=
  softmaxRow (rSum EW EM ids nids n) q

/-- Layer two before its softmax. -/
def ePre (hU hV : Fin 10000 → Fin 128 → EReal) (ext : Fin 10000 → Fin 16 → BitVec 32) (n : Fin 10000) (q : Fin 128) : EReal :=
  max (hU n q + ∑ j : Fin 16, hV (rowIx 10000 (by norm_num) (ext n j)) q) 0

/-- Layer two: a softmax along the features. -/
def eRow (hU hV : Fin 10000 → Fin 128 → EReal) (ext : Fin 10000 → Fin 16 → BitVec 32) (n : Fin 10000) (q : Fin 128) : EReal :=
  softmaxRow (ePre hU hV ext n) q

/-- Both layers from the arguments. -/
def eAll (E : Fin 50000 → Fin 128 → EReal) (W M U V : Fin 128 → Fin 128 → EReal) (ids : Fin 10000 → Fin 16 → BitVec 32)
    (nids : Fin 10000 → Fin 16 → Fin 8 → BitVec 32) (ext : Fin 10000 → Fin 16 → BitVec 32) : Fin 10000 → Fin 128 → EReal :=
  eRow (mulT (hRow (mulT E W) (mulT E M) ids nids) U) (mulT (hRow (mulT E W) (mulT E M) ids nids) V) ext

/-- Every entry is a real number. -/
def Finite2 {a b : ℕ} (x : Fin a → Fin b → EReal) : Prop := ∀ p q, ∃ r : ℝ, x p q = (r : EReal)

end Cert.Spec

end
-- ==== Proof.HostRead.lean ====
/- The kernel program's host operations around its two regions, read at an index: a product with a transposed weight
   matrix is `mulT` (with or without the narrowing to bf16, the identity on extended reals), and flattening an index
   array keeps each word at its row-major position. -/
import proofs.«404633_j41051297415545_3_alg».proof.Proof.Gen.KernelIdeal
import proofs.«404633_j41051297415545_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

open scoped BigOperators

namespace Cert.KernelIdeal.HostRead

open Idealize.ShloMosaic Idealize.ShloMosaic.ValueIdx Cert.KernelIdeal Cert.KernelIdeal.Facts₀ Cert.Spec

/-- A plain product of an `a × 128` matrix with the transpose of a `128 × 128` matrix `W`: entry `(r, i)` is
    `Σ_d x[r, d] · Wᵀ[d, i] = Σ_d x[r, d] · W[i, d]`. -/
private theorem plainT_apply {a : ℕ} (x : FVec Ideal ⟨2, ![a, 128]⟩ .f32) (W : FVec Ideal S128x128 .f32) (r : Fin a) (i : Fin 128) :
    (Host.dotGeneral (F := Ideal) (DotDims.plain a 128 128) none x
        (transpose S128x128 [1, 0] W transposes_S128x128_S128x128_1_0)) (ix2 r i)
      = mulT (cur2 x) (cur2 W) r i := by
  rw [StackMember.dotGeneral_plain_apply]
  unfold mulT
  refine Finset.sum_congr rfl fun d _ => ?_
  rw [transpose_ix2_apply]

/- The three products below contract axis 1 of the left operand with axis 0 of the right one and have no batch axis:
   their dimension records are the plain product's, up to the proof of well-formedness.  The narrowing to bf16 is the
   identity on the extended reals. -/

theorem tbl50000 (x : FVec Ideal S50000x128 .f32) (W : FVec Ideal S128x128 .f32) (r : Fin 50000) (i : Fin 128) :
    (truncf (F := Ideal) .bf16 (Host.dotGeneral (F := Ideal) dot_S50000x128_S128x128_S50000x128_1_0_0_1_n_n none x
        (transpose S128x128 [1, 0] W transposes_S128x128_S128x128_1_0)) bitsLt_bf16_f32) (ix2 r i)
      = mulT (cur2 x) (cur2 W) r i := by
  exact plainT_apply x W r i

theorem tbl10000 (x : FVec Ideal S10000x128 .f32) (W : FVec Ideal S128x128 .f32) (r : Fin 10000) (i : Fin 128) :
    (Host.dotGeneral (F := Ideal) dot_S10000x128_S128x128_S10000x128_1_0_0_1_n_n none x
        (transpose S128x128 [1, 0] W transposes_S128x128_S128x128_1_0)) (ix2 r i)
      = mulT (cur2 x) (cur2 W) r i := by
  exact plainT_apply x W r i

theorem tbl10000_bf16 (x : FVec Ideal S10000x128 .f32) (W : FVec Ideal S128x128 .f32) (r : Fin 10000) (i : Fin 128) :
    (truncf (F := Ideal) .bf16 (Host.dotGeneral (F := Ideal) dot_S10000x128_S128x128_S10000x128_1_0_0_1_n_n none x
        (transpose S128x128 [1, 0] W transposes_S128x128_S128x128_1_0)) bitsLt_bf16_f32) (ix2 r i)
      = mulT (cur2 x) (cur2 W) r i := by
  exact plainT_apply x W r i

theorem flat16 (a : IVec S10000x16 32) (n : Fin 10000) (k : Fin 16) :
    shapeCast S160000x1 a shapeCasts_S10000x16_S160000x1 (ix2 (⟨16 * n.val + k.val, by omega⟩ : Fin 160000) 0) = a (ix2 n k) := by
  -- both indices sit at row-major position `16 n + k`
  refine shapeCast_apply _ _ _ _ ?_
  rw [Shape.rowMajor_val_two, Shape.rowMajor_val_two]
  show n.val * 16 + k.val = (16 * n.val + k.val) * 1 + 0
  omega

theorem flat128 (a : IVec S10000x16x8 32) (n : Fin 10000) (k : Fin 16) (j : Fin 8) :
    shapeCast S1280000x1 a shapeCasts_S10000x16x8_S1280000x1 (ix2 (⟨(16 * n.val + k.val) * 8 + j.val, by omega⟩ : Fin 1280000) 0)
      = a (ix3 n k j) := by
  -- both indices sit at row-major position `(16 n + k) · 8 + j`
  refine shapeCast_apply _ _ _ _ ?_
  rw [Shape.rowMajor_val_three, Shape.rowMajor_val_two]
  show (n.val * 16 + k.val) * 8 + j.val = ((16 * n.val + k.val) * 8 + j.val) * 1 + 0
  omega

end Cert.KernelIdeal.HostRead

end
-- ==== Proof.Fold.lean ====
/-
  The two kernels' counted loops as plain recursions on the carried value.

  Each trip reads one chunk of 2000 consecutive table rows (`chunk`) and adds to the carried value the product of
  that chunk with the mask "index word = row number".  `acc0` carries layer one's pair (own rows, neighbour
  rows); `acc1` carries layer two's neighbour rows.
-/
import proofs.«404633_j41051297415545_3_alg».proof.Proof.Gen.KernelIdeal.Skeleton
import Idealize.ShloMosaic.Lib.ValueIdx

noncomputable section

namespace Cert.KernelIdeal.Fold

open Idealize.ShloMosaic Idealize.ShloMosaic.ValueIdx Cert.KernelIdeal Cert.KernelIdeal.Gen

/-- Rows `2000 k … 2000 k + 1999` of a table of `N` rows (the row taken modulo `N`, so that the definition asks no bound). -/
def chunk (N : ℕ) (hN : 0 < N) (x : (⟨2, ![N, 128]⟩ : Shape).Idx → EReal) (k : ℕ) : (⟨2, ![2000, 128]⟩ : Shape).Idx → EReal :=
  fun j => x (ix2 ⟨(2000 * k + (j 0).val) % N, Nat.mod_lt _ hN⟩ (j 1))

theorem chunk_apply (N : ℕ) (hN : 0 < N) (x : (⟨2, ![N, 128]⟩ : Shape).Idx → EReal) (k : ℕ) (r : Fin 2000) (d : Fin 128)
    (h : 2000 * k + r.val < N) : chunk N hN x k (ix2 r d) = x (ix2 ⟨2000 * k + r.val, h⟩ d) := by
  unfold chunk
  congr 1
  exact congrArg (fun a => ix2 a d) (Fin.ext (Nat.mod_eq_of_lt h))

/-- Layer one's carried pair before trip `k`. -/
def acc0 (x0 : Vec Ideal S256x1 .i32) (x1 : Vec Ideal S2048x1 .i32) (x2 x3 : Vec Ideal S50000x128 .bf16) :
    ℕ → FVec Ideal S256x128 .f32 × FVec Ideal S2048x128 .f32
  | 0 => (k0_pay1 (F := Ideal), k0_pay2 (F := Ideal))
  | k + 1 =>
    if h : k < k0_t1_loop.trips then
      (k0_pay4 (F := Ideal) x0 ⟨k, h⟩ (acc0 x0 x1 x2 x3 k).1 (chunk 50000 (by norm_num) x2 k),
       k0_pay5 (F := Ideal) x1 ⟨k, h⟩ (acc0 x0 x1 x2 x3 k).2 (chunk 50000 (by norm_num) x3 k))
    else acc0 x0 x1 x2 x3 k

/-- Layer two's carried value before trip `k`. -/
def acc1 (x0 : Vec Ideal S640x1 .i32) (x2 : Vec Ideal S10000x128 .bf16) : ℕ → FVec Ideal S640x128 .f32
  | 0 => k1_pay1 (F := Ideal)
  | k + 1 =>
    if h : k < k1_t1_loop.trips then
      k1_pay2 (F := Ideal) x0 ⟨k, h⟩ (acc1 x0 x2 k) (chunk 10000 (by norm_num) x2 k)
    else acc1 x0 x2 k

theorem trips0 : k0_t1_loop.trips = 25 := by decide
theorem trips1 : k1_t1_loop.trips = 5 := by decide

end Cert.KernelIdeal.Fold

end
-- ==== Proof.BodyRun.lean ====
/- What each kernel body leaves in its output block, as the last payload of the carried value after all trips. -/
import proofs.«404633_j41051297415545_3_alg».proof.Proof.Gen.KernelIdeal.Frame
import proofs.«404633_j41051297415545_3_alg».proof.Proof.Fold
import Idealize.ShloMosaic.Lib.Pipeline.Value

noncomputable section

open scoped BigOperators

namespace Cert.KernelIdeal.BodyRun

open Idealize.ShloMosaic Idealize.ShloMosaic.ValueIdx Cert.KernelIdeal Cert.KernelIdeal.Gen Cert.KernelIdeal.Fold

/-- Both offsets of a whole-block access are zero. -/
private theorem zero2 : (![0, 0] : Fin 2 → ℕ) = fun _ => 0 := by
  funext a; fin_cases a <;> rfl

/-! ## Layer one -/

/-- The rows a trip of layer one loads from a table of 50000 rows are that trip's chunk. -/
private theorem ld_chunk0 (x : Vec Ideal S50000x128 .bf16) (k : Fin k0_t1_loop.trips) :
    View.ld x (Rect.unit (s := S50000x128) (k0_off1 k) S2000x128.size (k0_off1_inb k))
      = chunk 50000 (by norm_num) x k := by
  have hk : k.val < 25 := Nat.lt_of_lt_of_le k.isLt k0_t1_abs.2.1
  have h0 : k0_off1 k 0 = 2000 * k.val := by rw [k0_off1_eq]; rfl
  have h1 : k0_off1 k 1 = 0 := by rw [k0_off1_eq]; rfl
  funext j
  obtain ⟨r, d, rfl⟩ : ∃ (r : Fin 2000) (d : Fin 128), j = ix2 r d := ⟨j 0, j 1, eq_ix2 j⟩
  have hr : 2000 * k.val + r.val < 50000 := by have := r.isLt; omega
  rw [chunk_apply 50000 (by norm_num) x k r d hr]
  refine congrArg x (funext fun a => Fin.ext ?_)
  fin_cases a
  · show k0_off1 k 0 + 1 * r.val = 2000 * k.val + r.val
    rw [h0, Nat.one_mul]
  · show k0_off1 k 1 + 1 * d.val = d.val
    rw [h1, Nat.one_mul, Nat.zero_add]

/-- One trip of layer one, read off the trip's own definition: both halves of the carried pair take the payload of
    their table's chunk. -/
private theorem trip0_eq (c : Dev nD) (i : grid0.Coords) (arg1 : Memref sig .tc .vmem S256x1 .i32) (harg1 : arg1.IsWhole) (arg2 : Memref sig .tc .vmem S2048x1 .i32) (harg2 : arg2.IsWhole) (arg3 : Memref sig .tc .vmem S50000x128 .bf16) (harg3 : arg3.IsWhole) (arg4 : Memref sig .tc .vmem S50000x128 .bf16) (harg4 : arg4.IsWhole) (arg5 : Memref sig .tc .vmem S16x128 .f32) (harg5 : arg5.IsWhole)
    (v0 : Vec Ideal S256x1 .i32) (v2 : Vec Ideal S2048x1 .i32) (x2 x3 : Vec Ideal S50000x128 .bf16)
    (k : Fin k0_t1_loop.trips) (acc : FVec Ideal S256x128 .f32 × FVec Ideal S2048x128 .f32) :
    tripR_k0_t1 (F := Ideal) Variants.none c none i arg1 harg1 arg2 harg2 arg3 harg3 arg4 harg4 arg5 harg5 v0 v2
        (harg3.unread x2) (harg4.unread x3) k acc
      = (k0_pay4 (F := Ideal) v0 k acc.1 (chunk 50000 (by norm_num) x2 k),
         k0_pay5 (F := Ideal) v2 k acc.2 (chunk 50000 (by norm_num) x3 k)) := by
  unfold tripR_k0_t1 trip_k0_t1
  dsimp only
  rw [View.readAt_eq_ld, View.readAt_eq_ld, harg3.read_unread, harg4.read_unread]
  exact congrArg₂ Prod.mk (congrArg (k0_pay4 (F := Ideal) v0 k acc.1) (ld_chunk0 x2 k))
    (congrArg (k0_pay5 (F := Ideal) v2 k acc.2) (ld_chunk0 x3 k))

/-- The carried pair before trip `n` is the recursion's. -/
private theorem run0 (c : Dev nD) (i : grid0.Coords) (arg1 : Memref sig .tc .vmem S256x1 .i32) (harg1 : arg1.IsWhole) (arg2 : Memref sig .tc .vmem S2048x1 .i32) (harg2 : arg2.IsWhole) (arg3 : Memref sig .tc .vmem S50000x128 .bf16) (harg3 : arg3.IsWhole) (arg4 : Memref sig .tc .vmem S50000x128 .bf16) (harg4 : arg4.IsWhole) (arg5 : Memref sig .tc .vmem S16x128 .f32) (harg5 : arg5.IsWhole)
    (x0 : Vec Ideal S256x1 .i32) (x1 : Vec Ideal S2048x1 .i32) (x2 x3 : Vec Ideal S50000x128 .bf16) :
    ∀ n : ℕ, n ≤ 25 →
      st_k0_t1 (F := Ideal) Variants.none c none i arg1 harg1 arg2 harg2 arg3 harg3 arg4 harg4 arg5 harg5 x0 x1
          (harg3.unread x2) (harg4.unread x3) (k0_pay1 (F := Ideal), k0_pay2 (F := Ideal)) n
        = acc0 x0 x1 x2 x3 n
  | 0, _ => rfl
  | n + 1, hn => by
    have hlt : n < k0_t1_loop.trips := by rw [trips0]; omega
    have ih := run0 c i arg1 harg1 arg2 harg2 arg3 harg3 arg4 harg4 arg5 harg5 x0 x1 x2 x3 n (by omega)
    have hs := st_k0_t1_succ (F := Ideal) Variants.none c none i arg1 harg1 arg2 harg2 arg3 harg3 arg4 harg4 arg5 harg5 x0 x1
      (harg3.unread x2) (harg4.unread x3) (k0_pay1 (F := Ideal), k0_pay2 (F := Ideal)) ⟨n, hlt⟩
    refine hs.trans ?_
    rw [trip0_eq c i arg1 harg1 arg2 harg2 arg3 harg3 arg4 harg4 arg5 harg5 x0 x1 x2 x3 ⟨n, hlt⟩, ih]
    show _ = (if h : n < k0_t1_loop.trips then _ else _)
    rw [dif_pos hlt]

/-- Layer one's body: the block it stores is the closing payload of the pair carried through the 25 trips. -/
theorem out0_eq (c : Dev nD) (i : grid0.Coords) (arg1 : Memref sig .tc .vmem S256x1 .i32) (harg1 : arg1.IsWhole) (arg2 : Memref sig .tc .vmem S2048x1 .i32) (harg2 : arg2.IsWhole) (arg3 : Memref sig .tc .vmem S50000x128 .bf16) (harg3 : arg3.IsWhole) (arg4 : Memref sig .tc .vmem S50000x128 .bf16) (harg4 : arg4.IsWhole) (arg5 : Memref sig .tc .vmem S16x128 .f32) (harg5 : arg5.IsWhole)
    (x0 : Vec Ideal S256x1 .i32) (x1 : Vec Ideal S2048x1 .i32) (x2 x3 : Vec Ideal S50000x128 .bf16) :
    out0_A_4 (F := Ideal) c i arg1 harg1 arg2 harg2 arg3 harg3 arg4 harg4 arg5 harg5 x0 x1 x2 x3
      = k0_pay6 (F := Ideal) (acc0 x0 x1 x2 x3 25).1 (acc0 x0 x1 x2 x3 25).2 := by
  have ht : Scf.trips (0#32) (Scalar.addi 0#32 25#32) 1#32 = 25 := trips0
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero zero2]
  simp only [View.readAt_eq_ld, harg1.read_unread, harg2.read_unread, View.ld_unit_zero (S := S256x1) zero2,
    View.ld_unit_zero (S := S2048x1) zero2]
  rw [ht, run0 c i arg1 harg1 arg2 harg2 arg3 harg3 arg4 harg4 arg5 harg5 x0 x1 x2 x3 25 (le_refl 25)]

/-! ## Layer two -/

/-- The rows a trip of layer two loads from the table of 10000 rows are that trip's chunk. -/
private theorem ld_chunk1 (x : Vec Ideal S10000x128 .bf16) (k : Fin k1_t1_loop.trips) :
    View.ld x (Rect.unit (s := S10000x128) (k1_off1 k) S2000x128.size (k1_off1_inb k))
      = chunk 10000 (by norm_num) x k := by
  have hk : k.val < 5 := Nat.lt_of_lt_of_le k.isLt k1_t1_abs.2.1
  have h0 : k1_off1 k 0 = 2000 * k.val := by rw [k1_off1_eq]; rfl
  have h1 : k1_off1 k 1 = 0 := by rw [k1_off1_eq]; rfl
  funext j
  obtain ⟨r, d, rfl⟩ : ∃ (r : Fin 2000) (d : Fin 128), j = ix2 r d := ⟨j 0, j 1, eq_ix2 j⟩
  have hr : 2000 * k.val + r.val < 10000 := by have := r.isLt; omega
  rw [chunk_apply 10000 (by norm_num) x k r d hr]
  refine congrArg x (funext fun a => Fin.ext ?_)
  fin_cases a
  · show k1_off1 k 0 + 1 * r.val = 2000 * k.val + r.val
    rw [h0, Nat.one_mul]
  · show k1_off1 k 1 + 1 * d.val = d.val
    rw [h1, Nat.one_mul, Nat.zero_add]

/-- One trip of layer two, read off the trip's own definition: the carried value takes the payload of the table's
    chunk. -/
private theorem trip1_eq (c : Dev nD) (i : grid1.Coords) (arg1 : Memref sig .tc .vmem S640x1 .i32) (harg1 : arg1.IsWhole) (arg2 : Memref sig .tc .vmem S40x128 .f32) (harg2 : arg2.IsWhole) (arg3 : Memref sig .tc .vmem S10000x128 .bf16) (harg3 : arg3.IsWhole) (arg4 : Memref sig .tc .vmem S40x128 .f32) (harg4 : arg4.IsWhole)
    (v0 : Vec Ideal S640x1 .i32) (x2 : Vec Ideal S10000x128 .bf16)
    (k : Fin k1_t1_loop.trips) (acc : FVec Ideal S640x128 .f32) :
    tripR_k1_t1 (F := Ideal) Variants.none c none i arg1 harg1 arg2 harg2 arg3 harg3 arg4 harg4 v0
        (harg3.unread x2) k acc
      = k1_pay2 (F := Ideal) v0 k acc (chunk 10000 (by norm_num) x2 k) := by
  unfold tripR_k1_t1 trip_k1_t1
  dsimp only
  rw [View.readAt_eq_ld, harg3.read_unread]
  exact congrArg (k1_pay2 (F := Ideal) v0 k acc) (ld_chunk1 x2 k)

/-- The carried value before trip `n` is the recursion's. -/
private theorem run1 (c : Dev nD) (i : grid1.Coords) (arg1 : Memref sig .tc .vmem S640x1 .i32) (harg1 : arg1.IsWhole) (arg2 : Memref sig .tc .vmem S40x128 .f32) (harg2 : arg2.IsWhole) (arg3 : Memref sig .tc .vmem S10000x128 .bf16) (harg3 : arg3.IsWhole) (arg4 : Memref sig .tc .vmem S40x128 .f32) (harg4 : arg4.IsWhole)
    (x0 : Vec Ideal S640x1 .i32) (x2 : Vec Ideal S10000x128 .bf16) :
    ∀ n : ℕ, n ≤ 5 →
      st_k1_t1 (F := Ideal) Variants.none c none i arg1 harg1 arg2 harg2 arg3 harg3 arg4 harg4 x0
          (harg3.unread x2) (k1_pay1 (F := Ideal)) n
        = acc1 x0 x2 n
  | 0, _ => rfl
  | n + 1, hn => by
    have hlt : n < k1_t1_loop.trips := by rw [trips1]; omega
    have ih := run1 c i arg1 harg1 arg2 harg2 arg3 harg3 arg4 harg4 x0 x2 n (by omega)
    have hs := st_k1_t1_succ (F := Ideal) Variants.none c none i arg1 harg1 arg2 harg2 arg3 harg3 arg4 harg4 x0
      (harg3.unread x2) (k1_pay1 (F := Ideal)) ⟨n, hlt⟩
    refine hs.trans ?_
    rw [trip1_eq c i arg1 harg1 arg2 harg2 arg3 harg3 arg4 harg4 x0 x2 ⟨n, hlt⟩, ih]
    show _ = (if h : n < k1_t1_loop.trips then _ else _)
    rw [dif_pos hlt]

/-- Layer two's body: the block it stores is the closing payload of the value carried through the 5 trips and the `h·Uᵀ` block. -/
theorem out1_eq (c : Dev nD) (i : grid1.Coords) (arg1 : Memref sig .tc .vmem S640x1 .i32) (harg1 : arg1.IsWhole) (arg2 : Memref sig .tc .vmem S40x128 .f32) (harg2 : arg2.IsWhole) (arg3 : Memref sig .tc .vmem S10000x128 .bf16) (harg3 : arg3.IsWhole) (arg4 : Memref sig .tc .vmem S40x128 .f32) (harg4 : arg4.IsWhole)
    (x0 : Vec Ideal S640x1 .i32) (x1 : Vec Ideal S40x128 .f32) (x2 : Vec Ideal S10000x128 .bf16) :
    out1_A_3 (F := Ideal) c i arg1 harg1 arg2 harg2 arg3 harg3 arg4 harg4 x0 x1 x2
      = k1_pay3 (F := Ideal) (acc1 x0 x2 5) x1 := by
  have ht : Scf.trips (0#32) (Scalar.addi 0#32 5#32) 1#32 = 5 := trips1
  unfold out1_A_3
  rw [View.read_writes_eq_canon _ _ _ (cover1_A_3 c i arg1 harg1 arg2 harg2 arg3 harg3 arg4 harg4 x0 x1 x2)]
  unfold kernelRun1_A
  dsimp only
  sl_unfold_words
  rw [View.canon_unit_zero zero2]
  simp only [View.readAt_eq_ld, harg1.read_unread, harg2.read_unread, View.ld_unit_zero (S := S640x1) zero2,
    View.ld_unit_zero (S := S40x128) zero2]
  rw [ht, run1 c i arg1 harg1 arg2 harg2 arg3 harg3 arg4 harg4 x0 x2 5 (le_refl 5)]

end Cert.KernelIdeal.BodyRun

end
-- ==== Proof.OneHot.lean ====
/- The carried value after all trips is a row selection: the mask "index word = row number", multiplied into the
   table chunk by chunk and added up, picks the one row the word names. -/
import proofs.«404633_j41051297415545_3_alg».proof.Proof.Fold
import proofs.«404633_j41051297415545_3_alg».proof.Proof.Spec
import Idealize.ShloMosaic.PureOps.Ideal.Laws
import Idealize.ShloMosaic.Lib.Pipeline.Value
import Idealize.ShloMosaic.Lib.StableHlo.Predicate
import Idealize.ShloMosaic.Lib.Scf.Counter

noncomputable section

open scoped BigOperators

namespace Cert.KernelIdeal.OneHot

open Idealize.ShloMosaic Idealize.ShloMosaic.ValueIdx Cert.KernelIdeal Cert.KernelIdeal.Gen Cert.KernelIdeal.Fold Cert.Spec

/-! ## Words and sums, independent of the block height -/

/-- The row number a trip compares against: column `j` of the iota plus `2000 k`, as a word. -/
private theorem rowWord (k j : ℕ) (hk : k < 25) (hj : j < 2000) :
    IntOp.addi (BitVec.ofNat 32 j) (Scalar.muli (Scf.iv 0#32 1#32 k) 2000#32) = BitVec.ofNat 32 (2000 * k + j) := by
  apply BitVec.eq_of_toNat_eq
  simp only [IntOp.addi, Scalar.muli, IntOp.muli, Scf.iv, BitVec.toNat_add, BitVec.toNat_mul, BitVec.toNat_ofNat]
  omega

/-- An index word equals that row number exactly when its value does. -/
private theorem word_eq_iff (w : BitVec 32) (k j : ℕ) (hk : k < 25) (hj : j < 2000) :
    w = BitVec.ofNat 32 (2000 * k + j) ↔ w.toNat = 2000 * k + j := by
  rw [← BitVec.toNat_inj, BitVec.toNat_ofNat, Nat.mod_eq_of_lt (by omega)]

/-- The mask entry: the widened comparison bit converted to a float is `1` on equal words and `0` otherwise. -/
private theorem maskVal (a b : BitVec 32) :
    ((((IntOp.cmpi .eq a b).setWidth 32).toInt : ℝ) : EReal) = if a = b then 1 else 0 := by
  by_cases h : a = b
  · have hb : IntOp.cmpi .eq a b = 1#1 := StableHlo.Predicate.cmpi_eq_iff.mpr h
    rw [hb, if_pos h]
    have : ((1#1 : BitVec 1).setWidth 32).toInt = 1 := by decide
    rw [this, Int.cast_one, EReal.coe_one]
  · have hb : IntOp.cmpi .eq a b = 0#1 := eq_zero_of_ne_one fun e => h (StableHlo.Predicate.cmpi_eq_iff.mp e)
    rw [hb, if_neg h]
    have : ((0#1 : BitVec 1).setWidth 32).toInt = 0 := by decide
    rw [this, Int.cast_zero, EReal.coe_zero]

/-- One trip adds to a partial selection the part of it that lies in the trip's chunk: if the carried entry is row `w`
    of the table when `w` is below `2000 k` and zero otherwise, then adding the chunk's rows weighted by the mask gives
    the same with `k + 1`.  A zero weight annihilates whatever it multiplies, so no entry need be finite. -/
private theorem step (N : ℕ) (hN : 0 < N) (x : (⟨2, ![N, 128]⟩ : Shape).Idx → EReal) (w : ℕ) (hw : w < N) (k : ℕ) (q : Fin 128) :
    (if w < 2000 * k then x (ix2 ⟨w, hw⟩ q) else 0)
        + ∑ j : Fin 2000, (if w = 2000 * k + j.val then (1 : EReal) else 0) * chunk N hN x k (ix2 j q)
      = if w < 2000 * (k + 1) then x (ix2 ⟨w, hw⟩ q) else 0 := by
  by_cases h1 : w < 2000 * k
  · have hs : ∑ j : Fin 2000, (if w = 2000 * k + j.val then (1 : EReal) else 0) * chunk N hN x k (ix2 j q) = 0 :=
      Finset.sum_eq_zero fun j _ => by rw [if_neg (by omega), zero_mul]
    rw [hs, add_zero, if_pos h1, if_pos (by omega)]
  · by_cases h2 : w < 2000 * (k + 1)
    · have hj0 : w - 2000 * k < 2000 := by omega
      have hs : ∑ j : Fin 2000, (if w = 2000 * k + j.val then (1 : EReal) else 0) * chunk N hN x k (ix2 j q)
          = x (ix2 ⟨w, hw⟩ q) := by
        rw [Finset.sum_eq_single (⟨w - 2000 * k, hj0⟩ : Fin 2000)]
        · rw [if_pos (show w = 2000 * k + (w - 2000 * k) by omega), one_mul,
            chunk_apply N hN x k ⟨w - 2000 * k, hj0⟩ q (show 2000 * k + (w - 2000 * k) < N by omega)]
          exact congrArg (fun a => x (ix2 a q)) (Fin.ext (show 2000 * k + (w - 2000 * k) = w by omega))
        · intro j _ hj
          rw [if_neg (fun e => hj (Fin.ext (show j.val = w - 2000 * k by omega))), zero_mul]
        · intro h; exact absurd (Finset.mem_univ _) h
      rw [hs, if_neg h1, if_pos h2, zero_add]
    · have hs : ∑ j : Fin 2000, (if w = 2000 * k + j.val then (1 : EReal) else 0) * chunk N hN x k (ix2 j q) = 0 :=
        Finset.sum_eq_zero fun j _ => by rw [if_neg (by have := j.isLt; omega), zero_mul]
      rw [hs, add_zero, if_neg h1, if_neg h2]

/-! ## The row numbers of a trip -/

/-- Column `j` of the row-number vector at trip `k` — the iota along the columns plus the splat of `2000 k` — is the
    word `2000 k + j`. -/
private theorem rowvec_apply (k : ℕ) (hk : k < 25) (j : Fin 2000) :
    addi (iota .tc S1x2000 32 [1] iota_S1x2000_d1_w32) (broadcast S1x2000 (Scalar.muli (Scf.iv 0#32 1#32 k) 2000#32))
        (ix2 (0 : Fin 1) j) = BitVec.ofNat 32 (2000 * k + j.val) := by
  show IntOp.addi (iota .tc S1x2000 32 [1] iota_S1x2000_d1_w32 (ix2 (0 : Fin 1) j)) (Scalar.muli (Scf.iv 0#32 1#32 k) 2000#32) = _
  rw [iota_single_apply]
  exact rowWord k j.val hk j.isLt

/-- Layer one names that vector once for both of its products. -/
private theorem pay3_apply (k : Fin k0_t1_loop.trips) (j : Fin 2000) :
    k0_pay3 k (ix2 (0 : Fin 1) j) = BitVec.ofNat 32 (2000 * k.val + j.val) := by
  have hk : k.val < 25 := by have h := k.isLt; have e := trips0; omega
  unfold k0_pay3
  exact rowvec_apply k.val hk j

/-! ## One trip at block height 256 -/

private theorem lhs_256_0 (i : S256x128.Idx) (c : dot_S256x2000_S2000x128_S256x128_1_0_0_1_n_n.contr.Idx) :
    (dot_S256x2000_S2000x128_S256x128_1_0_0_1_n_n.lhsIdx i c 0).val = (i 0).val := by
  unfold DotDims.lhsIdx
  rw [dif_neg (show ¬(0 : Fin S256x2000.rank) ∈ dot_S256x2000_S2000x128_S256x128_1_0_0_1_n_n.lhsBatch by decide),
    dif_pos (show (0 : Fin S256x2000.rank) ∈ dot_S256x2000_S2000x128_S256x128_1_0_0_1_n_n.lhsNonContracting by decide)]
  rfl
private theorem lhs_256_1 (i : S256x128.Idx) (c : dot_S256x2000_S2000x128_S256x128_1_0_0_1_n_n.contr.Idx) :
    (dot_S256x2000_S2000x128_S256x128_1_0_0_1_n_n.lhsIdx i c 1).val = (c ⟨0, by decide⟩).val :=
  dot_S256x2000_S2000x128_S256x128_1_0_0_1_n_n.lhsIdx_val_of_single rfl i c
private theorem rhs_256_0 (i : S256x128.Idx) (c : dot_S256x2000_S2000x128_S256x128_1_0_0_1_n_n.contr.Idx) :
    (dot_S256x2000_S2000x128_S256x128_1_0_0_1_n_n.rhsIdx i c 0).val = (c ⟨0, by decide⟩).val :=
  dot_S256x2000_S2000x128_S256x128_1_0_0_1_n_n.rhsIdx_val_of_single rfl i c
private theorem rhs_256_1 (i : S256x128.Idx) (c : dot_S256x2000_S2000x128_S256x128_1_0_0_1_n_n.contr.Idx) :
    (dot_S256x2000_S2000x128_S256x128_1_0_0_1_n_n.rhsIdx i c 1).val = (i 1).val := by
  unfold DotDims.rhsIdx
  rw [dif_neg (show ¬(1 : Fin S2000x128.rank) ∈ dot_S256x2000_S2000x128_S256x128_1_0_0_1_n_n.rhsBatch by decide),
    dif_pos (show (1 : Fin S2000x128.rank) ∈ dot_S256x2000_S2000x128_S256x128_1_0_0_1_n_n.rhsNonContracting by decide)]
  rfl

/-- The product of a [256 × 2000] array with a [2000 × 128] one into the zero splat, read at `(p, q)`. -/
private theorem matmul_256 (A : FVec Ideal S256x2000 .bf16) (B : FVec Ideal S2000x128 .bf16) (p : Fin 256) (q : Fin 128) :
    FloatOps.matmul dot_S256x2000_S2000x128_S256x128_1_0_0_1_n_n none A B (constant (F := Ideal) S256x128 .f32 0x00000000#32) (ix2 p q)
      = ∑ j : Fin 2000, A (ix2 p j) * B (ix2 j q) := by
  rw [Ideal.matmul_constant_zero_apply, ← Equiv.sum_comp (contrEquiv1 dot_S256x2000_S2000x128_S256x128_1_0_0_1_n_n 2000 rfl rfl).symm]
  refine Finset.sum_congr rfl fun j _ => ?_
  have hj := contrEquiv1_symm_val dot_S256x2000_S2000x128_S256x128_1_0_0_1_n_n 2000 rfl rfl j
  have el : dot_S256x2000_S2000x128_S256x128_1_0_0_1_n_n.lhsIdx (ix2 p q) ((contrEquiv1 dot_S256x2000_S2000x128_S256x128_1_0_0_1_n_n 2000 rfl rfl).symm j) = ix2 p j :=
    funext fun a => Fin.ext (by
      match a with
      | ⟨0, _⟩ => exact lhs_256_0 _ _
      | ⟨1, _⟩ => exact (lhs_256_1 _ _).trans hj)
  have er : dot_S256x2000_S2000x128_S256x128_1_0_0_1_n_n.rhsIdx (ix2 p q) ((contrEquiv1 dot_S256x2000_S2000x128_S256x128_1_0_0_1_n_n 2000 rfl rfl).symm j) = ix2 j q :=
    funext fun a => Fin.ext (by
      match a with
      | ⟨0, _⟩ => exact (rhs_256_0 _ _).trans hj
      | ⟨1, _⟩ => exact rhs_256_1 _ _)
  rw [el, er]

/-- A column of index words broadcast along the rows' 2000 columns reads the row's word. -/
private theorem bcol_256 (v : IVec S256x1 32) (p : Fin 256) (j : Fin 2000) :
    broadcastTo S256x2000 v broadcasts_S256x1_S256x2000 (ix2 p j) = v (ix2 p 0) :=
  broadcastTo_apply v _ (ix2 p j) (ix2 p 0) fun a => by
    match a with
    | ⟨0, _⟩ => rfl
    | ⟨1, _⟩ => rfl
/-- A row of row numbers broadcast down the 256 rows reads the column's number. -/
private theorem brow_256 (v : IVec S1x2000 32) (p : Fin 256) (j : Fin 2000) :
    broadcastTo S256x2000 v broadcasts_S1x2000_S256x2000 (ix2 p j) = v (ix2 0 j) :=
  broadcastTo_apply v _ (ix2 p j) (ix2 0 j) fun a => by
    match a with
    | ⟨0, _⟩ => rfl
    | ⟨1, _⟩ => rfl

/-- One trip at `(p, q)`: the carried entry plus the chunk's column `q` weighted by "row `p`'s index word is
    `2000 k + j`". -/
private theorem k0_pay4_apply (x0 : Vec Ideal S256x1 .i32) (k : Fin k0_t1_loop.trips) (acc : FVec Ideal S256x128 .f32)
    (ch : Vec Ideal S2000x128 .bf16) (p : Fin 256) (q : Fin 128) :
    k0_pay4 (F := Ideal) x0 k acc ch (ix2 p q)
      = acc (ix2 p q) + ∑ j : Fin 2000,
          (if (x0 (ix2 p 0)).toNat = 2000 * k.val + j.val then (1 : EReal) else 0) * ch (ix2 j q) := by
  have hk : k.val < 25 := by have h := k.isLt; have e := trips0; omega
  unfold k0_pay4
  refine (addf_apply _ _ _).trans ?_
  refine congrArg (acc (ix2 p q) + ·) ?_
  refine (matmul_256 _ _ p q).trans ?_
  refine Finset.sum_congr rfl fun j _ => ?_
  rw [shapeCast_self ch, shapeCast_self x0]
  refine congrArg (· * ch (ix2 j q)) ?_
  show ((((IntOp.cmpi .eq
      (broadcastTo S256x2000 x0 broadcasts_S256x1_S256x2000 (ix2 p j))
      (broadcastTo S256x2000 (k0_pay3 k) broadcasts_S1x2000_S256x2000 (ix2 p j))).setWidth 32).toInt : ℝ) : EReal) = _
  rw [maskVal, bcol_256, brow_256, pay3_apply]
  exact if_congr (word_eq_iff _ _ _ hk j.isLt) rfl rfl

/-! ## One trip at block height 2048 -/

private theorem lhs_2048_0 (i : S2048x128.Idx) (c : dot_S2048x2000_S2000x128_S2048x128_1_0_0_1_n_n.contr.Idx) :
    (dot_S2048x2000_S2000x128_S2048x128_1_0_0_1_n_n.lhsIdx i c 0).val = (i 0).val := by
  unfold DotDims.lhsIdx
  rw [dif_neg (show ¬(0 : Fin S2048x2000.rank) ∈ dot_S2048x2000_S2000x128_S2048x128_1_0_0_1_n_n.lhsBatch by decide),
    dif_pos (show (0 : Fin S2048x2000.rank) ∈ dot_S2048x2000_S2000x128_S2048x128_1_0_0_1_n_n.lhsNonContracting by decide)]
  rfl
private theorem lhs_2048_1 (i : S2048x128.Idx) (c : dot_S2048x2000_S2000x128_S2048x128_1_0_0_1_n_n.contr.Idx) :
    (dot_S2048x2000_S2000x128_S2048x128_1_0_0_1_n_n.lhsIdx i c 1).val = (c ⟨0, by decide⟩).val :=
  dot_S2048x2000_S2000x128_S2048x128_1_0_0_1_n_n.lhsIdx_val_of_single rfl i c
private theorem rhs_2048_0 (i : S2048x128.Idx) (c : dot_S2048x2000_S2000x128_S2048x128_1_0_0_1_n_n.contr.Idx) :
    (dot_S2048x2000_S2000x128_S2048x128_1_0_0_1_n_n.rhsIdx i c 0).val = (c ⟨0, by decide⟩).val :=
  dot_S2048x2000_S2000x128_S2048x128_1_0_0_1_n_n.rhsIdx_val_of_single rfl i c
private theorem rhs_2048_1 (i : S2048x128.Idx) (c : dot_S2048x2000_S2000x128_S2048x128_1_0_0_1_n_n.contr.Idx) :
    (dot_S2048x2000_S2000x128_S2048x128_1_0_0_1_n_n.rhsIdx i c 1).val = (i 1).val := by
  unfold DotDims.rhsIdx
  rw [dif_neg (show ¬(1 : Fin S2000x128.rank) ∈ dot_S2048x2000_S2000x128_S2048x128_1_0_0_1_n_n.rhsBatch by decide),
    dif_pos (show (1 : Fin S2000x128.rank) ∈ dot_S2048x2000_S2000x128_S2048x128_1_0_0_1_n_n.rhsNonContracting by decide)]
  rfl

/-- The product of a [2048 × 2000] array with a [2000 × 128] one into the zero splat, read at `(p, q)`. -/
private theorem matmul_2048 (A : FVec Ideal S2048x2000 .bf16) (B : FVec Ideal S2000x128 .bf16) (p : Fin 2048) (q : Fin 128) :
    FloatOps.matmul dot_S2048x2000_S2000x128_S2048x128_1_0_0_1_n_n none A B (constant (F := Ideal) S2048x128 .f32 0x00000000#32) (ix2 p q)
      = ∑ j : Fin 2000, A (ix2 p j) * B (ix2 j q) := by
  rw [Ideal.matmul_constant_zero_apply, ← Equiv.sum_comp (contrEquiv1 dot_S2048x2000_S2000x128_S2048x128_1_0_0_1_n_n 2000 rfl rfl).symm]
  refine Finset.sum_congr rfl fun j _ => ?_
  have hj := contrEquiv1_symm_val dot_S2048x2000_S2000x128_S2048x128_1_0_0_1_n_n 2000 rfl rfl j
  have el : dot_S2048x2000_S2000x128_S2048x128_1_0_0_1_n_n.lhsIdx (ix2 p q) ((contrEquiv1 dot_S2048x2000_S2000x128_S2048x128_1_0_0_1_n_n 2000 rfl rfl).symm j) = ix2 p j :=
    funext fun a => Fin.ext (by
      match a with
      | ⟨0, _⟩ => exact lhs_2048_0 _ _
      | ⟨1, _⟩ => exact (lhs_2048_1 _ _).trans hj)
  have er : dot_S2048x2000_S2000x128_S2048x128_1_0_0_1_n_n.rhsIdx (ix2 p q) ((contrEquiv1 dot_S2048x2000_S2000x128_S2048x128_1_0_0_1_n_n 2000 rfl rfl).symm j) = ix2 j q :=
    funext fun a => Fin.ext (by
      match a with
      | ⟨0, _⟩ => exact (rhs_2048_0 _ _).trans hj
      | ⟨1, _⟩ => exact rhs_2048_1 _ _)
  rw [el, er]

/-- A column of index words broadcast along the rows' 2000 columns reads the row's word. -/
private theorem bcol_2048 (v : IVec S2048x1 32) (p : Fin 2048) (j : Fin 2000) :
    broadcastTo S2048x2000 v broadcasts_S2048x1_S2048x2000 (ix2 p j) = v (ix2 p 0) :=
  broadcastTo_apply v _ (ix2 p j) (ix2 p 0) fun a => by
    match a with
    | ⟨0, _⟩ => rfl
    | ⟨1, _⟩ => rfl
/-- A row of row numbers broadcast down the 2048 rows reads the column's number. -/
private theorem brow_2048 (v : IVec S1x2000 32) (p : Fin 2048) (j : Fin 2000) :
    broadcastTo S2048x2000 v broadcasts_S1x2000_S2048x2000 (ix2 p j) = v (ix2 0 j) :=
  broadcastTo_apply v _ (ix2 p j) (ix2 0 j) fun a => by
    match a with
    | ⟨0, _⟩ => rfl
    | ⟨1, _⟩ => rfl

/-- One trip at `(p, q)`: the carried entry plus the chunk's column `q` weighted by "row `p`'s index word is
    `2000 k + j`". -/
private theorem k0_pay5_apply (x0 : Vec Ideal S2048x1 .i32) (k : Fin k0_t1_loop.trips) (acc : FVec Ideal S2048x128 .f32)
    (ch : Vec Ideal S2000x128 .bf16) (p : Fin 2048) (q : Fin 128) :
    k0_pay5 (F := Ideal) x0 k acc ch (ix2 p q)
      = acc (ix2 p q) + ∑ j : Fin 2000,
          (if (x0 (ix2 p 0)).toNat = 2000 * k.val + j.val then (1 : EReal) else 0) * ch (ix2 j q) := by
  have hk : k.val < 25 := by have h := k.isLt; have e := trips0; omega
  unfold k0_pay5
  refine (addf_apply _ _ _).trans ?_
  refine congrArg (acc (ix2 p q) + ·) ?_
  refine (matmul_2048 _ _ p q).trans ?_
  refine Finset.sum_congr rfl fun j _ => ?_
  rw [shapeCast_self ch, shapeCast_self x0]
  refine congrArg (· * ch (ix2 j q)) ?_
  show ((((IntOp.cmpi .eq
      (broadcastTo S2048x2000 x0 broadcasts_S2048x1_S2048x2000 (ix2 p j))
      (broadcastTo S2048x2000 (k0_pay3 k) broadcasts_S1x2000_S2048x2000 (ix2 p j))).setWidth 32).toInt : ℝ) : EReal) = _
  rw [maskVal, bcol_2048, brow_2048, pay3_apply]
  exact if_congr (word_eq_iff _ _ _ hk j.isLt) rfl rfl

/-! ## One trip at block height 640 -/

private theorem lhs_640_0 (i : S640x128.Idx) (c : dot_S640x2000_S2000x128_S640x128_1_0_0_1_n_n.contr.Idx) :
    (dot_S640x2000_S2000x128_S640x128_1_0_0_1_n_n.lhsIdx i c 0).val = (i 0).val := by
  unfold DotDims.lhsIdx
  rw [dif_neg (show ¬(0 : Fin S640x2000.rank) ∈ dot_S640x2000_S2000x128_S640x128_1_0_0_1_n_n.lhsBatch by decide),
    dif_pos (show (0 : Fin S640x2000.rank) ∈ dot_S640x2000_S2000x128_S640x128_1_0_0_1_n_n.lhsNonContracting by decide)]
  rfl
private theorem lhs_640_1 (i : S640x128.Idx) (c : dot_S640x2000_S2000x128_S640x128_1_0_0_1_n_n.contr.Idx) :
    (dot_S640x2000_S2000x128_S640x128_1_0_0_1_n_n.lhsIdx i c 1).val = (c ⟨0, by decide⟩).val :=
  dot_S640x2000_S2000x128_S640x128_1_0_0_1_n_n.lhsIdx_val_of_single rfl i c
private theorem rhs_640_0 (i : S640x128.Idx) (c : dot_S640x2000_S2000x128_S640x128_1_0_0_1_n_n.contr.Idx) :
    (dot_S640x2000_S2000x128_S640x128_1_0_0_1_n_n.rhsIdx i c 0).val = (c ⟨0, by decide⟩).val :=
  dot_S640x2000_S2000x128_S640x128_1_0_0_1_n_n.rhsIdx_val_of_single rfl i c
private theorem rhs_640_1 (i : S640x128.Idx) (c : dot_S640x2000_S2000x128_S640x128_1_0_0_1_n_n.contr.Idx) :
    (dot_S640x2000_S2000x128_S640x128_1_0_0_1_n_n.rhsIdx i c 1).val = (i 1).val := by
  unfold DotDims.rhsIdx
  rw [dif_neg (show ¬(1 : Fin S2000x128.rank) ∈ dot_S640x2000_S2000x128_S640x128_1_0_0_1_n_n.rhsBatch by decide),
    dif_pos (show (1 : Fin S2000x128.rank) ∈ dot_S640x2000_S2000x128_S640x128_1_0_0_1_n_n.rhsNonContracting by decide)]
  rfl

/-- The product of a [640 × 2000] array with a [2000 × 128] one into the zero splat, read at `(p, q)`. -/
private theorem matmul_640 (A : FVec Ideal S640x2000 .bf16) (B : FVec Ideal S2000x128 .bf16) (p : Fin 640) (q : Fin 128) :
    FloatOps.matmul dot_S640x2000_S2000x128_S640x128_1_0_0_1_n_n none A B (constant (F := Ideal) S640x128 .f32 0x00000000#32) (ix2 p q)
      = ∑ j : Fin 2000, A (ix2 p j) * B (ix2 j q) := by
  rw [Ideal.matmul_constant_zero_apply, ← Equiv.sum_comp (contrEquiv1 dot_S640x2000_S2000x128_S640x128_1_0_0_1_n_n 2000 rfl rfl).symm]
  refine Finset.sum_congr rfl fun j _ => ?_
  have hj := contrEquiv1_symm_val dot_S640x2000_S2000x128_S640x128_1_0_0_1_n_n 2000 rfl rfl j
  have el : dot_S640x2000_S2000x128_S640x128_1_0_0_1_n_n.lhsIdx (ix2 p q) ((contrEquiv1 dot_S640x2000_S2000x128_S640x128_1_0_0_1_n_n 2000 rfl rfl).symm j) = ix2 p j :=
    funext fun a => Fin.ext (by
      match a with
      | ⟨0, _⟩ => exact lhs_640_0 _ _
      | ⟨1, _⟩ => exact (lhs_640_1 _ _).trans hj)
  have er : dot_S640x2000_S2000x128_S640x128_1_0_0_1_n_n.rhsIdx (ix2 p q) ((contrEquiv1 dot_S640x2000_S2000x128_S640x128_1_0_0_1_n_n 2000 rfl rfl).symm j) = ix2 j q :=
    funext fun a => Fin.ext (by
      match a with
      | ⟨0, _⟩ => exact (rhs_640_0 _ _).trans hj
      | ⟨1, _⟩ => exact rhs_640_1 _ _)
  rw [el, er]

/-- A column of index words broadcast along the rows' 2000 columns reads the row's word. -/
private theorem bcol_640 (v : IVec S640x1 32) (p : Fin 640) (j : Fin 2000) :
    broadcastTo S640x2000 v broadcasts_S640x1_S640x2000 (ix2 p j) = v (ix2 p 0) :=
  broadcastTo_apply v _ (ix2 p j) (ix2 p 0) fun a => by
    match a with
    | ⟨0, _⟩ => rfl
    | ⟨1, _⟩ => rfl
/-- A row of row numbers broadcast down the 640 rows reads the column's number. -/
private theorem brow_640 (v : IVec S1x2000 32) (p : Fin 640) (j : Fin 2000) :
    broadcastTo S640x2000 v broadcasts_S1x2000_S640x2000 (ix2 p j) = v (ix2 0 j) :=
  broadcastTo_apply v _ (ix2 p j) (ix2 0 j) fun a => by
    match a with
    | ⟨0, _⟩ => rfl
    | ⟨1, _⟩ => rfl

/-- One trip at `(p, q)`: the carried entry plus the chunk's column `q` weighted by "row `p`'s index word is
    `2000 k + j`". -/
private theorem k1_pay2_apply (x0 : Vec Ideal S640x1 .i32) (k : Fin k1_t1_loop.trips) (acc : FVec Ideal S640x128 .f32)
    (ch : Vec Ideal S2000x128 .bf16) (p : Fin 640) (q : Fin 128) :
    k1_pay2 (F := Ideal) x0 k acc ch (ix2 p q)
      = acc (ix2 p q) + ∑ j : Fin 2000,
          (if (x0 (ix2 p 0)).toNat = 2000 * k.val + j.val then (1 : EReal) else 0) * ch (ix2 j q) := by
  have hk : k.val < 25 := by have h := k.isLt; have e := trips1; omega
  unfold k1_pay2
  refine (addf_apply _ _ _).trans ?_
  refine congrArg (acc (ix2 p q) + ·) ?_
  refine (matmul_640 _ _ p q).trans ?_
  refine Finset.sum_congr rfl fun j _ => ?_
  rw [shapeCast_self ch, shapeCast_self x0]
  refine congrArg (· * ch (ix2 j q)) ?_
  show ((((IntOp.cmpi .eq
      (broadcastTo S640x2000 x0 broadcasts_S640x1_S640x2000 (ix2 p j))
      (broadcastTo S640x2000 (addi (iota .tc S1x2000 32 [1] iota_S1x2000_d1_w32) (broadcast S1x2000 (Scalar.muli (Scf.iv 0#32 1#32 k.val) 2000#32))) broadcasts_S1x2000_S640x2000 (ix2 p j))).setWidth 32).toInt : ℝ) : EReal) = _
  rw [maskVal, bcol_640, brow_640, rowvec_apply k.val hk]
  exact if_congr (word_eq_iff _ _ _ hk j.isLt) rfl rfl

/-! ## All trips -/

/-- After `n` trips the carried entry at `(p, q)` is row `w` of the table when the index word's value `w` is below
    `2000 n`, and zero otherwise. -/
private theorem acc0_fst_inv (x0 : Vec Ideal S256x1 .i32) (x1 : Vec Ideal S2048x1 .i32) (x2 x3 : Vec Ideal S50000x128 .bf16)
    (h0 : ∀ i, (x0 i).toNat < 50000) (p : Fin 256) (q : Fin 128) (n : ℕ) (hn : n ≤ 25) :
    (acc0 x0 x1 x2 x3 n).1 (ix2 p q)
      = if (x0 (ix2 p 0)).toNat < 2000 * n then x2 (ix2 ⟨(x0 (ix2 p 0)).toNat, h0 _⟩ q) else 0 := by
  induction n with
  | zero =>
    rw [if_neg (by omega)]
    show k0_pay1 (F := Ideal) (ix2 p q) = 0
    unfold k0_pay1
    exact Ideal.ofBits_zero_f32
  | succ n ih =>
    have hn' : n < k0_t1_loop.trips := by have e := trips0; omega
    have e : (acc0 x0 x1 x2 x3 (n + 1)).1
        = k0_pay4 (F := Ideal) x0 ⟨n, hn'⟩ (acc0 x0 x1 x2 x3 n).1 (chunk 50000 (by norm_num) x2 n) := by
      rw [acc0, dif_pos hn']
    rw [e, k0_pay4_apply, ih (by omega)]
    exact step 50000 (by norm_num) x2 _ (h0 _) n q

/-- After `n` trips the carried entry at `(p, q)` is row `w` of the table when the index word's value `w` is below
    `2000 n`, and zero otherwise. -/
private theorem acc0_snd_inv (x0 : Vec Ideal S256x1 .i32) (x1 : Vec Ideal S2048x1 .i32) (x2 x3 : Vec Ideal S50000x128 .bf16)
    (h1 : ∀ i, (x1 i).toNat < 50000) (p : Fin 2048) (q : Fin 128) (n : ℕ) (hn : n ≤ 25) :
    (acc0 x0 x1 x2 x3 n).2 (ix2 p q)
      = if (x1 (ix2 p 0)).toNat < 2000 * n then x3 (ix2 ⟨(x1 (ix2 p 0)).toNat, h1 _⟩ q) else 0 := by
  induction n with
  | zero =>
    rw [if_neg (by omega)]
    show k0_pay2 (F := Ideal) (ix2 p q) = 0
    unfold k0_pay2
    exact Ideal.ofBits_zero_f32
  | succ n ih =>
    have hn' : n < k0_t1_loop.trips := by have e := trips0; omega
    have e : (acc0 x0 x1 x2 x3 (n + 1)).2
        = k0_pay5 (F := Ideal) x1 ⟨n, hn'⟩ (acc0 x0 x1 x2 x3 n).2 (chunk 50000 (by norm_num) x3 n) := by
      rw [acc0, dif_pos hn']
    rw [e, k0_pay5_apply, ih (by omega)]
    exact step 50000 (by norm_num) x3 _ (h1 _) n q

/-- After `n` trips the carried entry at `(p, q)` is row `w` of the table when the index word's value `w` is below
    `2000 n`, and zero otherwise. -/
private theorem acc1_inv (x0 : Vec Ideal S640x1 .i32) (x2 : Vec Ideal S10000x128 .bf16)
    (h0 : ∀ i, (x0 i).toNat < 10000) (p : Fin 640) (q : Fin 128) (n : ℕ) (hn : n ≤ 5) :
    (acc1 x0 x2 n) (ix2 p q)
      = if (x0 (ix2 p 0)).toNat < 2000 * n then x2 (ix2 ⟨(x0 (ix2 p 0)).toNat, h0 _⟩ q) else 0 := by
  induction n with
  | zero =>
    rw [if_neg (by omega)]
    show k1_pay1 (F := Ideal) (ix2 p q) = 0
    unfold k1_pay1
    exact Ideal.ofBits_zero_f32
  | succ n ih =>
    have hn' : n < k1_t1_loop.trips := by have e := trips1; omega
    have e : (acc1 x0 x2 (n + 1))
        = k1_pay2 (F := Ideal) x0 ⟨n, hn'⟩ (acc1 x0 x2 n) (chunk 10000 (by norm_num) x2 n) := by
      rw [acc1, dif_pos hn']
    rw [e, k1_pay2_apply, ih (by omega)]
    exact step 10000 (by norm_num) x2 _ (h0 _) n q

theorem acc0_fst (x0 : Vec Ideal S256x1 .i32) (x1 : Vec Ideal S2048x1 .i32) (x2 x3 : Vec Ideal S50000x128 .bf16)
    (h0 : ∀ i, (x0 i).toNat < 50000) (p : Fin 256) (q : Fin 128) :
    (acc0 x0 x1 x2 x3 25).1 (ix2 p q) = x2 (ix2 (rowIx 50000 (by norm_num) (x0 (ix2 p 0))) q) := by
  rw [acc0_fst_inv x0 x1 x2 x3 h0 p q 25 le_rfl, if_pos (by have := h0 (ix2 p 0); omega)]
  exact congrArg (fun a => x2 (ix2 a q))
    (Fin.ext (rowIx_val_of_lt 50000 (by norm_num) (by norm_num) _ (h0 _)).symm)

theorem acc0_snd (x0 : Vec Ideal S256x1 .i32) (x1 : Vec Ideal S2048x1 .i32) (x2 x3 : Vec Ideal S50000x128 .bf16)
    (h1 : ∀ i, (x1 i).toNat < 50000) (p : Fin 2048) (q : Fin 128) :
    (acc0 x0 x1 x2 x3 25).2 (ix2 p q) = x3 (ix2 (rowIx 50000 (by norm_num) (x1 (ix2 p 0))) q) := by
  rw [acc0_snd_inv x0 x1 x2 x3 h1 p q 25 le_rfl, if_pos (by have := h1 (ix2 p 0); omega)]
  exact congrArg (fun a => x3 (ix2 a q))
    (Fin.ext (rowIx_val_of_lt 50000 (by norm_num) (by norm_num) _ (h1 _)).symm)

theorem acc1_apply (x0 : Vec Ideal S640x1 .i32) (x2 : Vec Ideal S10000x128 .bf16)
    (h0 : ∀ i, (x0 i).toNat < 10000) (p : Fin 640) (q : Fin 128) :
    acc1 x0 x2 5 (ix2 p q) = x2 (ix2 (rowIx 10000 (by norm_num) (x0 (ix2 p 0))) q) := by
  rw [acc1_inv x0 x2 h0 p q 5 le_rfl, if_pos (by have := h0 (ix2 p 0); omega)]
  exact congrArg (fun a => x2 (ix2 a q))
    (Fin.ext (rowIx_val_of_lt 10000 (by norm_num) (by norm_num) _ (h0 _)).symm)

end Cert.KernelIdeal.OneHot

end
-- ==== Proof.Payload.lean ====
/- The two closing payloads read at an index: group sums, a clamp at zero, and a softmax along the features. -/
import proofs.«404633_j41051297415545_3_alg».proof.Proof.Gen.KernelIdeal.Skeleton
import proofs.«404633_j41051297415545_3_alg».proof.Proof.Spec
import Idealize.ShloMosaic.PureOps.Ideal.Laws
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Spec

/-- The index a one-axis reduction over the middle axis of a rank-3 array inserts. -/
private theorem lift_mid {R G C : ℕ} (hr : (⟨3, ![R, G, C]⟩ : Shape).Reduces [1] ⟨2, ![R, C]⟩) (p : Fin R) (q : Fin C) (j : Fin G) :
    hr.lift (ix2 p q) j = ix3 p j q := by
  funext c
  exact Fin.ext (by match c with | ⟨0, _⟩ => rfl | ⟨1, _⟩ => rfl | ⟨2, _⟩ => rfl)

/-- An array of `R * G` rows regrouped as `R` groups of `G` rows and summed within each group: entry (p, q) is the sum
    over j of the entries (p * G + j, q). -/
private theorem groupSum_apply {N R G C : ℕ} (x : FVec Ideal ⟨2, ![N, C]⟩ .f32)
    (hc : (⟨2, ![N, C]⟩ : Shape).ShapeCasts ⟨3, ![R, G, C]⟩)
    (hr : (⟨3, ![R, G, C]⟩ : Shape).Reduces [1] ⟨2, ![R, C]⟩) (hφ : FKind.Formats .f32)
    (hacc : (0x00000000#32 : BitVec 32) = FKind.add.neutral .f32 hφ) (p : Fin R) (q : Fin C)
    (row : Fin G → Fin N) (hrow : ∀ j, (row j).val = p.val * G + j.val) :
    multiReduction (F := Ideal) .add [1] ⟨2, ![R, C]⟩ (shapeCast ⟨3, ![R, G, C]⟩ x hc) 0x00000000#32 hr hφ hacc (ix2 p q)
      = ∑ j : Fin G, x (ix2 (row j) q) := by
  refine (Ideal.multiReduction_add_single _ _ hr hφ hacc (ix2 p q)).trans ?_
  refine Finset.sum_congr rfl fun j _ => ?_
  rw [lift_mid hr p q j]
  refine shapeCast_apply x hc (ix3 p j q) (ix2 (row j) q) ?_
  rw [Shape.rowMajor_val_two, Shape.rowMajor_val_three]
  show (row j).val * C + q.val = (p.val * G + j.val) * C + q.val
  rw [hrow j]

/-- The index a one-axis reduction over the last axis of a rank-2 array inserts. -/
private theorem lift_last {R C : ℕ} (hr : (⟨2, ![R, C]⟩ : Shape).Reduces [1] ⟨1, ![R]⟩) (p : Fin R) (k : Fin C) :
    hr.lift (ix1 p) k = ix2 p k := by
  funext c
  exact Fin.ext (by match c with | ⟨0, _⟩ => rfl | ⟨1, _⟩ => rfl)

/-- A column of per-row values, spread along the rows: entry (p, q) is the value of row p. -/
private theorem colBroadcast_apply {R C : ℕ} (w : (⟨1, ![R]⟩ : Shape).Idx → EReal)
    (hsc : (⟨1, ![R]⟩ : Shape).ShapeCasts ⟨2, ![R, 1]⟩) (hbc : (⟨2, ![R, 1]⟩ : Shape).Broadcasts ⟨2, ![R, C]⟩)
    (p : Fin R) (q : Fin C) :
    broadcastTo ⟨2, ![R, C]⟩ (shapeCast ⟨2, ![R, 1]⟩ w hsc) hbc (ix2 p q) = w (ix1 p) := by
  refine (broadcastTo_apply _ hbc (ix2 p q) (ix2 p (⟨0, Nat.one_pos⟩ : Fin 1)) ?_).trans ?_
  · intro a
    match a with
    | ⟨0, _⟩ =>
      show p.val = if R = 1 then 0 else p.val
      split
      · have := p.isLt; omega
      · rfl
    | ⟨1, _⟩ => rfl
  · refine shapeCast_apply w hsc _ (ix1 p) ?_
    rw [Shape.rowMajor_val_one, Shape.rowMajor_val_two]
    show p.val = p.val * 1 + 0
    omega

/-- The word of the maximum's neutral element is the bottom of the extended reals. -/
private theorem ofBits_negInf : Ideal.ofBits .f32 0xFF800000#32 = ⊥ := by simp [Ideal.ofBits, Ideal.ieee]

/-- The softmax along the last axis of a rank-2 array, read at an index: each row's entries less the row's maximum,
    exponentiated, over their sum. -/
private theorem softmax_apply {R C : ℕ} (r : FVec Ideal ⟨2, ![R, C]⟩ .f32)
    (hred : (⟨2, ![R, C]⟩ : Shape).Reduces [1] ⟨1, ![R]⟩)
    (hsc : (⟨1, ![R]⟩ : Shape).ShapeCasts ⟨2, ![R, 1]⟩) (hbc : (⟨2, ![R, 1]⟩ : Shape).Broadcasts ⟨2, ![R, C]⟩)
    (hφ : FKind.Formats .f32) (haccM : (0xFF800000#32 : BitVec 32) = FKind.maximumf.neutral .f32 hφ)
    (haccA : (0x00000000#32 : BitVec 32) = FKind.add.neutral .f32 hφ) (p : Fin R) (q : Fin C) :
    divf (exp (subf r (broadcastTo ⟨2, ![R, C]⟩ (shapeCast ⟨2, ![R, 1]⟩
            (multiReduction (F := Ideal) .maximumf [1] ⟨1, ![R]⟩ r 0xFF800000#32 hred hφ haccM) hsc) hbc)))
         (broadcastTo ⟨2, ![R, C]⟩ (shapeCast ⟨2, ![R, 1]⟩
            (multiReduction (F := Ideal) .add [1] ⟨1, ![R]⟩
              (exp (subf r (broadcastTo ⟨2, ![R, C]⟩ (shapeCast ⟨2, ![R, 1]⟩
                (multiReduction (F := Ideal) .maximumf [1] ⟨1, ![R]⟩ r 0xFF800000#32 hred hφ haccM) hsc) hbc)))
              0x00000000#32 hred hφ haccA) hsc) hbc) (ix2 p q)
      = softmaxRow (fun q' : Fin C => r (ix2 p q')) q := by
  have hm : ∀ q' : Fin C, broadcastTo ⟨2, ![R, C]⟩ (shapeCast ⟨2, ![R, 1]⟩
            (multiReduction (F := Ideal) .maximumf [1] ⟨1, ![R]⟩ r 0xFF800000#32 hred hφ haccM) hsc) hbc (ix2 p q')
          = rowMax (fun q' : Fin C => r (ix2 p q')) := by
    intro q'
    refine (colBroadcast_apply _ hsc hbc p q').trans ?_
    refine (Ideal.multiReduction_maximumf_single r _ hred hφ haccM (ix1 p)).trans ?_
    show Finset.univ.fold max (Ideal.ofBits .f32 0xFF800000#32) (r ∘ hred.lift (ix1 p)) = _
    rw [ofBits_negInf]
    unfold rowMax
    exact congrArg (fun f => Finset.fold max (⊥ : EReal) f (Finset.univ : Finset (Fin C))) (funext fun k => by
      show r (hred.lift (ix1 p) k) = r (ix2 p k)
      rw [lift_last hred p k])
  show Ideal.div (Ideal.exp (r (ix2 p q) - _)) _ = _
  rw [hm q, colBroadcast_apply _ hsc hbc p q]
  unfold softmaxRow
  refine congrArg (Ideal.div _) ?_
  refine (Ideal.multiReduction_add_single _ _ hred hφ haccA (ix1 p)).trans ?_
  refine Finset.sum_congr rfl fun k _ => ?_
  rw [lift_last hred p k]
  show Ideal.exp (r (ix2 p k) - _) = _
  rw [hm k]

/-- Layer one's closing payload at (p, q): the softmax along the features of the row whose entry q' is the sum over the
    node's 16 internal nodes k of `max (a[16 p + k, q'] + Σ_j b[(16 p + k) * 8 + j, q']) 0`. -/
theorem pay6_apply (a : FVec Ideal S256x128 .f32) (b : FVec Ideal S2048x128 .f32) (p : Fin 16) (q : Fin 128) :
    k0_pay6 (F := Ideal) a b (ix2 p q)
      = softmaxRow (fun q' : Fin 128 => ∑ k : Fin 16, max (a (ix2 (⟨16 * p.val + k.val, by omega⟩ : Fin 256) q')
          + ∑ j : Fin 8, b (ix2 (⟨(16 * p.val + k.val) * 8 + j.val, by omega⟩ : Fin 2048) q')) 0) q := by
  unfold k0_pay6
  refine (softmax_apply _ reduces_S16x128_S16 shapeCasts_S16_S16x1 broadcasts_S16x1_S16x128 (.inl rfl) rfl rfl p q).trans ?_
  refine congrArg (fun r => softmaxRow r q) (funext fun q' => ?_)
  refine (groupSum_apply _ shapeCasts_S256x128_S16x16x128 reduces_S16x16x128_S16x128 (.inl rfl) rfl p q'
    (fun k => (⟨16 * p.val + k.val, by omega⟩ : Fin 256)) (fun k => by show 16 * p.val + k.val = p.val * 16 + k.val; omega)).trans ?_
  refine Finset.sum_congr rfl fun k _ => ?_
  show max (a (ix2 (⟨16 * p.val + k.val, by omega⟩ : Fin 256) q') + _) (Ideal.ofBits .f32 0x00000000#32) = _
  rw [Ideal.ofBits_zero_f32]
  refine congrArg (fun z => max (a (ix2 (⟨16 * p.val + k.val, by omega⟩ : Fin 256) q') + z) 0) ?_
  exact groupSum_apply b shapeCasts_S2048x128_S256x8x128 reduces_S256x8x128_S256x128 (.inl rfl) rfl
    (⟨16 * p.val + k.val, by omega⟩ : Fin 256) q'
    (fun j => (⟨(16 * p.val + k.val) * 8 + j.val, by omega⟩ : Fin 2048)) (fun j => rfl)

/-- Layer two's closing payload at (p, q): the softmax along the features of the row whose entry q' is
    `max (v7[p, q'] + Σ_j v4[16 p + j, q']) 0`. -/
theorem pay3_apply (v4 : FVec Ideal S640x128 .f32) (v7 : Vec Ideal S40x128 .f32) (p : Fin 40) (q : Fin 128) :
    k1_pay3 (F := Ideal) v4 v7 (ix2 p q)
      = softmaxRow (fun q' : Fin 128 => max (v7 (ix2 p q')
          + ∑ j : Fin 16, v4 (ix2 (⟨16 * p.val + j.val, by omega⟩ : Fin 640) q')) 0) q := by
  unfold k1_pay3
  refine (softmax_apply _ reduces_S40x128_S40 shapeCasts_S40_S40x1 broadcasts_S40x1_S40x128 (.inl rfl) rfl rfl p q).trans ?_
  refine congrArg (fun r => softmaxRow r q) (funext fun q' => ?_)
  show max (shapeCast S40x128 v7 shapeCasts_S40x128_S40x128 (ix2 p q') + _) (Ideal.ofBits .f32 0x00000000#32) = _
  rw [Ideal.ofBits_zero_f32, shapeCast_self]
  refine congrArg (fun z => max (v7 (ix2 p q') + z) 0) ?_
  exact groupSum_apply v4 shapeCasts_S640x128_S40x16x128 reduces_S40x16x128_S40x128 (.inl rfl) rfl p q'
    (fun j => (⟨16 * p.val + j.val, by omega⟩ : Fin 640)) (fun j => by show 16 * p.val + j.val = p.val * 16 + j.val; omega)

end Cert.KernelIdeal.Payload

end
-- ==== Proof.Point.lean ====
/- One grid point of each kernel, read at an index of its output block, as a function of the point's input blocks. -/
import proofs.«404633_j41051297415545_3_alg».proof.Proof.BodyRun
import proofs.«404633_j41051297415545_3_alg».proof.Proof.OneHot
import proofs.«404633_j41051297415545_3_alg».proof.Proof.Payload

noncomputable section

open scoped BigOperators

namespace Cert.KernelIdeal.Point

open Idealize.ShloMosaic Idealize.ShloMosaic.ValueIdx Cert.KernelIdeal Cert.KernelIdeal.Gen Cert.KernelIdeal.Fold Cert.Spec

/-- Layer one at a point: row `p` of the block is the softmax of the 16 clamped sums of the rows the index words name. -/
theorem out0_apply (c : Dev nD) (i : grid0.Coords) (arg1 : Memref sig .tc .vmem S256x1 .i32) (harg1 : arg1.IsWhole) (arg2 : Memref sig .tc .vmem S2048x1 .i32) (harg2 : arg2.IsWhole) (arg3 : Memref sig .tc .vmem S50000x128 .bf16) (harg3 : arg3.IsWhole) (arg4 : Memref sig .tc .vmem S50000x128 .bf16) (harg4 : arg4.IsWhole) (arg5 : Memref sig .tc .vmem S16x128 .f32) (harg5 : arg5.IsWhole)
    (x0 : Vec Ideal S256x1 .i32) (x1 : Vec Ideal S2048x1 .i32) (x2 x3 : Vec Ideal S50000x128 .bf16)
    (h0 : ∀ i, (x0 i).toNat < 50000) (h1 : ∀ i, (x1 i).toNat < 50000) (p : Fin 16) (q : Fin 128) :
    out0_A_4 (F := Ideal) c i arg1 harg1 arg2 harg2 arg3 harg3 arg4 harg4 arg5 harg5 x0 x1 x2 x3 (ix2 p q)
      = softmaxRow (fun q' : Fin 128 => ∑ k : Fin 16,
          max (x2 (ix2 (rowIx 50000 (by norm_num) (x0 (ix2 (⟨16 * p.val + k.val, by omega⟩ : Fin 256) 0))) q')
            + ∑ j : Fin 8, x3 (ix2 (rowIx 50000 (by norm_num) (x1 (ix2 (⟨(16 * p.val + k.val) * 8 + j.val, by omega⟩ : Fin 2048) 0))) q')) 0) q := by
  rw [BodyRun.out0_eq, Payload.pay6_apply]
  congr 1
  funext q'
  refine Finset.sum_congr rfl fun k _ => ?_
  rw [OneHot.acc0_fst x0 x1 x2 x3 h0]
  congr 2
  refine Finset.sum_congr rfl fun j _ => ?_
  rw [OneHot.acc0_snd x0 x1 x2 x3 h1]

/-- Layer two at a point: row `p` of the block is the softmax of the clamped sum of its `h·Uᵀ` row and the 16 `h·Vᵀ` rows the index words name. -/
theorem out1_apply (c : Dev nD) (i : grid1.Coords) (arg1 : Memref sig .tc .vmem S640x1 .i32) (harg1 : arg1.IsWhole) (arg2 : Memref sig .tc .vmem S40x128 .f32) (harg2 : arg2.IsWhole) (arg3 : Memref sig .tc .vmem S10000x128 .bf16) (harg3 : arg3.IsWhole) (arg4 : Memref sig .tc .vmem S40x128 .f32) (harg4 : arg4.IsWhole)
    (x0 : Vec Ideal S640x1 .i32) (x1 : Vec Ideal S40x128 .f32) (x2 : Vec Ideal S10000x128 .bf16)
    (h0 : ∀ i, (x0 i).toNat < 10000) (p : Fin 40) (q : Fin 128) :
    out1_A_3 (F := Ideal) c i arg1 harg1 arg2 harg2 arg3 harg3 arg4 harg4 x0 x1 x2 (ix2 p q)
      = softmaxRow (fun q' : Fin 128 => max (x1 (ix2 p q')
          + ∑ j : Fin 16, x2 (ix2 (rowIx 10000 (by norm_num) (x0 (ix2 (⟨16 * p.val + j.val, by omega⟩ : Fin 640) 0))) q')) 0) q := by
  rw [BodyRun.out1_eq, Payload.pay3_apply]
  congr 1
  funext q'
  congr 2
  refine Finset.sum_congr rfl fun j _ => ?_
  rw [OneHot.acc1_apply x0 x2 h0]

end Cert.KernelIdeal.Point

end
-- ==== Proof.Blocks.lean ====
/- From grid points to whole arrays: each region's result array, read at an index, from the arrays the region is entered with. -/
import proofs.«404633_j41051297415545_3_alg».proof.Proof.Gen.KernelIdeal.Frame
import proofs.«404633_j41051297415545_3_alg».proof.Proof.Point
import Idealize.ShloMosaic.Lib.Pipeline.Value

noncomputable section

open scoped BigOperators

namespace Cert.KernelIdeal.Blocks

open Idealize.ShloMosaic Idealize.ShloMosaic.TcCoe Idealize.ShloMosaic.ValueIdx Cert.KernelIdeal Cert.KernelIdeal.Gen Cert.Spec

variable (V : (c : Dev nD) → (b : Ref sig .tc) → Buf (Elt Ideal) ((c : Thread nD τ).loc b))

/-! ## Region 0 -/

/-- The printed index maps of grid 0, decided over its 625 points: the two index windows and the result window move with
    the point along the rows, the two tables stay whole. -/
private theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks of a point and the four arrays they are cut from, at their literal types. -/
private abbrev idBlk (c : Dev nD) (t : Fin cfg0.N) : Vec Ideal S256x1 .i32 := iblk0 V c 0 t
private abbrev nidBlk (c : Dev nD) (t : Fin cfg0.N) : Vec Ideal S2048x1 .i32 := iblk0 V c 1 t
private abbrev ewBlk (c : Dev nD) (t : Fin cfg0.N) : Vec Ideal S50000x128 .bf16 := iblk0 V c 2 t
private abbrev emBlk (c : Dev nD) (t : Fin cfg0.N) : Vec Ideal S50000x128 .bf16 := iblk0 V c 3 t
private abbrev idArr (c : Dev nD) : S160000x1.Idx → BitVec 32 := V c main_v6
private abbrev nidArr (c : Dev nD) : S1280000x1.Idx → BitVec 32 := V c main_v7
private abbrev ewArr (c : Dev nD) : S50000x128.Idx → EReal := V c main_v2
private abbrev emArr (c : Dev nD) : S50000x128.Idx → EReal := V c main_v5

/-- Point `t`'s block of node index words is entries `256 t …` of the flat array. -/
private theorem idBlk_apply (c : Dev nD) (t : Fin cfg0.N) (y : S256x1.Idx) (k : S160000x1.Idx)
    (hk : (k 0).val = 256 * t.val + (y 0).val) : idBlk V c t y = idArr V c k := by
  obtain ⟨e0, e1, -⟩ := idx0 t
  unfold idBlk iblk0
  rw [View.read_apply]
  show V c main_v6 _ = V c main_v6 _
  congr 1
  funext a
  apply Fin.ext
  match a with
  | ⟨0, _⟩ => show win0_0.index t 0 * 256 + 1 * (y 0).val = (k 0).val; rw [e0, hk]; omega
  | ⟨1, _⟩ =>
    show win0_0.index t 1 * 1 + 1 * (y 1).val = (k 1).val
    have h1 : (y 1).val < 1 := (y 1).isLt
    have h2 : (k 1).val < 1 := (k 1).isLt
    rw [e1]; omega

/-- Point `t`'s block of neighbour index words is entries `2048 t …` of the flat array. -/
private theorem nidBlk_apply (c : Dev nD) (t : Fin cfg0.N) (y : S2048x1.Idx) (k : S1280000x1.Idx)
    (hk : (k 0).val = 2048 * t.val + (y 0).val) : nidBlk V c t y = nidArr V c k := by
  obtain ⟨-, -, e0, e1, -⟩ := idx0 t
  unfold nidBlk iblk0
  rw [View.read_apply]
  show V c main_v7 _ = V c main_v7 _
  congr 1
  funext a
  apply Fin.ext
  match a with
  | ⟨0, _⟩ => show win0_1.index t 0 * 2048 + 1 * (y 0).val = (k 0).val; rw [e0, hk]; omega
  | ⟨1, _⟩ =>
    show win0_1.index t 1 * 1 + 1 * (y 1).val = (k 1).val
    have h1 : (y 1).val < 1 := (y 1).isLt
    have h2 : (k 1).val < 1 := (k 1).isLt
    rw [e1]; omega

/-- Each table's block is the whole table at every point. -/
private theorem ewBlk_eq (c : Dev nD) (t : Fin cfg0.N) : ewBlk V c t = ewArr V c := by
  obtain ⟨-, -, -, -, e0, e1, -⟩ := idx0 t
  funext y
  unfold ewBlk iblk0
  rw [View.read_apply]
  show V c main_v2 _ = V c main_v2 _
  congr 1
  funext a
  apply Fin.ext
  match a with
  | ⟨0, _⟩ => show win0_2.index t 0 * 50000 + 1 * (y 0).val = (y 0).val; rw [e0]; omega
  | ⟨1, _⟩ => show win0_2.index t 1 * 128 + 1 * (y 1).val = (y 1).val; rw [e1]; omega

private theorem emBlk_eq (c : Dev nD) (t : Fin cfg0.N) : emBlk V c t = emArr V c := by
  obtain ⟨-, -, -, -, -, -, e0, e1, -⟩ := idx0 t
  funext y
  unfold emBlk iblk0
  rw [View.read_apply]
  show V c main_v5 _ = V c main_v5 _
  congr 1
  funext a
  apply Fin.ext
  match a with
  | ⟨0, _⟩ => show win0_3.index t 0 * 50000 + 1 * (y 0).val = (y 0).val; rw [e0]; omega
  | ⟨1, _⟩ => show win0_3.index t 1 * 128 + 1 * (y 1).val = (y 1).val; rw [e1]; omega

/-- Layer one of the arrays region 0 is entered with, as one array. -/
private def G0 (c : Dev nD) : S10000x128.Idx → EReal :=
  uncur2 (hRow (cur2 (ewArr V c)) (cur2 (emArr V c))
    (fun n k => idArr V c (ix2 (⟨16 * n.val + k.val, by omega⟩ : Fin 160000) 0))
    (fun n k j => nidArr V c (ix2 (⟨(16 * n.val + k.val) * 8 + j.val, by omega⟩ : Fin 1280000) 0)))

/-- What point `t` leaves at `(p, q)` of its result block is layer one at node `16 t + p`: the block's 16 node words
    for row `p` are flat entries `256 t + (16 p + k) = 16 (16 t + p) + k`, and its neighbour words likewise. -/
private theorem point0 (c : Dev nD)
    (hin0 : ∀ i, (idArr V c i).toNat < 50000) (hin1 : ∀ i, (nidArr V c i).toNat < 50000)
    (t : Fin cfg0.N) (p : Fin 16) (q : Fin 128) (n : Fin 10000) (hn : n.val = 16 * t.val + p.val) :
    outsAt0 (F := Ideal) V c t (ix2 p q) = G0 V c (ix2 n q) := by
  have ht : t.val < 625 := lt_of_lt_of_eq t.isLt N_0
  have h0 : ∀ i, (idBlk V c t i).toNat < 50000 := fun i => by
    have hi : (i 0).val < 256 := (i 0).isLt
    rw [idBlk_apply V c t i (ix2 (⟨256 * t.val + (i 0).val, by omega⟩ : Fin 160000) 0) rfl]
    exact hin0 _
  have h1 : ∀ i, (nidBlk V c t i).toNat < 50000 := fun i => by
    have hi : (i 0).val < 2048 := (i 0).isLt
    rw [nidBlk_apply V c t i (ix2 (⟨2048 * t.val + (i 0).val, by omega⟩ : Fin 1280000) 0) rfl]
    exact hin1 _
  unfold outsAt0
  refine (Point.out0_apply c (grid0.coords t) (ms0_0 t) (hs0_0 t) (ms0_1 t) (hs0_1 t) (ms0_2 t) (hs0_2 t) (ms0_3 t) (hs0_3 t)
    (ms0_4 t) (hs0_4 t) (idBlk V c t) (nidBlk V c t) (ewBlk V c t) (emBlk V c t) h0 h1 p q).trans ?_
  show softmaxRow _ q = softmaxRow _ q
  congr 1
  funext q'
  show _ = rSum _ _ _ _ n q'
  unfold rSum
  refine Finset.sum_congr rfl fun k _ => ?_
  have e1 : idBlk V c t (ix2 (⟨16 * p.val + k.val, by omega⟩ : Fin 256) 0)
      = idArr V c (ix2 (⟨16 * n.val + k.val, by omega⟩ : Fin 160000) 0) :=
    idBlk_apply V c t _ _ (by show 16 * n.val + k.val = 256 * t.val + (16 * p.val + k.val); omega)
  have e2 : ∀ j : Fin 8, nidBlk V c t (ix2 (⟨(16 * p.val + k.val) * 8 + j.val, by omega⟩ : Fin 2048) 0)
      = nidArr V c (ix2 (⟨(16 * n.val + k.val) * 8 + j.val, by omega⟩ : Fin 1280000) 0) := fun j =>
    nidBlk_apply V c t _ _ (by show (16 * n.val + k.val) * 8 + j.val = 2048 * t.val + ((16 * p.val + k.val) * 8 + j.val); omega)
  rw [ewBlk_eq, emBlk_eq, e1]
  simp only [e2]

/-- The same at any index of the block and the index of the array it lands on. -/
private theorem point0_at (c : Dev nD)
    (hin0 : ∀ i, (idArr V c i).toNat < 50000) (hin1 : ∀ i, (nidArr V c i).toNat < 50000)
    (t : Fin cfg0.N) (y : S16x128.Idx) (i : S10000x128.Idx)
    (h0 : (i 0).val = 16 * t.val + (y 0).val) (h1 : (i 1).val = (y 1).val) :
    outsAt0 (F := Ideal) V c t y = G0 V c i := by
  have hi : i = ix2 (i 0) (y 1) := by
    funext a
    match a with
    | ⟨0, _⟩ => rfl
    | ⟨1, _⟩ => exact Fin.ext h1
  rw [eq_ix2 y, hi]
  exact point0 V c hin0 hin1 t (y 0) (y 1) (i 0) h0

/-- What point `t` writes back is block `t` of layer one. -/
private theorem flushed0_eq (c : Dev nD)
    (hin0 : ∀ i, (idArr V c i).toNat < 50000) (hin1 : ∀ i, (nidArr V c i).toNat < 50000) (t : Fin cfg0.N) :
    (dat0 (F := Ideal) V c).flushed 4 t = ((cfg0.win 4).blk t).view.read (Elt Ideal) (G0 V c) := by
  show (cfg0.win 4).cut (grid0.coords t) ((dat0 V c).after 4 t) = _
  rw [after0_4]
  obtain ⟨-, -, -, -, -, -, -, -, e0, e1⟩ := idx0 t
  funext y
  rw [View.read_apply]
  refine point0_at V c hin0 hin1 t y _ ?_ ?_
  · show win0_4.index t 0 * 16 + 1 * (y 0).val = 16 * t.val + (y 0).val; rw [e0]; omega
  · show win0_4.index t 1 * 128 + 1 * (y 1).val = (y 1).val; rw [e1]; omega

/-- An index of the result array is in point `t`'s block iff each coordinate is in the block's range on its axis. -/
private theorem mem_blk0 (t : Fin cfg0.N) (i : S10000x128.Idx) :
    i ∈ ((cfg0.win 4).blk t).view.set ↔ ∀ a : Fin 2, win0_4.index t a * S16x128.size a ≤ (i a).val
      ∧ (i a).val < win0_4.index t a * S16x128.size a + S16x128.size a := by
  show i ∈ ((View.whole main_v8).slice (win0_4.rect t)).set ↔ _
  rw [View.set_slice_whole, Rect.mem_set_unit]
  exact Iff.rfl

/-- Row `r` of the result is in the block of point `r / 16`. -/
private theorem cover0 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 625 := N_0
  have ht : (i 0).val / 16 < cfg0.N := by rw [hN]; omega
  obtain ⟨-, -, -, -, -, -, -, -, e0, e1⟩ := idx0 ⟨(i 0).val / 16, ht⟩
  refine ⟨⟨(i 0).val / 16, ht⟩, flush0_4 _, ?_⟩
  rw [mem_blk0]
  intro a
  match a with
  | ⟨0, _⟩ =>
    show win0_4.index ⟨(i 0).val / 16, ht⟩ 0 * 16 ≤ (i 0).val ∧ (i 0).val < win0_4.index ⟨(i 0).val / 16, ht⟩ 0 * 16 + 16
    rw [e0]; show (i 0).val / 16 * 16 ≤ (i 0).val ∧ (i 0).val < (i 0).val / 16 * 16 + 16; omega
  | ⟨1, _⟩ =>
    show win0_4.index ⟨(i 0).val / 16, ht⟩ 1 * 128 ≤ (i 1).val ∧ (i 1).val < win0_4.index ⟨(i 0).val / 16, ht⟩ 1 * 128 + 128
    rw [e1]; omega

/-- Region 0: node `n`'s row of the result is layer one of the tables and index arrays the region finds
    (the index arrays flattened: entry `16 n + k`, and `(16 n + k)·8 + j`). -/
theorem arr0_apply (c : Dev nD)
    (hin0 : ∀ i, ((V c main_v6 : S160000x1.Idx → BitVec 32) i).toNat < 50000)
    (hin1 : ∀ i, ((V c main_v7 : S1280000x1.Idx → BitVec 32) i).toNat < 50000) (n : Fin 10000) (q : Fin 128) :
    ((dat0 (F := Ideal) V c).arrAt 4 cfg0.N : S10000x128.Idx → EReal) (ix2 n q)
      = hRow (cur2 (V c main_v2 : S50000x128.Idx → EReal)) (cur2 (V c main_v5 : S50000x128.Idx → EReal))
          (fun n k => (V c main_v6 : S160000x1.Idx → BitVec 32) (ix2 (⟨16 * n.val + k.val, by omega⟩ : Fin 160000) 0))
          (fun n k j => (V c main_v7 : S1280000x1.Idx → BitVec 32) (ix2 (⟨(16 * n.val + k.val) * 8 + j.val, by omega⟩ : Fin 1280000) 0)) n q := by
  refine (congrFun ((dat0 (F := Ideal) V c).arrAt_eq_of_cover 4 (G0 V c)
    (fun t _ => flushed0_eq V c hin0 hin1 t) cover0) (ix2 n q)).trans ?_
  rfl

/-! ## Region 1 -/

/-- The printed index maps of grid 1, decided over its 250 points: the index window, the row window and the result window
    move with the point along the rows, the table stays whole. -/
private theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks of a point and the three arrays they are cut from, at their literal types. -/
private abbrev extBlk (c : Dev nD) (t : Fin cfg1.N) : Vec Ideal S640x1 .i32 := iblk1 V c 0 t
private abbrev huBlk (c : Dev nD) (t : Fin cfg1.N) : Vec Ideal S40x128 .f32 := iblk1 V c 1 t
private abbrev hvBlk (c : Dev nD) (t : Fin cfg1.N) : Vec Ideal S10000x128 .bf16 := iblk1 V c 2 t
private abbrev extArr (c : Dev nD) : S160000x1.Idx → BitVec 32 := V c main_v14
private abbrev huArr (c : Dev nD) : S10000x128.Idx → EReal := V c main_v10
private abbrev hvArr (c : Dev nD) : S10000x128.Idx → EReal := V c main_v13

/-- Point `t`'s block of index words is entries `640 t …` of the flat array. -/
private theorem extBlk_apply (c : Dev nD) (t : Fin cfg1.N) (y : S640x1.Idx) (k : S160000x1.Idx)
    (hk : (k 0).val = 640 * t.val + (y 0).val) : extBlk V c t y = extArr V c k := by
  obtain ⟨e0, e1, -⟩ := idx1 t
  unfold extBlk iblk1
  rw [View.read_apply]
  show V c main_v14 _ = V c main_v14 _
  congr 1
  funext a
  apply Fin.ext
  match a with
  | ⟨0, _⟩ => show win1_0.index t 0 * 640 + 1 * (y 0).val = (k 0).val; rw [e0, hk]; omega
  | ⟨1, _⟩ =>
    show win1_0.index t 1 * 1 + 1 * (y 1).val = (k 1).val
    have h1 : (y 1).val < 1 := (y 1).isLt
    have h2 : (k 1).val < 1 := (k 1).isLt
    rw [e1]; omega

/-- Point `t`'s block of rows is rows `40 t …` of the array. -/
private theorem huBlk_apply (c : Dev nD) (t : Fin cfg1.N) (y : S40x128.Idx) (k : S10000x128.Idx)
    (hk0 : (k 0).val = 40 * t.val + (y 0).val) (hk1 : (k 1).val = (y 1).val) : huBlk V c t y = huArr V c k := by
  obtain ⟨-, -, e0, e1, -⟩ := idx1 t
  unfold huBlk iblk1
  rw [View.read_apply]
  show V c main_v10 _ = V c main_v10 _
  congr 1
  funext a
  apply Fin.ext
  match a with
  | ⟨0, _⟩ => show win1_1.index t 0 * 40 + 1 * (y 0).val = (k 0).val; rw [e0, hk0]; omega
  | ⟨1, _⟩ => show win1_1.index t 1 * 128 + 1 * (y 1).val = (k 1).val; rw [e1, hk1]; omega

/-- The table's block is the whole table at every point. -/
private theorem hvBlk_eq (c : Dev nD) (t : Fin cfg1.N) : hvBlk V c t = hvArr V c := by
  obtain ⟨-, -, -, -, e0, e1, -⟩ := idx1 t
  funext y
  unfold hvBlk iblk1
  rw [View.read_apply]
  show V c main_v13 _ = V c main_v13 _
  congr 1
  funext a
  apply Fin.ext
  match a with
  | ⟨0, _⟩ => show win1_2.index t 0 * 10000 + 1 * (y 0).val = (y 0).val; rw [e0]; omega
  | ⟨1, _⟩ => show win1_2.index t 1 * 128 + 1 * (y 1).val = (y 1).val; rw [e1]; omega

/-- Layer two of the arrays region 1 is entered with, as one array. -/
private def G1 (c : Dev nD) : S10000x128.Idx → EReal :=
  uncur2 (eRow (cur2 (huArr V c)) (cur2 (hvArr V c))
    (fun n j => extArr V c (ix2 (⟨16 * n.val + j.val, by omega⟩ : Fin 160000) 0)))

/-- What point `t` leaves at `(p, q)` of its result block is layer two at node `40 t + p`: the block's 16 index words
    for row `p` are flat entries `640 t + (16 p + j) = 16 (40 t + p) + j`, and its own row is row `40 t + p`. -/
private theorem point1 (c : Dev nD) (hin : ∀ i, (extArr V c i).toNat < 10000)
    (t : Fin cfg1.N) (p : Fin 40) (q : Fin 128) (n : Fin 10000) (hn : n.val = 40 * t.val + p.val) :
    outsAt1 (F := Ideal) V c t (ix2 p q) = G1 V c (ix2 n q) := by
  have ht : t.val < 250 := lt_of_lt_of_eq t.isLt N_1
  have h0 : ∀ i, (extBlk V c t i).toNat < 10000 := fun i => by
    have hi : (i 0).val < 640 := (i 0).isLt
    rw [extBlk_apply V c t i (ix2 (⟨640 * t.val + (i 0).val, by omega⟩ : Fin 160000) 0) rfl]
    exact hin _
  unfold outsAt1
  refine (Point.out1_apply c (grid1.coords t) (ms1_0 t) (hs1_0 t) (ms1_1 t) (hs1_1 t) (ms1_2 t) (hs1_2 t) (ms1_3 t) (hs1_3 t)
    (extBlk V c t) (huBlk V c t) (hvBlk V c t) h0 p q).trans ?_
  show softmaxRow _ q = softmaxRow _ q
  congr 1
  funext q'
  show _ = ePre _ _ _ n q'
  unfold ePre
  have e1 : huBlk V c t (ix2 p q') = huArr V c (ix2 n q') := huBlk_apply V c t _ _ hn rfl
  have e2 : ∀ j : Fin 16, extBlk V c t (ix2 (⟨16 * p.val + j.val, by omega⟩ : Fin 640) 0)
      = extArr V c (ix2 (⟨16 * n.val + j.val, by omega⟩ : Fin 160000) 0) := fun j =>
    extBlk_apply V c t _ _ (by show 16 * n.val + j.val = 640 * t.val + (16 * p.val + j.val); omega)
  rw [hvBlk_eq, e1]
  simp only [e2]

/-- The same at any index of the block and the index of the array it lands on. -/
private theorem point1_at (c : Dev nD) (hin : ∀ i, (extArr V c i).toNat < 10000)
    (t : Fin cfg1.N) (y : S40x128.Idx) (i : S10000x128.Idx)
    (h0 : (i 0).val = 40 * t.val + (y 0).val) (h1 : (i 1).val = (y 1).val) :
    outsAt1 (F := Ideal) V c t y = G1 V c i := by
  have hi : i = ix2 (i 0) (y 1) := by
    funext a
    match a with
    | ⟨0, _⟩ => rfl
    | ⟨1, _⟩ => exact Fin.ext h1
  rw [eq_ix2 y, hi]
  exact point1 V c hin t (y 0) (y 1) (i 0) h0

/-- What point `t` writes back is block `t` of layer two. -/
private theorem flushed1_eq (c : Dev nD) (hin : ∀ i, (extArr V c i).toNat < 10000) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  obtain ⟨-, -, -, -, -, -, e0, e1⟩ := idx1 t
  funext y
  rw [View.read_apply]
  refine point1_at V c hin t y _ ?_ ?_
  · show win1_3.index t 0 * 40 + 1 * (y 0).val = 40 * t.val + (y 0).val; rw [e0]; omega
  · show win1_3.index t 1 * 128 + 1 * (y 1).val = (y 1).val; rw [e1]; omega

/-- An index of the result array is in point `t`'s block iff each coordinate is in the block's range on its axis. -/
private theorem mem_blk1 (t : Fin cfg1.N) (i : S10000x128.Idx) :
    i ∈ ((cfg1.win 3).blk t).view.set ↔ ∀ a : Fin 2, win1_3.index t a * S40x128.size a ≤ (i a).val
      ∧ (i a).val < win1_3.index t a * S40x128.size a + S40x128.size a := by
  show i ∈ ((View.whole main_v15).slice (win1_3.rect t)).set ↔ _
  rw [View.set_slice_whole, Rect.mem_set_unit]
  exact Iff.rfl

/-- Row `r` of the result is in the block of point `r / 40`. -/
private theorem cover1 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 250 := N_1
  have ht : (i 0).val / 40 < cfg1.N := by rw [hN]; omega
  obtain ⟨-, -, -, -, -, -, e0, e1⟩ := idx1 ⟨(i 0).val / 40, ht⟩
  refine ⟨⟨(i 0).val / 40, ht⟩, flush1_3 _, ?_⟩
  rw [mem_blk1]
  intro a
  match a with
  | ⟨0, _⟩ =>
    show win1_3.index ⟨(i 0).val / 40, ht⟩ 0 * 40 ≤ (i 0).val ∧ (i 0).val < win1_3.index ⟨(i 0).val / 40, ht⟩ 0 * 40 + 40
    rw [e0]; show (i 0).val / 40 * 40 ≤ (i 0).val ∧ (i 0).val < (i 0).val / 40 * 40 + 40; omega
  | ⟨1, _⟩ =>
    show win1_3.index ⟨(i 0).val / 40, ht⟩ 1 * 128 ≤ (i 1).val ∧ (i 1).val < win1_3.index ⟨(i 0).val / 40, ht⟩ 1 * 128 + 128
    rw [e1]; omega

/-- Region 1: node `n`'s row of the result is layer two of the arrays the region finds. -/
theorem arr1_apply (c : Dev nD)
    (hin : ∀ i, ((V c main_v14 : S160000x1.Idx → BitVec 32) i).toNat < 10000) (n : Fin 10000) (q : Fin 128) :
    ((dat1 (F := Ideal) V c).arrAt 3 cfg1.N : S10000x128.Idx → EReal) (ix2 n q)
      = eRow (cur2 (V c main_v10 : S10000x128.Idx → EReal)) (cur2 (V c main_v13 : S10000x128.Idx → EReal))
          (fun n j => (V c main_v14 : S160000x1.Idx → BitVec 32) (ix2 (⟨16 * n.val + j.val, by omega⟩ : Fin 160000) 0)) n q := by
  refine (congrFun ((dat1 (F := Ideal) V c).arrAt_eq_of_cover 3 (G1 V c)
    (fun t _ => flushed1_eq V c hin t) cover1) (ix2 n q)).trans ?_
  rfl

end Cert.KernelIdeal.Blocks

end
-- ==== Proof.KValue.lean ====
/- The kernel program's result as a function of the arguments: the host products before each region, the regions'
   arrays, and the closing host operations, composed. -/
import proofs.«404633_j41051297415545_3_alg».proof.Proof.HostK
import proofs.«404633_j41051297415545_3_alg».proof.Proof.Keep
import proofs.«404633_j41051297415545_3_alg».proof.Proof.HostRead
import proofs.«404633_j41051297415545_3_alg».proof.Proof.Blocks

noncomputable section

open scoped BigOperators

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- Every index of a one-column array of `16 a` rows is `(16 n + k, 0)`. -/
theorem col_split16 (a : ℕ) (i : (⟨2, ![16 * a, 1]⟩ : Shape).Idx) :
    ∃ (n : Fin a) (k : Fin 16) (h : 16 * n.val + k.val < 16 * a), i = ix2 ⟨16 * n.val + k.val, h⟩ (0 : Fin 1) := by
  have h0 : (i 0).val < 16 * a := (i 0).isLt
  refine ⟨⟨(i 0).val / 16, by omega⟩, ⟨(i 0).val % 16, Nat.mod_lt _ (by norm_num)⟩, by simp only; omega, ?_⟩
  funext d
  match d with
  | ⟨0, _⟩ => exact Fin.ext (by show (i 0).val = 16 * ((i 0).val / 16) + (i 0).val % 16; omega)
  | ⟨1, _⟩ => exact Subsingleton.elim (α := Fin 1) _ _

/-! ## The first region's entry contents and result -/

theorem V1_tblW (c : Dev nD) : cur2 (V1 m ρ c main_v2 : S50000x128.Idx → EReal)
    = mulT (cur2 ((m ((c : Thread nD τ).loc main_arg4)) : S50000x128.Idx → EReal)) (cur2 ((m ((c : Thread nD τ).loc main_arg5)) : S128x128.Idx → EReal)) := by
  funext r i
  show after (hostOps0 (F := Ideal)) (W0 m ρ c) (Proc.devRef .tc main_v2) (ix2 r i) = _
  rw [HostK.ops0_v2]
  exact HostRead.tbl50000 _ _ r i

theorem V1_tblM (c : Dev nD) : cur2 (V1 m ρ c main_v5 : S50000x128.Idx → EReal)
    = mulT (cur2 ((m ((c : Thread nD τ).loc main_arg4)) : S50000x128.Idx → EReal)) (cur2 ((m ((c : Thread nD τ).loc main_arg6)) : S128x128.Idx → EReal)) := by
  funext r i
  show after (hostOps0 (F := Ideal)) (W0 m ρ c) (Proc.devRef .tc main_v5) (ix2 r i) = _
  rw [HostK.ops0_v5]
  exact HostRead.tbl50000 _ _ r i

theorem V1_ids (c : Dev nD) (n : Fin 10000) (k : Fin 16) :
    (V1 m ρ c main_v6 : S160000x1.Idx → BitVec 32) (ix2 (⟨16 * n.val + k.val, by omega⟩ : Fin 160000) 0)
      = ((m ((c : Thread nD τ).loc main_arg1)) : S10000x16.Idx → BitVec 32) (ix2 n k) := by
  show after (hostOps0 (F := Ideal)) (W0 m ρ c) (Proc.devRef .tc main_v6) _ = _
  rw [HostK.ops0_v6]
  exact HostRead.flat16 _ n k

theorem V1_nids (c : Dev nD) (n : Fin 10000) (k : Fin 16) (j : Fin 8) :
    (V1 m ρ c main_v7 : S1280000x1.Idx → BitVec 32) (ix2 (⟨(16 * n.val + k.val) * 8 + j.val, by omega⟩ : Fin 1280000) 0)
      = ((m ((c : Thread nD τ).loc main_arg2)) : S10000x16x8.Idx → BitVec 32) (ix3 n k j) := by
  show after (hostOps0 (F := Ideal)) (W0 m ρ c) (Proc.devRef .tc main_v7) _ = _
  rw [HostK.ops0_v7]
  exact HostRead.flat128 _ n k j

/-- The first region's result: layer one of the arguments. -/
theorem h_apply (c : Dev nD)
    (in1 : ∀ i, (((m ((c : Thread nD τ).loc main_arg1)) : S10000x16.Idx → BitVec 32) i).toNat < 50000)
    (in2 : ∀ i, (((m ((c : Thread nD τ).loc main_arg2)) : S10000x16x8.Idx → BitVec 32) i).toNat < 50000) (n : Fin 10000) (q : Fin 128) :
    ((dat0 (F := Ideal) (V1 m ρ) c).arrAt 4 cfg0.N : S10000x128.Idx → EReal) (ix2 n q)
      = hRow (mulT (cur2 ((m ((c : Thread nD τ).loc main_arg4)) : S50000x128.Idx → EReal)) (cur2 ((m ((c : Thread nD τ).loc main_arg5)) : S128x128.Idx → EReal)))
          (mulT (cur2 ((m ((c : Thread nD τ).loc main_arg4)) : S50000x128.Idx → EReal)) (cur2 ((m ((c : Thread nD τ).loc main_arg6)) : S128x128.Idx → EReal)))
          (cur2 ((m ((c : Thread nD τ).loc main_arg1)) : S10000x16.Idx → BitVec 32)) (cur3 ((m ((c : Thread nD τ).loc main_arg2)) : S10000x16x8.Idx → BitVec 32)) n q := by
  have hin0 : ∀ i, ((V1 m ρ c main_v6 : S160000x1.Idx → BitVec 32) i).toNat < 50000 := by
    intro i
    obtain ⟨n', k', h', rfl⟩ := col_split16 10000 i
    have := V1_ids m ρ c n' k'
    rw [this]; exact in1 _
  have hin1 : ∀ i, ((V1 m ρ c main_v7 : S1280000x1.Idx → BitVec 32) i).toNat < 50000 := by
    intro i
    have h0 : (i 0).val < 1280000 := (i 0).isLt
    have hi : i = ix2 (⟨(16 * ((i 0).val / 128) + (i 0).val % 128 / 8) * 8 + (i 0).val % 8, by omega⟩ : Fin 1280000) (0 : Fin 1) := by
      funext d
      match d with
      | ⟨0, _⟩ => exact Fin.ext (by show (i 0).val = (16 * ((i 0).val / 128) + (i 0).val % 128 / 8) * 8 + (i 0).val % 8; omega)
      | ⟨1, _⟩ => exact Subsingleton.elim (α := Fin 1) _ _
    rw [hi]
    have := V1_nids m ρ c ⟨(i 0).val / 128, by omega⟩ ⟨(i 0).val % 128 / 8, by omega⟩ ⟨(i 0).val % 8, by omega⟩
    rw [this]; exact in2 _
  rw [Blocks.arr0_apply (V1 m ρ) c hin0 hin1 n q, V1_tblW, V1_tblM]
  congr 1
  · funext n' k'; exact V1_ids m ρ c n' k'
  · funext n' k' j'; exact V1_nids m ρ c n' k' j'

/-! ## Between the regions -/

/-- An argument buffer still holds its launch contents when the first region is left. -/
theorem W2_arg (c : Dev nD) (b : Ref sig .tc) (hb : b ∈ Keep.mainArgs) :
    W2 m ρ c (Proc.devRef .tc b) = m ((c : Thread nD τ).loc b) := by
  have h1 : W2 m ρ c (Proc.devRef .tc b) = W1 m ρ c (Proc.devRef .tc b) := by
    have hb' := hb
    simp only [Keep.mainArgs, List.mem_cons, List.not_mem_nil, or_false] at hb'
    rcases hb' with rfl | rfl | rfl | rfl | rfl | rfl | rfl | rfl | rfl | rfl | rfl | rfl | rfl
    all_goals exact W2_of_ne m ρ c _ (by decide)
  rw [h1]
  exact Keep.ops0_keep (W0 m ρ c) b hb

/-- And when the second region is left. -/
theorem W4_arg (c : Dev nD) (b : Ref sig .tc) (hb : b ∈ Keep.mainArgs) :
    W4 m ρ c (Proc.devRef .tc b) = m ((c : Thread nD τ).loc b) := by
  have h1 : W4 m ρ c (Proc.devRef .tc b) = W3 m ρ c (Proc.devRef .tc b) := by
    have hb' := hb
    simp only [Keep.mainArgs, List.mem_cons, List.not_mem_nil, or_false] at hb'
    rcases hb' with rfl | rfl | rfl | rfl | rfl | rfl | rfl | rfl | rfl | rfl | rfl | rfl | rfl
    all_goals exact W4_of_ne m ρ c _ (by decide)
  rw [h1]
  exact (Keep.ops1_keep (W2 m ρ c) b hb).trans (W2_arg m ρ c b hb)

theorem W2_v8 (c : Dev nD) : W2 m ρ c (Proc.devRef .tc main_v8) = (dat0 (F := Ideal) (V1 m ρ) c).arrAt 4 cfg0.N :=
  W2_arr m ρ c 4

theorem W4_v15 (c : Dev nD) : W4 m ρ c (Proc.devRef .tc main_v15) = (dat1 (F := Ideal) (V3 m ρ) c).arrAt 3 cfg1.N :=
  W4_arr m ρ c 3

macro "mem_args" : tactic => `(tactic| (simp only [Keep.mainArgs, List.mem_cons, true_or, or_true]))

theorem V3_hU (c : Dev nD) : cur2 (V3 m ρ c main_v10 : S10000x128.Idx → EReal)
    = mulT (cur2 ((dat0 (F := Ideal) (V1 m ρ) c).arrAt 4 cfg0.N : S10000x128.Idx → EReal)) (cur2 ((m ((c : Thread nD τ).loc main_arg7)) : S128x128.Idx → EReal)) := by
  funext r i
  show after (hostOps1 (F := Ideal)) (W2 m ρ c) (Proc.devRef .tc main_v10) (ix2 r i) = _
  rw [HostK.ops1_v10, W2_v8, W2_arg m ρ c main_arg7 (by mem_args)]
  exact HostRead.tbl10000 _ _ r i

theorem V3_hV (c : Dev nD) : cur2 (V3 m ρ c main_v13 : S10000x128.Idx → EReal)
    = mulT (cur2 ((dat0 (F := Ideal) (V1 m ρ) c).arrAt 4 cfg0.N : S10000x128.Idx → EReal)) (cur2 ((m ((c : Thread nD τ).loc main_arg8)) : S128x128.Idx → EReal)) := by
  funext r i
  show after (hostOps1 (F := Ideal)) (W2 m ρ c) (Proc.devRef .tc main_v13) (ix2 r i) = _
  rw [HostK.ops1_v13, W2_v8, W2_arg m ρ c main_arg8 (by mem_args)]
  exact HostRead.tbl10000_bf16 _ _ r i

theorem V3_ext (c : Dev nD) (n : Fin 10000) (j : Fin 16) :
    (V3 m ρ c main_v14 : S160000x1.Idx → BitVec 32) (ix2 (⟨16 * n.val + j.val, by omega⟩ : Fin 160000) 0)
      = ((m ((c : Thread nD τ).loc main_arg3)) : S10000x16.Idx → BitVec 32) (ix2 n j) := by
  show after (hostOps1 (F := Ideal)) (W2 m ρ c) (Proc.devRef .tc main_v14) _ = _
  rw [HostK.ops1_v14, W2_arg m ρ c main_arg3 (by mem_args)]
  exact HostRead.flat16 _ n j

/-- The second region's result: both layers of the arguments. -/
theorem e_apply (c : Dev nD)
    (in1 : ∀ i, (((m ((c : Thread nD τ).loc main_arg1)) : S10000x16.Idx → BitVec 32) i).toNat < 50000)
    (in2 : ∀ i, (((m ((c : Thread nD τ).loc main_arg2)) : S10000x16x8.Idx → BitVec 32) i).toNat < 50000)
    (in3 : ∀ i, (((m ((c : Thread nD τ).loc main_arg3)) : S10000x16.Idx → BitVec 32) i).toNat < 10000) (n : Fin 10000) (q : Fin 128) :
    ((dat1 (F := Ideal) (V3 m ρ) c).arrAt 3 cfg1.N : S10000x128.Idx → EReal) (ix2 n q)
      = eAll (cur2 ((m ((c : Thread nD τ).loc main_arg4)) : S50000x128.Idx → EReal)) (cur2 ((m ((c : Thread nD τ).loc main_arg5)) : S128x128.Idx → EReal)) (cur2 ((m ((c : Thread nD τ).loc main_arg6)) : S128x128.Idx → EReal)) (cur2 ((m ((c : Thread nD τ).loc main_arg7)) : S128x128.Idx → EReal)) (cur2 ((m ((c : Thread nD τ).loc main_arg8)) : S128x128.Idx → EReal)) (cur2 ((m ((c : Thread nD τ).loc main_arg1)) : S10000x16.Idx → BitVec 32)) (cur3 ((m ((c : Thread nD τ).loc main_arg2)) : S10000x16x8.Idx → BitVec 32)) (cur2 ((m ((c : Thread nD τ).loc main_arg3)) : S10000x16.Idx → BitVec 32)) n q := by
  have hin : ∀ i, ((V3 m ρ c main_v14 : S160000x1.Idx → BitVec 32) i).toNat < 10000 := by
    intro i
    obtain ⟨n', k', h', rfl⟩ := col_split16 10000 i
    have := V3_ext m ρ c n' k'
    rw [this]; exact in3 _
  have hh : cur2 ((dat0 (F := Ideal) (V1 m ρ) c).arrAt 4 cfg0.N : S10000x128.Idx → EReal)
      = hRow (mulT (cur2 ((m ((c : Thread nD τ).loc main_arg4)) : S50000x128.Idx → EReal)) (cur2 ((m ((c : Thread nD τ).loc main_arg5)) : S128x128.Idx → EReal))) (mulT (cur2 ((m ((c : Thread nD τ).loc main_arg4)) : S50000x128.Idx → EReal)) (cur2 ((m ((c : Thread nD τ).loc main_arg6)) : S128x128.Idx → EReal))) (cur2 ((m ((c : Thread nD τ).loc main_arg1)) : S10000x16.Idx → BitVec 32)) (cur3 ((m ((c : Thread nD τ).loc main_arg2)) : S10000x16x8.Idx → BitVec 32)) := by
    funext n' q'; exact h_apply m ρ c in1 in2 n' q'
  rw [Blocks.arr1_apply (V3 m ρ) c hin n q, V3_hU, V3_hV, hh]
  unfold eAll
  congr 1
  funext n' j'; exact V3_ext m ρ c n' j'

/-! ## The result -/

theorem result (c : Dev nD)
    (in1 : ∀ i, (((m ((c : Thread nD τ).loc main_arg1)) : S10000x16.Idx → BitVec 32) i).toNat < 50000)
    (in2 : ∀ i, (((m ((c : Thread nD τ).loc main_arg2)) : S10000x16x8.Idx → BitVec 32) i).toNat < 50000)
    (in3 : ∀ i, (((m ((c : Thread nD τ).loc main_arg3)) : S10000x16.Idx → BitVec 32) i).toNat < 10000) :
    W7 m ρ c (Proc.devRef .tc main_v56)
      = Tail.tail (F := Ideal) (uncur2 (eAll (cur2 ((m ((c : Thread nD τ).loc main_arg4)) : S50000x128.Idx → EReal)) (cur2 ((m ((c : Thread nD τ).loc main_arg5)) : S128x128.Idx → EReal)) (cur2 ((m ((c : Thread nD τ).loc main_arg6)) : S128x128.Idx → EReal)) (cur2 ((m ((c : Thread nD τ).loc main_arg7)) : S128x128.Idx → EReal)) (cur2 ((m ((c : Thread nD τ).loc main_arg8)) : S128x128.Idx → EReal)) (cur2 ((m ((c : Thread nD τ).loc main_arg1)) : S10000x16.Idx → BitVec 32)) (cur3 ((m ((c : Thread nD τ).loc main_arg2)) : S10000x16x8.Idx → BitVec 32)) (cur2 ((m ((c : Thread nD τ).loc main_arg3)) : S10000x16.Idx → BitVec 32))))
          (m ((c : Thread nD τ).loc main_arg0)) (m ((c : Thread nD τ).loc main_arg9)) (m ((c : Thread nD τ).loc main_arg10)) (m ((c : Thread nD τ).loc main_arg11)) (m ((c : Thread nD τ).loc main_arg12)) := by
  show after (hostOps2_2 (F := Ideal)) (after (hostOps2_1 (F := Ideal)) (after (hostOps2 (F := Ideal)) (W4 m ρ c))) (Proc.devRef .tc main_v56) = _
  rw [HostK.ops2_v56, W4_v15, W4_arg m ρ c main_arg0 (by mem_args), W4_arg m ρ c main_arg9 (by mem_args),
    W4_arg m ρ c main_arg10 (by mem_args), W4_arg m ρ c main_arg11 (by mem_args), W4_arg m ρ c main_arg12 (by mem_args)]
  congr 1
  funext i
  obtain ⟨n, q, rfl⟩ : ∃ (n : Fin 10000) (q : Fin 128), i = ix2 n q := ⟨i 0, i 1, eq_ix2 i⟩
  exact e_apply m ρ c in1 in2 in3 n q

end Cert.KernelIdeal.KValue

end
-- ==== Proof.RefOps.lean ====
import proofs.«404633_j41051297415545_3_alg».proof.Proof.Gen.ReferenceIdeal
import Idealize.ShloMosaic.Lib.StableHlo.Run

noncomputable section

namespace Cert.ReferenceIdeal.RefOps

open Idealize.ShloMosaic Idealize.SL.Sem Idealize.ShloMosaic.StableHlo Cert.ReferenceIdeal Cert.ReferenceIdeal.Facts₀

variable {F : FTy → Type} [FloatOps F]

/-- @main's 127 operations in order, each callee's operations at its call over that call's buffers. -/
abbrev ops : List (HloOp τ sig (Elt F)) :=
  [
    StableHlo.nullary main_c (constantI S_ 32 0#32),
    StableHlo.unary main_c main_v0 (broadcastInDim S10000x16 ![] bcast_S_S10000x16 : (⟨S_, .i32⟩ : BufTy).Contents (Elt F) → (⟨S10000x16, .i32⟩ : BufTy).Contents (Elt F)),
    StableHlo.binary main_arg1 main_v0 main_v1 (cmpi .slt : (⟨S10000x16, .i32⟩ : BufTy).Contents (Elt F) → (⟨S10000x16, .i32⟩ : BufTy).Contents (Elt F) → (⟨S10000x16, .i1⟩ : BufTy).Contents (Elt F)),
    StableHlo.nullary main_c_0 (constantI S_ 32 50000#32),
    StableHlo.unary main_c_0 main_v2 (broadcastInDim S10000x16 ![] bcast_S_S10000x16 : (⟨S_, .i32⟩ : BufTy).Contents (Elt F) → (⟨S10000x16, .i32⟩ : BufTy).Contents (Elt F)),
    StableHlo.binary main_arg1 main_v2 main_v3 (addi : (⟨S10000x16, .i32⟩ : BufTy).Contents (Elt F) → (⟨S10000x16, .i32⟩ : BufTy).Contents (Elt F) → (⟨S10000x16, .i32⟩ : BufTy).Contents (Elt F)),
    StableHlo.ternary main_v1 main_v3 main_arg1 main_v4 (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)),
    StableHlo.unary main_v4 main_v5 (broadcastInDim S10000x16x1 ![0, 1] bcast_S10000x16_S10000x16x1_0_1 : (⟨S10000x16, .i32⟩ : BufTy).Contents (Elt F) → (⟨S10000x16x1, .i32⟩ : BufTy).Contents (Elt F)),
    StableHlo.binary main_arg4 main_v5 main_v6 ((fun x i => Host.gather gather_S50000x128_S10000x16x1_S10000x16x128_2_0_n_n_0_2_1128 x i) : (⟨S50000x128, .f32⟩ : BufTy).Contents (Elt F) → (⟨S10000x16x1, .i32⟩ : BufTy).Contents (Elt F) → (⟨S10000x16x128, .f32⟩ : BufTy).Contents (Elt F)),
    StableHlo.nullary main_c_1 (constantI S_ 32 0#32),
    StableHlo.unary main_c_1 main_v7 (broadcastInDim S10000x16x8 ![] bcast_S_S10000x16x8 : (⟨S_, .i32⟩ : BufTy).Contents (Elt F) → (⟨S10000x16x8, .i32⟩ : BufTy).Contents (Elt F)),
    StableHlo.binary main_arg2 main_v7 main_v8 (cmpi .slt : (⟨S10000x16x8, .i32⟩ : BufTy).Contents (Elt F) → (⟨S10000x16x8, .i32⟩ : BufTy).Contents (Elt F) → (⟨S10000x16x8, .i1⟩ : BufTy).Contents (Elt F)),
    StableHlo.nullary main_c_2 (constantI S_ 32 50000#32),
    StableHlo.unary main_c_2 main_v9 (broadcastInDim S10000x16x8 ![] bcast_S_S10000x16x8 : (⟨S_, .i32⟩ : BufTy).Contents (Elt F) → (⟨S10000x16x8, .i32⟩ : BufTy).Contents (Elt F)),
    StableHlo.binary main_arg2 main_v9 main_v10 (addi : (⟨S10000x16x8, .i32⟩ : BufTy).Contents (Elt F) → (⟨S10000x16x8, .i32⟩ : BufTy).Contents (Elt F) → (⟨S10000x16x8, .i32⟩ : BufTy).Contents (Elt F)),
    StableHlo.ternary main_v8 main_v10 main_arg2 main_v11 (select : (⟨S10000x16x8, .i1⟩ : BufTy).Contents (Elt F) → (⟨S10000x16x8, .i32⟩ : BufTy).Contents (Elt F) → (⟨S10000x16x8, .i32⟩ : BufTy).Contents (Elt F) → (⟨S10000x16x8, .i32⟩ : BufTy).Contents (Elt F)),
    StableHlo.unary main_v11 main_v12 (broadcastInDim S10000x16x8x1 ![0, 1, 2] bcast_S10000x16x8_S10000x16x8x1_0_1_2 : (⟨S10000x16x8, .i32⟩ : BufTy).Contents (Elt F) → (⟨S10000x16x8x1, .i32⟩ : BufTy).Contents (Elt F)),
    StableHlo.binary main_arg4 main_v12 main_v13 ((fun x i => Host.gather gather_S50000x128_S10000x16x8x1_S10000x16x8x128_3_0_n_n_0_3_1128 x i) : (⟨S50000x128, .f32⟩ : BufTy).Contents (Elt F) → (⟨S10000x16x8x1, .i32⟩ : BufTy).Contents (Elt F) → (⟨S10000x16x8x128, .f32⟩ : BufTy).Contents (Elt F)),
    StableHlo.nullary main_cst (constant S_ .f32 0x00000000#32),
    StableHlo.binary main_v13 main_cst main_v14 ((fun x v => Host.reduceAdd x v reducesTo_S10000x16x8x128_S10000x16x128_d2 h_S_) : (⟨S10000x16x8x128, .f32⟩ : BufTy).Contents (Elt F) → (⟨S_, .f32⟩ : BufTy).Contents (Elt F) → (⟨S10000x16x128, .f32⟩ : BufTy).Contents (Elt F)),
    StableHlo.binary main_v6 main_arg5 main_v15 ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)),
    StableHlo.binary main_v14 main_arg6 main_v16 ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)),
    StableHlo.binary main_v15 main_v16 main_v17 (addf : (⟨S10000x16x128, .f32⟩ : BufTy).Contents (Elt F) → (⟨S10000x16x128, .f32⟩ : BufTy).Contents (Elt F) → (⟨S10000x16x128, .f32⟩ : BufTy).Contents (Elt F)),
    StableHlo.TRef.nullary main_call0.cst (constant S_ .f32 0x00000000#32),
    StableHlo.TRef.unary main_call0.cst main_call0.v0 (broadcastInDim S10000x16x128 ![] bcast_S_S10000x16x128),
    StableHlo.TRef.binary (.of main_v17) main_call0.v0 main_call0.v1 maximumf,
    StableHlo.nullary main_cst_3 (constant S_ .f32 0x00000000#32),
    StableHlo.binary main_v18 main_cst_3 main_v19 ((fun x v => Host.reduceAdd x v reducesTo_S10000x16x128_S10000x128_d1 h_S_) : (⟨S10000x16x128, .f32⟩ : BufTy).Contents (Elt F) → (⟨S_, .f32⟩ : BufTy).Contents (Elt F) → (⟨S10000x128, .f32⟩ : BufTy).Contents (Elt F)),
    StableHlo.nullary main_cst_4 (constant S_ .f32 0xFF800000#32),
    StableHlo.binary main_v19 main_cst_4 main_v20 ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.nullary main_cst_5 (constant S_ .f32 0xFF800000#32),
    StableHlo.unary main_cst_5 main_v21 (broadcastInDim S10000 ![] bcast_S_S10000 : (⟨S_, .f32⟩ : BufTy).Contents (Elt F) → (⟨S10000, .f32⟩ : BufTy).Contents (Elt F)),
    StableHlo.binary main_v21 main_v20 main_v22 (maximumf : (⟨S10000, .f32⟩ : BufTy).Contents (Elt F) → (⟨S10000, .f32⟩ : BufTy).Contents (Elt F) → (⟨S10000, .f32⟩ : BufTy).Contents (Elt F)),
    StableHlo.unary main_v22 main_v23 (broadcastInDim S10000x1 ![0] bcast_S10000_S10000x1_0 : (⟨S10000, .f32⟩ : BufTy).Contents (Elt F) → (⟨S10000x1, .f32⟩ : BufTy).Contents (Elt F)),
    StableHlo.unary main_v23 main_v24 (broadcastInDim S10000x128 ![0, 1] bcast_S10000x1_S10000x128_0_1 : (⟨S10000x1, .f32⟩ : BufTy).Contents (Elt F) → (⟨S10000x128, .f32⟩ : BufTy).Contents (Elt F)),
    StableHlo.binary main_v19 main_v24 main_v25 (subf : (⟨S10000x128, .f32⟩ : BufTy).Contents (Elt F) → (⟨S10000x128, .f32⟩ : BufTy).Contents (Elt F) → (⟨S10000x128, .f32⟩ : BufTy).Contents (Elt F)),
    StableHlo.unary main_v25 main_v26 (Host.exp : (⟨S10000x128, .f32⟩ : BufTy).Contents (Elt F) → (⟨S10000x128, .f32⟩ : BufTy).Contents (Elt F)),
    StableHlo.nullary main_cst_6 (constant S_ .f32 0x00000000#32),
    StableHlo.binary main_v26 main_cst_6 main_v27 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v27 main_v28 (broadcastInDim S10000x1 ![0] bcast_S10000_S10000x1_0 : (⟨S10000, .f32⟩ : BufTy).Contents (Elt F) → (⟨S10000x1, .f32⟩ : BufTy).Contents (Elt F)),
    StableHlo.unary main_v28 main_v29 (broadcastInDim S10000x128 ![0, 1] bcast_S10000x1_S10000x128_0_1 : (⟨S10000x1, .f32⟩ : BufTy).Contents (Elt F) → (⟨S10000x128, .f32⟩ : BufTy).Contents (Elt F)),
    StableHlo.binary main_v26 main_v29 main_v30 (Host.divf : (⟨S10000x128, .f32⟩ : BufTy).Contents (Elt F) → (⟨S10000x128, .f32⟩ : BufTy).Contents (Elt F) → (⟨S10000x128, .f32⟩ : BufTy).Contents (Elt F)),
    StableHlo.nullary main_c_7 (constantI S_ 32 0#32),
    StableHlo.unary main_c_7 main_v31 (broadcastInDim S10000x16 ![] bcast_S_S10000x16 : (⟨S_, .i32⟩ : BufTy).Contents (Elt F) → (⟨S10000x16, .i32⟩ : BufTy).Contents (Elt F)),
    StableHlo.binary main_arg3 main_v31 main_v32 (cmpi .slt : (⟨S10000x16, .i32⟩ : BufTy).Contents (Elt F) → (⟨S10000x16, .i32⟩ : BufTy).Contents (Elt F) → (⟨S10000x16, .i1⟩ : BufTy).Contents (Elt F)),
    StableHlo.nullary main_c_8 (constantI S_ 32 10000#32),
    StableHlo.unary main_c_8 main_v33 (broadcastInDim S10000x16 ![] bcast_S_S10000x16 : (⟨S_, .i32⟩ : BufTy).Contents (Elt F) → (⟨S10000x16, .i32⟩ : BufTy).Contents (Elt F)),
    StableHlo.binary main_arg3 main_v33 main_v34 (addi : (⟨S10000x16, .i32⟩ : BufTy).Contents (Elt F) → (⟨S10000x16, .i32⟩ : BufTy).Contents (Elt F) → (⟨S10000x16, .i32⟩ : BufTy).Contents (Elt F)),
    StableHlo.ternary main_v32 main_v34 main_arg3 main_v35 (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)),
    StableHlo.unary main_v35 main_v36 (broadcastInDim S10000x16x1 ![0, 1] bcast_S10000x16_S10000x16x1_0_1 : (⟨S10000x16, .i32⟩ : BufTy).Contents (Elt F) → (⟨S10000x16x1, .i32⟩ : BufTy).Contents (Elt F)),
    StableHlo.binary main_v30 main_v36 main_v37 ((fun x i => Host.gather gather_S10000x128_S10000x16x1_S10000x16x128_2_0_n_n_0_2_1128 x i) : (⟨S10000x128, .f32⟩ : BufTy).Contents (Elt F) → (⟨S10000x16x1, .i32⟩ : BufTy).Contents (Elt F) → (⟨S10000x16x128, .f32⟩ : BufTy).Contents (Elt F)),
    StableHlo.nullary main_cst_9 (constant S_ .f32 0x00000000#32),
    StableHlo.binary main_v37 main_cst_9 main_v38 ((fun x v => Host.reduceAdd x v reducesTo_S10000x16x128_S10000x128_d1 h_S_) : (⟨S10000x16x128, .f32⟩ : BufTy).Contents (Elt F) → (⟨S_, .f32⟩ : BufTy).Contents (Elt F) → (⟨S10000x128, .f32⟩ : BufTy).Contents (Elt F)),
    StableHlo.binary main_v30 main_arg7 main_v39 ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)),
    StableHlo.binary main_v38 main_arg8 main_v40 ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)),
    StableHlo.binary main_v39 main_v40 main_v41 (addf : (⟨S10000x128, .f32⟩ : BufTy).Contents (Elt F) → (⟨S10000x128, .f32⟩ : BufTy).Contents (Elt F) → (⟨S10000x128, .f32⟩ : BufTy).Contents (Elt F)),
    StableHlo.TRef.nullary main_call1.cst (constant S_ .f32 0x00000000#32),
    StableHlo.TRef.unary main_call1.cst main_call1.v0 (broadcastInDim S10000x128 ![] bcast_S_S10000x128),
    StableHlo.TRef.binary (.of main_v41) main_call1.v0 main_call1.v1 maximumf,
    StableHlo.nullary main_cst_10 (constant S_ .f32 0xFF800000#32),
    StableHlo.binary main_v42 main_cst_10 main_v43 ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.nullary main_cst_11 (constant S_ .f32 0xFF800000#32),
    StableHlo.unary main_cst_11 main_v44 (broadcastInDim S10000 ![] bcast_S_S10000 : (⟨S_, .f32⟩ : BufTy).Contents (Elt F) → (⟨S10000, .f32⟩ : BufTy).Contents (Elt F)),
    StableHlo.binary main_v44 main_v43 main_v45 (maximumf : (⟨S10000, .f32⟩ : BufTy).Contents (Elt F) → (⟨S10000, .f32⟩ : BufTy).Contents (Elt F) → (⟨S10000, .f32⟩ : BufTy).Contents (Elt F)),
    StableHlo.unary main_v45 main_v46 (broadcastInDim S10000x1 ![0] bcast_S10000_S10000x1_0 : (⟨S10000, .f32⟩ : BufTy).Contents (Elt F) → (⟨S10000x1, .f32⟩ : BufTy).Contents (Elt F)),
    StableHlo.unary main_v46 main_v47 (broadcastInDim S10000x128 ![0, 1] bcast_S10000x1_S10000x128_0_1 : (⟨S10000x1, .f32⟩ : BufTy).Contents (Elt F) → (⟨S10000x128, .f32⟩ : BufTy).Contents (Elt F)),
    StableHlo.binary main_v42 main_v47 main_v48 (subf : (⟨S10000x128, .f32⟩ : BufTy).Contents (Elt F) → (⟨S10000x128, .f32⟩ : BufTy).Contents (Elt F) → (⟨S10000x128, .f32⟩ : BufTy).Contents (Elt F)),
    StableHlo.unary main_v48 main_v49 (Host.exp : (⟨S10000x128, .f32⟩ : BufTy).Contents (Elt F) → (⟨S10000x128, .f32⟩ : BufTy).Contents (Elt F)),
    StableHlo.nullary main_cst_12 (constant S_ .f32 0x00000000#32),
    StableHlo.binary main_v49 main_cst_12 main_v50 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v50 main_v51 (broadcastInDim S10000x1 ![0] bcast_S10000_S10000x1_0 : (⟨S10000, .f32⟩ : BufTy).Contents (Elt F) → (⟨S10000x1, .f32⟩ : BufTy).Contents (Elt F)),
    StableHlo.unary main_v51 main_v52 (broadcastInDim S10000x128 ![0, 1] bcast_S10000x1_S10000x128_0_1 : (⟨S10000x1, .f32⟩ : BufTy).Contents (Elt F) → (⟨S10000x128, .f32⟩ : BufTy).Contents (Elt F)),
    StableHlo.binary main_v49 main_v52 main_v53 (Host.divf : (⟨S10000x128, .f32⟩ : BufTy).Contents (Elt F) → (⟨S10000x128, .f32⟩ : BufTy).Contents (Elt F) → (⟨S10000x128, .f32⟩ : BufTy).Contents (Elt F)),
    StableHlo.unary main_arg0 main_v54 ((extractStridedSlice S2048x1 ![0, 0] · slices_S2048x2_S2048x1_0_0) : (⟨S2048x2, .i32⟩ : BufTy).Contents (Elt F) → (⟨S2048x1, .i32⟩ : BufTy).Contents (Elt F)),
    StableHlo.reshape main_v54 main_v55 rfl shapeCasts_S2048x1_S2048,
    StableHlo.nullary main_c_13 (constantI S_ 32 0#32),
    StableHlo.unary main_c_13 main_v56 (broadcastInDim S2048 ![] bcast_S_S2048 : (⟨S_, .i32⟩ : BufTy).Contents (Elt F) → (⟨S2048, .i32⟩ : BufTy).Contents (Elt F)),
    StableHlo.binary main_v55 main_v56 main_v57 (cmpi .slt : (⟨S2048, .i32⟩ : BufTy).Contents (Elt F) → (⟨S2048, .i32⟩ : BufTy).Contents (Elt F) → (⟨S2048, .i1⟩ : BufTy).Contents (Elt F)),
    StableHlo.nullary main_c_14 (constantI S_ 32 10000#32),
    StableHlo.unary main_c_14 main_v58 (broadcastInDim S2048 ![] bcast_S_S2048 : (⟨S_, .i32⟩ : BufTy).Contents (Elt F) → (⟨S2048, .i32⟩ : BufTy).Contents (Elt F)),
    StableHlo.binary main_v55 main_v58 main_v59 (addi : (⟨S2048, .i32⟩ : BufTy).Contents (Elt F) → (⟨S2048, .i32⟩ : BufTy).Contents (Elt F) → (⟨S2048, .i32⟩ : BufTy).Contents (Elt F)),
    StableHlo.ternary main_v57 main_v59 main_v55 main_v60 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v60 main_v61 (broadcastInDim S2048x1 ![0] bcast_S2048_S2048x1_0 : (⟨S2048, .i32⟩ : BufTy).Contents (Elt F) → (⟨S2048x1, .i32⟩ : BufTy).Contents (Elt F)),
    StableHlo.binary main_v53 main_v61 main_v62 ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)),
    StableHlo.unary main_arg0 main_v63 ((extractStridedSlice S2048x1 ![0, 1] · slices_S2048x2_S2048x1_0_1) : (⟨S2048x2, .i32⟩ : BufTy).Contents (Elt F) → (⟨S2048x1, .i32⟩ : BufTy).Contents (Elt F)),
    StableHlo.reshape main_v63 main_v64 rfl shapeCasts_S2048x1_S2048,
    StableHlo.nullary main_c_15 (constantI S_ 32 0#32),
    StableHlo.unary main_c_15 main_v65 (broadcastInDim S2048 ![] bcast_S_S2048 : (⟨S_, .i32⟩ : BufTy).Contents (Elt F) → (⟨S2048, .i32⟩ : BufTy).Contents (Elt F)),
    StableHlo.binary main_v64 main_v65 main_v66 (cmpi .slt : (⟨S2048, .i32⟩ : BufTy).Contents (Elt F) → (⟨S2048, .i32⟩ : BufTy).Contents (Elt F) → (⟨S2048, .i1⟩ : BufTy).Contents (Elt F)),
    StableHlo.nullary main_c_16 (constantI S_ 32 10000#32),
    StableHlo.unary main_c_16 main_v67 (broadcastInDim S2048 ![] bcast_S_S2048 : (⟨S_, .i32⟩ : BufTy).Contents (Elt F) → (⟨S2048, .i32⟩ : BufTy).Contents (Elt F)),
    StableHlo.binary main_v64 main_v67 main_v68 (addi : (⟨S2048, .i32⟩ : BufTy).Contents (Elt F) → (⟨S2048, .i32⟩ : BufTy).Contents (Elt F) → (⟨S2048, .i32⟩ : BufTy).Contents (Elt F)),
    StableHlo.ternary main_v66 main_v68 main_v64 main_v69 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v69 main_v70 (broadcastInDim S2048x1 ![0] bcast_S2048_S2048x1_0 : (⟨S2048, .i32⟩ : BufTy).Contents (Elt F) → (⟨S2048x1, .i32⟩ : BufTy).Contents (Elt F)),
    StableHlo.binary main_v53 main_v70 main_v71 ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)),
    StableHlo.binary main_v62 main_v71 main_v72 ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)),
    StableHlo.unary main_arg9 main_v73 ((transpose S256x128 [1, 0] · transposes_S128x256_S256x128_1_0) : (⟨S128x256, .f32⟩ : BufTy).Contents (Elt F) → (⟨S256x128, .f32⟩ : BufTy).Contents (Elt F)),
    StableHlo.binary main_v72 main_v73 main_v74 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg10 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S2048x128 ![0, 1] bcast_S1x128_S2048x128_0_1 : (⟨S1x128, .f32⟩ : BufTy).Contents (Elt F) → (⟨S2048x128, .f32⟩ : BufTy).Contents (Elt F)),
    StableHlo.binary main_v74 main_v76 main_v77 (addf : (⟨S2048x128, .f32⟩ : BufTy).Contents (Elt F) → (⟨S2048x128, .f32⟩ : BufTy).Contents (Elt F) → (⟨S2048x128, .f32⟩ : BufTy).Contents (Elt F)),
    StableHlo.TRef.nullary main_call2.cst (constant S_ .f32 0x00000000#32),
    StableHlo.TRef.unary main_call2.cst main_call2.v0 (broadcastInDim S2048x128 ![] bcast_S_S2048x128),
    StableHlo.TRef.binary (.of main_v77) main_call2.v0 main_call2.v1 (cmpf .oge),
    StableHlo.TRef.nullary main_call2.cst_0 (constant S_ .f32 0x3C23D70A#32),
    StableHlo.TRef.unary main_call2.cst_0 main_call2.v2 (broadcastInDim S2048x128 ![] bcast_S_S2048x128),
    StableHlo.TRef.binary main_call2.v2 (.of main_v77) main_call2.v3 mulf,
    StableHlo.TRef.ternary main_call2.v1 (.of main_v77) main_call2.v3 main_call2.call0.v0 select,
    StableHlo.unary main_arg11 main_v79 ((transpose S128x2 [1, 0] · transposes_S2x128_S128x2_1_0) : (⟨S2x128, .f32⟩ : BufTy).Contents (Elt F) → (⟨S128x2, .f32⟩ : BufTy).Contents (Elt F)),
    StableHlo.binary main_v78 main_v79 main_v80 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg12 main_v81 (broadcastInDim S1x2 ![1] bcast_S2_S1x2_1 : (⟨S2, .f32⟩ : BufTy).Contents (Elt F) → (⟨S1x2, .f32⟩ : BufTy).Contents (Elt F)),
    StableHlo.unary main_v81 main_v82 (broadcastInDim S2048x2 ![0, 1] bcast_S1x2_S2048x2_0_1 : (⟨S1x2, .f32⟩ : BufTy).Contents (Elt F) → (⟨S2048x2, .f32⟩ : BufTy).Contents (Elt F)),
    StableHlo.binary main_v80 main_v82 main_v83 (addf : (⟨S2048x2, .f32⟩ : BufTy).Contents (Elt F) → (⟨S2048x2, .f32⟩ : BufTy).Contents (Elt F) → (⟨S2048x2, .f32⟩ : BufTy).Contents (Elt F)),
    StableHlo.nullary main_cst_17 (constant S_ .f32 0xFF800000#32),
    StableHlo.binary main_v83 main_cst_17 main_v84 ((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)),
    StableHlo.nullary main_cst_18 (constant S_ .f32 0xFF800000#32),
    StableHlo.unary main_cst_18 main_v85 (broadcastInDim S2048 ![] bcast_S_S2048 : (⟨S_, .f32⟩ : BufTy).Contents (Elt F) → (⟨S2048, .f32⟩ : BufTy).Contents (Elt F)),
    StableHlo.binary main_v85 main_v84 main_v86 (maximumf : (⟨S2048, .f32⟩ : BufTy).Contents (Elt F) → (⟨S2048, .f32⟩ : BufTy).Contents (Elt F) → (⟨S2048, .f32⟩ : BufTy).Contents (Elt F)),
    StableHlo.unary main_v86 main_v87 (broadcastInDim S2048x1 ![0] bcast_S2048_S2048x1_0 : (⟨S2048, .f32⟩ : BufTy).Contents (Elt F) → (⟨S2048x1, .f32⟩ : BufTy).Contents (Elt F)),
    StableHlo.unary main_v87 main_v88 (broadcastInDim S2048x2 ![0, 1] bcast_S2048x1_S2048x2_0_1 : (⟨S2048x1, .f32⟩ : BufTy).Contents (Elt F) → (⟨S2048x2, .f32⟩ : BufTy).Contents (Elt F)),
    StableHlo.binary main_v83 main_v88 main_v89 (subf : (⟨S2048x2, .f32⟩ : BufTy).Contents (Elt F) → (⟨S2048x2, .f32⟩ : BufTy).Contents (Elt F) → (⟨S2048x2, .f32⟩ : BufTy).Contents (Elt F)),
    StableHlo.unary main_v89 main_v90 (Host.exp : (⟨S2048x2, .f32⟩ : BufTy).Contents (Elt F) → (⟨S2048x2, .f32⟩ : BufTy).Contents (Elt F)),
    StableHlo.nullary main_cst_19 (constant S_ .f32 0x00000000#32),
    StableHlo.binary main_v90 main_cst_19 main_v91 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    StableHlo.unary main_v91 main_v92 (broadcastInDim S2048x1 ![0] bcast_S2048_S2048x1_0 : (⟨S2048, .f32⟩ : BufTy).Contents (Elt F) → (⟨S2048x1, .f32⟩ : BufTy).Contents (Elt F)),
    StableHlo.unary main_v92 main_v93 (broadcastInDim S2048x2 ![0, 1] bcast_S2048x1_S2048x2_0_1 : (⟨S2048x1, .f32⟩ : BufTy).Contents (Elt F) → (⟨S2048x2, .f32⟩ : BufTy).Contents (Elt F)),
    StableHlo.binary main_v90 main_v93 main_v94 (Host.divf : (⟨S2048x2, .f32⟩ : BufTy).Contents (Elt F) → (⟨S2048x2, .f32⟩ : BufTy).Contents (Elt F) → (⟨S2048x2, .f32⟩ : BufTy).Contents (Elt F)) ]

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

end Cert.ReferenceIdeal.RefOps

end
-- ==== Proof.RefTerm.lean ====
import proofs.«404633_j41051297415545_3_alg».proof.Proof.Gen.ReferenceIdeal
import Idealize.ShloMosaic.PureOps.Ideal

noncomputable section

namespace Cert.ReferenceIdeal.RefTerm

open Idealize.ShloMosaic Cert.ReferenceIdeal Cert.ReferenceIdeal.Facts₀

variable {F : FTy → Type} [FloatOps F]

/-- The reference's first layer: operations 1 to 42 of @main, as a function of the arguments they read. -/
def refH (main_arg1 : (⟨S10000x16, .i32⟩ : BufTy).Contents (Elt F)) (main_arg2 : (⟨S10000x16x8, .i32⟩ : BufTy).Contents (Elt F)) (main_arg4 : (⟨S50000x128, .f32⟩ : BufTy).Contents (Elt F)) (main_arg5 : (⟨S128x128, .f32⟩ : BufTy).Contents (Elt F)) (main_arg6 : (⟨S128x128, .f32⟩ : BufTy).Contents (Elt F)) :
    (⟨S10000x128, .f32⟩ : BufTy).Contents (Elt F) :=
  let main_c : (⟨S_, .i32⟩ : BufTy).Contents (Elt F) := (constantI S_ 32 0#32)
  let main_v0 : (⟨S10000x16, .i32⟩ : BufTy).Contents (Elt F) := (broadcastInDim S10000x16 ![] bcast_S_S10000x16 : (⟨S_, .i32⟩ : BufTy).Contents (Elt F) → (⟨S10000x16, .i32⟩ : BufTy).Contents (Elt F)) main_c
  let main_v1 : (⟨S10000x16, .i1⟩ : BufTy).Contents (Elt F) := (cmpi .slt : (⟨S10000x16, .i32⟩ : BufTy).Contents (Elt F) → (⟨S10000x16, .i32⟩ : BufTy).Contents (Elt F) → (⟨S10000x16, .i1⟩ : BufTy).Contents (Elt F)) main_arg1 main_v0
  let main_c_0 : (⟨S_, .i32⟩ : BufTy).Contents (Elt F) := (constantI S_ 32 50000#32)
  let main_v2 : (⟨S10000x16, .i32⟩ : BufTy).Contents (Elt F) := (broadcastInDim S10000x16 ![] bcast_S_S10000x16 : (⟨S_, .i32⟩ : BufTy).Contents (Elt F) → (⟨S10000x16, .i32⟩ : BufTy).Contents (Elt F)) main_c_0
  let main_v3 : (⟨S10000x16, .i32⟩ : BufTy).Contents (Elt F) := (addi : (⟨S10000x16, .i32⟩ : BufTy).Contents (Elt F) → (⟨S10000x16, .i32⟩ : BufTy).Contents (Elt F) → (⟨S10000x16, .i32⟩ : BufTy).Contents (Elt F)) main_arg1 main_v2
  let main_v4 : (⟨S10000x16, .i32⟩ : BufTy).Contents (Elt F) := (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)) main_v1 main_v3 main_arg1
  let main_v5 : (⟨S10000x16x1, .i32⟩ : BufTy).Contents (Elt F) := (broadcastInDim S10000x16x1 ![0, 1] bcast_S10000x16_S10000x16x1_0_1 : (⟨S10000x16, .i32⟩ : BufTy).Contents (Elt F) → (⟨S10000x16x1, .i32⟩ : BufTy).Contents (Elt F)) main_v4
  let main_v6 : (⟨S10000x16x128, .f32⟩ : BufTy).Contents (Elt F) := ((fun x i => Host.gather gather_S50000x128_S10000x16x1_S10000x16x128_2_0_n_n_0_2_1128 x i) : (⟨S50000x128, .f32⟩ : BufTy).Contents (Elt F) → (⟨S10000x16x1, .i32⟩ : BufTy).Contents (Elt F) → (⟨S10000x16x128, .f32⟩ : BufTy).Contents (Elt F)) main_arg4 main_v5
  let main_c_1 : (⟨S_, .i32⟩ : BufTy).Contents (Elt F) := (constantI S_ 32 0#32)
  let main_v7 : (⟨S10000x16x8, .i32⟩ : BufTy).Contents (Elt F) := (broadcastInDim S10000x16x8 ![] bcast_S_S10000x16x8 : (⟨S_, .i32⟩ : BufTy).Contents (Elt F) → (⟨S10000x16x8, .i32⟩ : BufTy).Contents (Elt F)) main_c_1
  let main_v8 : (⟨S10000x16x8, .i1⟩ : BufTy).Contents (Elt F) := (cmpi .slt : (⟨S10000x16x8, .i32⟩ : BufTy).Contents (Elt F) → (⟨S10000x16x8, .i32⟩ : BufTy).Contents (Elt F) → (⟨S10000x16x8, .i1⟩ : BufTy).Contents (Elt F)) main_arg2 main_v7
  let main_c_2 : (⟨S_, .i32⟩ : BufTy).Contents (Elt F) := (constantI S_ 32 50000#32)
  let main_v9 : (⟨S10000x16x8, .i32⟩ : BufTy).Contents (Elt F) := (broadcastInDim S10000x16x8 ![] bcast_S_S10000x16x8 : (⟨S_, .i32⟩ : BufTy).Contents (Elt F) → (⟨S10000x16x8, .i32⟩ : BufTy).Contents (Elt F)) main_c_2
  let main_v10 : (⟨S10000x16x8, .i32⟩ : BufTy).Contents (Elt F) := (addi : (⟨S10000x16x8, .i32⟩ : BufTy).Contents (Elt F) → (⟨S10000x16x8, .i32⟩ : BufTy).Contents (Elt F) → (⟨S10000x16x8, .i32⟩ : BufTy).Contents (Elt F)) main_arg2 main_v9
  let main_v11 : (⟨S10000x16x8, .i32⟩ : BufTy).Contents (Elt F) := (select : (⟨S10000x16x8, .i1⟩ : BufTy).Contents (Elt F) → (⟨S10000x16x8, .i32⟩ : BufTy).Contents (Elt F) → (⟨S10000x16x8, .i32⟩ : BufTy).Contents (Elt F) → (⟨S10000x16x8, .i32⟩ : BufTy).Contents (Elt F)) main_v8 main_v10 main_arg2
  let main_v12 : (⟨S10000x16x8x1, .i32⟩ : BufTy).Contents (Elt F) := (broadcastInDim S10000x16x8x1 ![0, 1, 2] bcast_S10000x16x8_S10000x16x8x1_0_1_2 : (⟨S10000x16x8, .i32⟩ : BufTy).Contents (Elt F) → (⟨S10000x16x8x1, .i32⟩ : BufTy).Contents (Elt F)) main_v11
  let main_v13 : (⟨S10000x16x8x128, .f32⟩ : BufTy).Contents (Elt F) := ((fun x i => Host.gather gather_S50000x128_S10000x16x8x1_S10000x16x8x128_3_0_n_n_0_3_1128 x i) : (⟨S50000x128, .f32⟩ : BufTy).Contents (Elt F) → (⟨S10000x16x8x1, .i32⟩ : BufTy).Contents (Elt F) → (⟨S10000x16x8x128, .f32⟩ : BufTy).Contents (Elt F)) main_arg4 main_v12
  let main_cst : (⟨S_, .f32⟩ : BufTy).Contents (Elt F) := (constant S_ .f32 0x00000000#32)
  let main_v14 : (⟨S10000x16x128, .f32⟩ : BufTy).Contents (Elt F) := ((fun x v => Host.reduceAdd x v reducesTo_S10000x16x8x128_S10000x16x128_d2 h_S_) : (⟨S10000x16x8x128, .f32⟩ : BufTy).Contents (Elt F) → (⟨S_, .f32⟩ : BufTy).Contents (Elt F) → (⟨S10000x16x128, .f32⟩ : BufTy).Contents (Elt F)) main_v13 main_cst
  let main_v15 : (⟨S10000x16x128, .f32⟩ : BufTy).Contents (Elt F) := ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)) main_v6 main_arg5
  let main_v16 : (⟨S10000x16x128, .f32⟩ : BufTy).Contents (Elt F) := ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)) main_v14 main_arg6
  let main_v17 : (⟨S10000x16x128, .f32⟩ : BufTy).Contents (Elt F) := (addf : (⟨S10000x16x128, .f32⟩ : BufTy).Contents (Elt F) → (⟨S10000x16x128, .f32⟩ : BufTy).Contents (Elt F) → (⟨S10000x16x128, .f32⟩ : BufTy).Contents (Elt F)) main_v15 main_v16
  let main_call0_cst : (⟨S_, .f32⟩ : BufTy).Contents (Elt F) := (constant S_ .f32 0x00000000#32)
  let main_call0_v0 : (⟨S10000x16x128, .f32⟩ : BufTy).Contents (Elt F) := (broadcastInDim S10000x16x128 ![] bcast_S_S10000x16x128) main_call0_cst
  let main_v18 : (⟨S10000x16x128, .f32⟩ : BufTy).Contents (Elt F) := maximumf main_v17 main_call0_v0
  let main_cst_3 : (⟨S_, .f32⟩ : BufTy).Contents (Elt F) := (constant S_ .f32 0x00000000#32)
  let main_v19 : (⟨S10000x128, .f32⟩ : BufTy).Contents (Elt F) := ((fun x v => Host.reduceAdd x v reducesTo_S10000x16x128_S10000x128_d1 h_S_) : (⟨S10000x16x128, .f32⟩ : BufTy).Contents (Elt F) → (⟨S_, .f32⟩ : BufTy).Contents (Elt F) → (⟨S10000x128, .f32⟩ : BufTy).Contents (Elt F)) main_v18 main_cst_3
  let main_cst_4 : (⟨S_, .f32⟩ : BufTy).Contents (Elt F) := (constant S_ .f32 0xFF800000#32)
  let main_v20 : (⟨S10000, .f32⟩ : BufTy).Contents (Elt F) := ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)) main_v19 main_cst_4
  let main_cst_5 : (⟨S_, .f32⟩ : BufTy).Contents (Elt F) := (constant S_ .f32 0xFF800000#32)
  let main_v21 : (⟨S10000, .f32⟩ : BufTy).Contents (Elt F) := (broadcastInDim S10000 ![] bcast_S_S10000 : (⟨S_, .f32⟩ : BufTy).Contents (Elt F) → (⟨S10000, .f32⟩ : BufTy).Contents (Elt F)) main_cst_5
  let main_v22 : (⟨S10000, .f32⟩ : BufTy).Contents (Elt F) := (maximumf : (⟨S10000, .f32⟩ : BufTy).Contents (Elt F) → (⟨S10000, .f32⟩ : BufTy).Contents (Elt F) → (⟨S10000, .f32⟩ : BufTy).Contents (Elt F)) main_v21 main_v20
  let main_v23 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) main_v22
  let main_v24 : (⟨S10000x128, .f32⟩ : BufTy).Contents (Elt F) := (broadcastInDim S10000x128 ![0, 1] bcast_S10000x1_S10000x128_0_1 : (⟨S10000x1, .f32⟩ : BufTy).Contents (Elt F) → (⟨S10000x128, .f32⟩ : BufTy).Contents (Elt F)) main_v23
  let main_v25 : (⟨S10000x128, .f32⟩ : BufTy).Contents (Elt F) := (subf : (⟨S10000x128, .f32⟩ : BufTy).Contents (Elt F) → (⟨S10000x128, .f32⟩ : BufTy).Contents (Elt F) → (⟨S10000x128, .f32⟩ : BufTy).Contents (Elt F)) main_v19 main_v24
  let main_v26 : (⟨S10000x128, .f32⟩ : BufTy).Contents (Elt F) := (Host.exp : (⟨S10000x128, .f32⟩ : BufTy).Contents (Elt F) → (⟨S10000x128, .f32⟩ : BufTy).Contents (Elt F)) main_v25
  let main_cst_6 : (⟨S_, .f32⟩ : BufTy).Contents (Elt F) := (constant S_ .f32 0x00000000#32)
  let main_v27 : (⟨S10000, .f32⟩ : BufTy).Contents (Elt F) := ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)) main_v26 main_cst_6
  let main_v28 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) main_v27
  let main_v29 : (⟨S10000x128, .f32⟩ : BufTy).Contents (Elt F) := (broadcastInDim S10000x128 ![0, 1] bcast_S10000x1_S10000x128_0_1 : (⟨S10000x1, .f32⟩ : BufTy).Contents (Elt F) → (⟨S10000x128, .f32⟩ : BufTy).Contents (Elt F)) main_v28
  let main_v30 : (⟨S10000x128, .f32⟩ : BufTy).Contents (Elt F) := (Host.divf : (⟨S10000x128, .f32⟩ : BufTy).Contents (Elt F) → (⟨S10000x128, .f32⟩ : BufTy).Contents (Elt F) → (⟨S10000x128, .f32⟩ : BufTy).Contents (Elt F)) main_v26 main_v29
  main_v30

/-- The reference's second layer: operations 43 to 73 of @main, as a function of the first layer's result and the arguments they read. -/
def refE2 (main_v30 : (⟨S10000x128, .f32⟩ : BufTy).Contents (Elt F)) (main_arg3 : (⟨S10000x16, .i32⟩ : BufTy).Contents (Elt F)) (main_arg7 : (⟨S128x128, .f32⟩ : BufTy).Contents (Elt F)) (main_arg8 : (⟨S128x128, .f32⟩ : BufTy).Contents (Elt F)) :
    (⟨S10000x128, .f32⟩ : BufTy).Contents (Elt F) :=
  let main_c_7 : (⟨S_, .i32⟩ : BufTy).Contents (Elt F) := (constantI S_ 32 0#32)
  let main_v31 : (⟨S10000x16, .i32⟩ : BufTy).Contents (Elt F) := (broadcastInDim S10000x16 ![] bcast_S_S10000x16 : (⟨S_, .i32⟩ : BufTy).Contents (Elt F) → (⟨S10000x16, .i32⟩ : BufTy).Contents (Elt F)) main_c_7
  let main_v32 : (⟨S10000x16, .i1⟩ : BufTy).Contents (Elt F) := (cmpi .slt : (⟨S10000x16, .i32⟩ : BufTy).Contents (Elt F) → (⟨S10000x16, .i32⟩ : BufTy).Contents (Elt F) → (⟨S10000x16, .i1⟩ : BufTy).Contents (Elt F)) main_arg3 main_v31
  let main_c_8 : (⟨S_, .i32⟩ : BufTy).Contents (Elt F) := (constantI S_ 32 10000#32)
  let main_v33 : (⟨S10000x16, .i32⟩ : BufTy).Contents (Elt F) := (broadcastInDim S10000x16 ![] bcast_S_S10000x16 : (⟨S_, .i32⟩ : BufTy).Contents (Elt F) → (⟨S10000x16, .i32⟩ : BufTy).Contents (Elt F)) main_c_8
  let main_v34 : (⟨S10000x16, .i32⟩ : BufTy).Contents (Elt F) := (addi : (⟨S10000x16, .i32⟩ : BufTy).Contents (Elt F) → (⟨S10000x16, .i32⟩ : BufTy).Contents (Elt F) → (⟨S10000x16, .i32⟩ : BufTy).Contents (Elt F)) main_arg3 main_v33
  let main_v35 : (⟨S10000x16, .i32⟩ : BufTy).Contents (Elt F) := (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)) main_v32 main_v34 main_arg3
  let main_v36 : (⟨S10000x16x1, .i32⟩ : BufTy).Contents (Elt F) := (broadcastInDim S10000x16x1 ![0, 1] bcast_S10000x16_S10000x16x1_0_1 : (⟨S10000x16, .i32⟩ : BufTy).Contents (Elt F) → (⟨S10000x16x1, .i32⟩ : BufTy).Contents (Elt F)) main_v35
  let main_v37 : (⟨S10000x16x128, .f32⟩ : BufTy).Contents (Elt F) := ((fun x i => Host.gather gather_S10000x128_S10000x16x1_S10000x16x128_2_0_n_n_0_2_1128 x i) : (⟨S10000x128, .f32⟩ : BufTy).Contents (Elt F) → (⟨S10000x16x1, .i32⟩ : BufTy).Contents (Elt F) → (⟨S10000x16x128, .f32⟩ : BufTy).Contents (Elt F)) main_v30 main_v36
  let main_cst_9 : (⟨S_, .f32⟩ : BufTy).Contents (Elt F) := (constant S_ .f32 0x00000000#32)
  let main_v38 : (⟨S10000x128, .f32⟩ : BufTy).Contents (Elt F) := ((fun x v => Host.reduceAdd x v reducesTo_S10000x16x128_S10000x128_d1 h_S_) : (⟨S10000x16x128, .f32⟩ : BufTy).Contents (Elt F) → (⟨S_, .f32⟩ : BufTy).Contents (Elt F) → (⟨S10000x128, .f32⟩ : BufTy).Contents (Elt F)) main_v37 main_cst_9
  let main_v39 : (⟨S10000x128, .f32⟩ : BufTy).Contents (Elt F) := ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)) main_v30 main_arg7
  let main_v40 : (⟨S10000x128, .f32⟩ : BufTy).Contents (Elt F) := ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)) main_v38 main_arg8
  let main_v41 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) main_v39 main_v40
  let main_call1_cst : (⟨S_, .f32⟩ : BufTy).Contents (Elt F) := (constant S_ .f32 0x00000000#32)
  let main_call1_v0 : (⟨S10000x128, .f32⟩ : BufTy).Contents (Elt F) := (broadcastInDim S10000x128 ![] bcast_S_S10000x128) main_call1_cst
  let main_v42 : (⟨S10000x128, .f32⟩ : BufTy).Contents (Elt F) := maximumf main_v41 main_call1_v0
  let main_cst_10 : (⟨S_, .f32⟩ : BufTy).Contents (Elt F) := (constant S_ .f32 0xFF800000#32)
  let main_v43 : (⟨S10000, .f32⟩ : BufTy).Contents (Elt F) := ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)) main_v42 main_cst_10
  let main_cst_11 : (⟨S_, .f32⟩ : BufTy).Contents (Elt F) := (constant S_ .f32 0xFF800000#32)
  let main_v44 : (⟨S10000, .f32⟩ : BufTy).Contents (Elt F) := (broadcastInDim S10000 ![] bcast_S_S10000 : (⟨S_, .f32⟩ : BufTy).Contents (Elt F) → (⟨S10000, .f32⟩ : BufTy).Contents (Elt F)) main_cst_11
  let main_v45 : (⟨S10000, .f32⟩ : BufTy).Contents (Elt F) := (maximumf : (⟨S10000, .f32⟩ : BufTy).Contents (Elt F) → (⟨S10000, .f32⟩ : BufTy).Contents (Elt F) → (⟨S10000, .f32⟩ : BufTy).Contents (Elt F)) main_v44 main_v43
  let main_v46 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) main_v45
  let main_v47 : (⟨S10000x128, .f32⟩ : BufTy).Contents (Elt F) := (broadcastInDim S10000x128 ![0, 1] bcast_S10000x1_S10000x128_0_1 : (⟨S10000x1, .f32⟩ : BufTy).Contents (Elt F) → (⟨S10000x128, .f32⟩ : BufTy).Contents (Elt F)) main_v46
  let main_v48 : (⟨S10000x128, .f32⟩ : BufTy).Contents (Elt F) := (subf : (⟨S10000x128, .f32⟩ : BufTy).Contents (Elt F) → (⟨S10000x128, .f32⟩ : BufTy).Contents (Elt F) → (⟨S10000x128, .f32⟩ : BufTy).Contents (Elt F)) main_v42 main_v47
  let main_v49 : (⟨S10000x128, .f32⟩ : BufTy).Contents (Elt F) := (Host.exp : (⟨S10000x128, .f32⟩ : BufTy).Contents (Elt F) → (⟨S10000x128, .f32⟩ : BufTy).Contents (Elt F)) main_v48
  let main_cst_12 : (⟨S_, .f32⟩ : BufTy).Contents (Elt F) := (constant S_ .f32 0x00000000#32)
  let main_v50 : (⟨S10000, .f32⟩ : BufTy).Contents (Elt F) := ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)) main_v49 main_cst_12
  let main_v51 : (⟨S10000x1, .f32⟩ : BufTy).Contents (Elt F) := (broadcastInDim S10000x1 ![0] bcast_S10000_S10000x1_0 : (⟨S10000, .f32⟩ : BufTy).Contents (Elt F) → (⟨S10000x1, .f32⟩ : BufTy).Contents (Elt F)) main_v50
  let main_v52 : (⟨S10000x128, .f32⟩ : BufTy).Contents (Elt F) := (broadcastInDim S10000x128 ![0, 1] bcast_S10000x1_S10000x128_0_1 : (⟨S10000x1, .f32⟩ : BufTy).Contents (Elt F) → (⟨S10000x128, .f32⟩ : BufTy).Contents (Elt F)) main_v51
  let main_v53 : (⟨S10000x128, .f32⟩ : BufTy).Contents (Elt F) := (Host.divf : (⟨S10000x128, .f32⟩ : BufTy).Contents (Elt F) → (⟨S10000x128, .f32⟩ : BufTy).Contents (Elt F) → (⟨S10000x128, .f32⟩ : BufTy).Contents (Elt F)) main_v49 main_v52
  main_v53

/-- The reference's closing operations (74 to 127 of @main), as a function of the second layer's result and the arguments they read. -/
def refTail (main_v53 : (⟨S10000x128, .f32⟩ : BufTy).Contents (Elt F)) (main_arg0 : (⟨S2048x2, .i32⟩ : BufTy).Contents (Elt F)) (main_arg9 : (⟨S128x256, .f32⟩ : BufTy).Contents (Elt F)) (main_arg10 : (⟨S128, .f32⟩ : BufTy).Contents (Elt F)) (main_arg11 : (⟨S2x128, .f32⟩ : BufTy).Contents (Elt F)) (main_arg12 : (⟨S2, .f32⟩ : BufTy).Contents (Elt F)) :
    (⟨S2048x2, .f32⟩ : BufTy).Contents (Elt F) :=
  let main_v54 : (⟨S2048x1, .i32⟩ : BufTy).Contents (Elt F) := ((extractStridedSlice S2048x1 ![0, 0] · slices_S2048x2_S2048x1_0_0) : (⟨S2048x2, .i32⟩ : BufTy).Contents (Elt F) → (⟨S2048x1, .i32⟩ : BufTy).Contents (Elt F)) main_arg0
  let main_v55 : (⟨S2048, .i32⟩ : BufTy).Contents (Elt F) := shapeCast S2048 main_v54 shapeCasts_S2048x1_S2048
  let main_c_13 : (⟨S_, .i32⟩ : BufTy).Contents (Elt F) := (constantI S_ 32 0#32)
  let main_v56 : (⟨S2048, .i32⟩ : BufTy).Contents (Elt F) := (broadcastInDim S2048 ![] bcast_S_S2048 : (⟨S_, .i32⟩ : BufTy).Contents (Elt F) → (⟨S2048, .i32⟩ : BufTy).Contents (Elt F)) main_c_13
  let main_v57 : (⟨S2048, .i1⟩ : BufTy).Contents (Elt F) := (cmpi .slt : (⟨S2048, .i32⟩ : BufTy).Contents (Elt F) → (⟨S2048, .i32⟩ : BufTy).Contents (Elt F) → (⟨S2048, .i1⟩ : BufTy).Contents (Elt F)) main_v55 main_v56
  let main_c_14 : (⟨S_, .i32⟩ : BufTy).Contents (Elt F) := (constantI S_ 32 10000#32)
  let main_v58 : (⟨S2048, .i32⟩ : BufTy).Contents (Elt F) := (broadcastInDim S2048 ![] bcast_S_S2048 : (⟨S_, .i32⟩ : BufTy).Contents (Elt F) → (⟨S2048, .i32⟩ : BufTy).Contents (Elt F)) main_c_14
  let main_v59 : (⟨S2048, .i32⟩ : BufTy).Contents (Elt F) := (addi : (⟨S2048, .i32⟩ : BufTy).Contents (Elt F) → (⟨S2048, .i32⟩ : BufTy).Contents (Elt F) → (⟨S2048, .i32⟩ : BufTy).Contents (Elt F)) main_v55 main_v58
  let main_v60 : (⟨S2048, .i32⟩ : BufTy).Contents (Elt F) := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) main_v57 main_v59 main_v55
  let main_v61 : (⟨S2048x1, .i32⟩ : BufTy).Contents (Elt F) := (broadcastInDim S2048x1 ![0] bcast_S2048_S2048x1_0 : (⟨S2048, .i32⟩ : BufTy).Contents (Elt F) → (⟨S2048x1, .i32⟩ : BufTy).Contents (Elt F)) main_v60
  let main_v62 : (⟨S2048x128, .f32⟩ : BufTy).Contents (Elt F) := ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)) main_v53 main_v61
  let main_v63 : (⟨S2048x1, .i32⟩ : BufTy).Contents (Elt F) := ((extractStridedSlice S2048x1 ![0, 1] · slices_S2048x2_S2048x1_0_1) : (⟨S2048x2, .i32⟩ : BufTy).Contents (Elt F) → (⟨S2048x1, .i32⟩ : BufTy).Contents (Elt F)) main_arg0
  let main_v64 : (⟨S2048, .i32⟩ : BufTy).Contents (Elt F) := shapeCast S2048 main_v63 shapeCasts_S2048x1_S2048
  let main_c_15 : (⟨S_, .i32⟩ : BufTy).Contents (Elt F) := (constantI S_ 32 0#32)
  let main_v65 : (⟨S2048, .i32⟩ : BufTy).Contents (Elt F) := (broadcastInDim S2048 ![] bcast_S_S2048 : (⟨S_, .i32⟩ : BufTy).Contents (Elt F) → (⟨S2048, .i32⟩ : BufTy).Contents (Elt F)) main_c_15
  let main_v66 : (⟨S2048, .i1⟩ : BufTy).Contents (Elt F) := (cmpi .slt : (⟨S2048, .i32⟩ : BufTy).Contents (Elt F) → (⟨S2048, .i32⟩ : BufTy).Contents (Elt F) → (⟨S2048, .i1⟩ : BufTy).Contents (Elt F)) main_v64 main_v65
  let main_c_16 : (⟨S_, .i32⟩ : BufTy).Contents (Elt F) := (constantI S_ 32 10000#32)
  let main_v67 : (⟨S2048, .i32⟩ : BufTy).Contents (Elt F) := (broadcastInDim S2048 ![] bcast_S_S2048 : (⟨S_, .i32⟩ : BufTy).Contents (Elt F) → (⟨S2048, .i32⟩ : BufTy).Contents (Elt F)) main_c_16
  let main_v68 : (⟨S2048, .i32⟩ : BufTy).Contents (Elt F) := (addi : (⟨S2048, .i32⟩ : BufTy).Contents (Elt F) → (⟨S2048, .i32⟩ : BufTy).Contents (Elt F) → (⟨S2048, .i32⟩ : BufTy).Contents (Elt F)) main_v64 main_v67
  let main_v69 : (⟨S2048, .i32⟩ : BufTy).Contents (Elt F) := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) main_v66 main_v68 main_v64
  let main_v70 : (⟨S2048x1, .i32⟩ : BufTy).Contents (Elt F) := (broadcastInDim S2048x1 ![0] bcast_S2048_S2048x1_0 : (⟨S2048, .i32⟩ : BufTy).Contents (Elt F) → (⟨S2048x1, .i32⟩ : BufTy).Contents (Elt F)) main_v69
  let main_v71 : (⟨S2048x128, .f32⟩ : BufTy).Contents (Elt F) := ((fun x i => Host.gather gather_S10000x128_S2048x1_S2048x128_1_0_n_n_0_1_1128 x i) : (⟨S10000x128, .f32⟩ : BufTy).Contents (Elt F) → (⟨S2048x1, .i32⟩ : BufTy).Contents (Elt F) → (⟨S2048x128, .f32⟩ : BufTy).Contents (Elt F)) main_v53 main_v70
  let main_v72 : (⟨S2048x256, .f32⟩ : BufTy).Contents (Elt F) := ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)) main_v62 main_v71
  let main_v73 : (⟨S256x128, .f32⟩ : BufTy).Contents (Elt F) := ((transpose S256x128 [1, 0] · transposes_S128x256_S256x128_1_0) : (⟨S128x256, .f32⟩ : BufTy).Contents (Elt F) → (⟨S256x128, .f32⟩ : BufTy).Contents (Elt F)) main_arg9
  let main_v74 : (⟨S2048x128, .f32⟩ : BufTy).Contents (Elt F) := ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)) main_v72 main_v73
  let main_v75 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg10
  let main_v76 : (⟨S2048x128, .f32⟩ : BufTy).Contents (Elt F) := (broadcastInDim S2048x128 ![0, 1] bcast_S1x128_S2048x128_0_1 : (⟨S1x128, .f32⟩ : BufTy).Contents (Elt F) → (⟨S2048x128, .f32⟩ : BufTy).Contents (Elt F)) main_v75
  let main_v77 : (⟨S2048x128, .f32⟩ : BufTy).Contents (Elt F) := (addf : (⟨S2048x128, .f32⟩ : BufTy).Contents (Elt F) → (⟨S2048x128, .f32⟩ : BufTy).Contents (Elt F) → (⟨S2048x128, .f32⟩ : BufTy).Contents (Elt F)) main_v74 main_v76
  let main_call2_cst : (⟨S_, .f32⟩ : BufTy).Contents (Elt F) := (constant S_ .f32 0x00000000#32)
  let main_call2_v0 : (⟨S2048x128, .f32⟩ : BufTy).Contents (Elt F) := (broadcastInDim S2048x128 ![] bcast_S_S2048x128) main_call2_cst
  let main_call2_v1 : (⟨S2048x128, .i1⟩ : BufTy).Contents (Elt F) := (cmpf .oge) main_v77 main_call2_v0
  let main_call2_cst_0 : (⟨S_, .f32⟩ : BufTy).Contents (Elt F) := (constant S_ .f32 0x3C23D70A#32)
  let main_call2_v2 : (⟨S2048x128, .f32⟩ : BufTy).Contents (Elt F) := (broadcastInDim S2048x128 ![] bcast_S_S2048x128) main_call2_cst_0
  let main_call2_v3 : (⟨S2048x128, .f32⟩ : BufTy).Contents (Elt F) := mulf main_call2_v2 main_v77
  let main_v78 : (⟨S2048x128, .f32⟩ : BufTy).Contents (Elt F) := select main_call2_v1 main_v77 main_call2_v3
  let main_v79 : (⟨S128x2, .f32⟩ : BufTy).Contents (Elt F) := ((transpose S128x2 [1, 0] · transposes_S2x128_S128x2_1_0) : (⟨S2x128, .f32⟩ : BufTy).Contents (Elt F) → (⟨S128x2, .f32⟩ : BufTy).Contents (Elt F)) main_arg11
  let main_v80 : (⟨S2048x2, .f32⟩ : BufTy).Contents (Elt F) := ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)) main_v78 main_v79
  let main_v81 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) main_arg12
  let main_v82 : (⟨S2048x2, .f32⟩ : BufTy).Contents (Elt F) := (broadcastInDim S2048x2 ![0, 1] bcast_S1x2_S2048x2_0_1 : (⟨S1x2, .f32⟩ : BufTy).Contents (Elt F) → (⟨S2048x2, .f32⟩ : BufTy).Contents (Elt F)) main_v81
  let main_v83 : (⟨S2048x2, .f32⟩ : BufTy).Contents (Elt F) := (addf : (⟨S2048x2, .f32⟩ : BufTy).Contents (Elt F) → (⟨S2048x2, .f32⟩ : BufTy).Contents (Elt F) → (⟨S2048x2, .f32⟩ : BufTy).Contents (Elt F)) main_v80 main_v82
  let main_cst_17 : (⟨S_, .f32⟩ : BufTy).Contents (Elt F) := (constant S_ .f32 0xFF800000#32)
  let main_v84 : (⟨S2048, .f32⟩ : BufTy).Contents (Elt F) := ((fun x v => Host.reduce FloatOps.maximumf x v reducesTo_S2048x2_S2048_d1 h_S_) : (⟨S2048x2, .f32⟩ : BufTy).Contents (Elt F) → (⟨S_, .f32⟩ : BufTy).Contents (Elt F) → (⟨S2048, .f32⟩ : BufTy).Contents (Elt F)) main_v83 main_cst_17
  let main_cst_18 : (⟨S_, .f32⟩ : BufTy).Contents (Elt F) := (constant S_ .f32 0xFF800000#32)
  let main_v85 : (⟨S2048, .f32⟩ : BufTy).Contents (Elt F) := (broadcastInDim S2048 ![] bcast_S_S2048 : (⟨S_, .f32⟩ : BufTy).Contents (Elt F) → (⟨S2048, .f32⟩ : BufTy).Contents (Elt F)) main_cst_18
  let main_v86 : (⟨S2048, .f32⟩ : BufTy).Contents (Elt F) := (maximumf : (⟨S2048, .f32⟩ : BufTy).Contents (Elt F) → (⟨S2048, .f32⟩ : BufTy).Contents (Elt F) → (⟨S2048, .f32⟩ : BufTy).Contents (Elt F)) main_v85 main_v84
  let main_v87 : (⟨S2048x1, .f32⟩ : BufTy).Contents (Elt F) := (broadcastInDim S2048x1 ![0] bcast_S2048_S2048x1_0 : (⟨S2048, .f32⟩ : BufTy).Contents (Elt F) → (⟨S2048x1, .f32⟩ : BufTy).Contents (Elt F)) main_v86
  let main_v88 : (⟨S2048x2, .f32⟩ : BufTy).Contents (Elt F) := (broadcastInDim S2048x2 ![0, 1] bcast_S2048x1_S2048x2_0_1 : (⟨S2048x1, .f32⟩ : BufTy).Contents (Elt F) → (⟨S2048x2, .f32⟩ : BufTy).Contents (Elt F)) main_v87
  let main_v89 : (⟨S2048x2, .f32⟩ : BufTy).Contents (Elt F) := (subf : (⟨S2048x2, .f32⟩ : BufTy).Contents (Elt F) → (⟨S2048x2, .f32⟩ : BufTy).Contents (Elt F) → (⟨S2048x2, .f32⟩ : BufTy).Contents (Elt F)) main_v83 main_v88
  let main_v90 : (⟨S2048x2, .f32⟩ : BufTy).Contents (Elt F) := (Host.exp : (⟨S2048x2, .f32⟩ : BufTy).Contents (Elt F) → (⟨S2048x2, .f32⟩ : BufTy).Contents (Elt F)) main_v89
  let main_cst_19 : (⟨S_, .f32⟩ : BufTy).Contents (Elt F) := (constant S_ .f32 0x00000000#32)
  let main_v91 : (⟨S2048, .f32⟩ : BufTy).Contents (Elt F) := ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)) main_v90 main_cst_19
  let main_v92 : (⟨S2048x1, .f32⟩ : BufTy).Contents (Elt F) := (broadcastInDim S2048x1 ![0] bcast_S2048_S2048x1_0 : (⟨S2048, .f32⟩ : BufTy).Contents (Elt F) → (⟨S2048x1, .f32⟩ : BufTy).Contents (Elt F)) main_v91
  let main_v93 : (⟨S2048x2, .f32⟩ : BufTy).Contents (Elt F) := (broadcastInDim S2048x2 ![0, 1] bcast_S2048x1_S2048x2_0_1 : (⟨S2048x1, .f32⟩ : BufTy).Contents (Elt F) → (⟨S2048x2, .f32⟩ : BufTy).Contents (Elt F)) main_v92
  let main_v94 : (⟨S2048x2, .f32⟩ : BufTy).Contents (Elt F) := (Host.divf : (⟨S2048x2, .f32⟩ : BufTy).Contents (Elt F) → (⟨S2048x2, .f32⟩ : BufTy).Contents (Elt F) → (⟨S2048x2, .f32⟩ : BufTy).Contents (Elt F)) main_v90 main_v93
  main_v94

end Cert.ReferenceIdeal.RefTerm

end
-- ==== Proof.RefRun.lean ====
/- The reference's run: every execution ends with the result buffer at the three stages' composed term of the
   arguments, and the arguments as launched. -/
import proofs.«404633_j41051297415545_3_alg».proof.Proof.RefOps
import proofs.«404633_j41051297415545_3_alg».proof.Proof.RefTerm
import Idealize.ShloMosaic.Adequacy
import Idealize.ShloMosaic.Init

noncomputable section

namespace Cert.ReferenceIdeal.RefRun

open Idealize.ShloMosaic Idealize.SL.Sem Idealize.ShloMosaic.StableHlo Cert.ReferenceIdeal Cert.ReferenceIdeal.RefOps Cert.ReferenceIdeal.RefTerm

/-- The reference's result as a function of the launch memory. -/
def out (m : (ℓ : Loc nD τ sig) → Buf (Elt Ideal) ℓ) (c : Dev nD) : Buf (Elt Ideal) ((c.tc : Thread nD τ).loc main_v94) :=
  refTail (F := Ideal) (refE2 (F := Ideal) (refH (F := Ideal) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
      (m ((c.tc : Thread nD τ).loc main_arg3)) (m ((c.tc : Thread nD τ).loc main_arg7)) (m ((c.tc : Thread nD τ).loc main_arg8)))
    (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12))

/-! ## The program is its list of operations -/

set_option maxRecDepth 4096 in
/-- @main is the straight line: its two windows in order, each callee's body at its call over that call's buffers
    (the select of the leaky rectifier one level further in), and sequencing reassociated, is the chain of the 127
    operations each continued by nothing. -/
theorem main_eq (c : Dev nD) : main (F := Ideal) c = StableHlo.seq (RefOps.ops (F := Ideal)) := by
  simp only [main, main_part0, main_part1, fn_relu.body, fn_relu_0.body, fn_leaky_relu.body, fn_where.body, StableHlo.seq,
    bind_assoc, pure_bind]

/-- The signature scopes no buffer. -/
theorem scopedRefs_eq : (Finset.univ.filter fun b : Ref sig .tc => b.isScoped) = ∅ := by decide
/-- The signature scopes no counter. -/
theorem scopedSems_eq : (Finset.univ.filter fun sm : SemLoc sig => sm.isScoped .tc) = ∅ := by decide

/-! ## The arguments are never written -/

/-- A buffer that none of the 127 operations writes. -/
def Untouched (b : DevRef τ sig) : Prop := ∀ op ∈ RefOps.ops (F := Ideal), b ∉ op.writes

/-- Each operation writes exactly its one result buffer, and no result buffer is the reference read here: 127
    inequalities of references, each decided. -/
local macro "untouched" : tactic => `(tactic| (
  refine List.forall_iff_forall_mem.mp ?_
  simp only [RefOps.ops, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem un_main_arg0 : Untouched (Proc.devRef .tc main_arg0) := by untouched
theorem un_main_arg1 : Untouched (Proc.devRef .tc main_arg1) := by untouched
theorem un_main_arg2 : Untouched (Proc.devRef .tc main_arg2) := by untouched
theorem un_main_arg3 : Untouched (Proc.devRef .tc main_arg3) := by untouched
theorem un_main_arg4 : Untouched (Proc.devRef .tc main_arg4) := by untouched
theorem un_main_arg5 : Untouched (Proc.devRef .tc main_arg5) := by untouched
theorem un_main_arg6 : Untouched (Proc.devRef .tc main_arg6) := by untouched
theorem un_main_arg7 : Untouched (Proc.devRef .tc main_arg7) := by untouched
theorem un_main_arg8 : Untouched (Proc.devRef .tc main_arg8) := by untouched
theorem un_main_arg9 : Untouched (Proc.devRef .tc main_arg9) := by untouched
theorem un_main_arg10 : Untouched (Proc.devRef .tc main_arg10) := by untouched
theorem un_main_arg11 : Untouched (Proc.devRef .tc main_arg11) := by untouched
theorem un_main_arg12 : Untouched (Proc.devRef .tc main_arg12) := by untouched

/-- An untouched buffer keeps its contents through any stretch of the line: a prefix, … -/
theorem keep_take {b : DevRef τ sig} (hb : Untouched b) (n : Nat) (V : Valuation τ sig (Elt Ideal)) :
    after ((RefOps.ops (F := Ideal)).take n) V b = V b :=
  after_of_forall_not_mem _ V fun op ho => hb op (List.mem_of_mem_take ho)

/-- … a middle stretch, … -/
theorem keep_mid {b : DevRef τ sig} (hb : Untouched b) (n k : Nat) (V : Valuation τ sig (Elt Ideal)) :
    after (((RefOps.ops (F := Ideal)).drop n).take k) V b = V b :=
  after_of_forall_not_mem _ V fun op ho => hb op (List.mem_of_mem_drop (List.mem_of_mem_take ho))

/-- … and the whole. -/
theorem keep_all {b : DevRef τ sig} (hb : Untouched b) (V : Valuation τ sig (Elt Ideal)) :
    after (RefOps.ops (F := Ideal)) V b = V b :=
  after_of_forall_not_mem _ V hb

/-! ## The result, layer by layer

The line is cut after the first layer's last operation (the 42nd) and the second layer's (the 73rd). Over an arbitrary
valuation each stretch's last buffer is that layer's term of the buffers the stretch reads: the fold unrolled, each
operation's result at its own buffer its function of its operands' contents and at any other buffer what was there,
a typed reference's transport the identity at these literal references; what is left is the layer's chain of
definitions spelled out, the same composition of the same functions. -/

set_option maxRecDepth 8192 in
set_option maxHeartbeats 1000000 in
theorem s1_out (V : Valuation τ sig (Elt Ideal)) :
    after ((RefOps.ops (F := Ideal)).take 42) V (Proc.devRef .tc main_v30 : DevRef τ sig)
      = refH (F := Ideal) (V (Proc.devRef .tc main_arg1 : DevRef τ sig)) (V (Proc.devRef .tc main_arg2 : DevRef τ sig)) (V (Proc.devRef .tc main_arg4 : DevRef τ sig)) (V (Proc.devRef .tc main_arg5 : DevRef τ sig)) (V (Proc.devRef .tc main_arg6 : DevRef τ sig)) := by
  simp only [RefOps.ops, List.take_succ_cons, List.take_zero, List.drop_succ_cons, List.drop_zero]
  after_results_simp
  simp only [TRef.toBuf, TRef.ofBuf, cast_eq]
  unfold refH
  rfl

set_option maxRecDepth 8192 in
set_option maxHeartbeats 1000000 in
theorem s2_out (V : Valuation τ sig (Elt Ideal)) :
    after (((RefOps.ops (F := Ideal)).drop 42).take 31) V (Proc.devRef .tc main_v53 : DevRef τ sig)
      = refE2 (F := Ideal) (V (Proc.devRef .tc main_v30 : DevRef τ sig)) (V (Proc.devRef .tc main_arg3 : DevRef τ sig)) (V (Proc.devRef .tc main_arg7 : DevRef τ sig)) (V (Proc.devRef .tc main_arg8 : DevRef τ sig)) := by
  simp only [RefOps.ops, List.take_succ_cons, List.take_zero, List.drop_succ_cons, List.drop_zero]
  after_results_simp
  simp only [TRef.toBuf, TRef.ofBuf, cast_eq]
  unfold refE2
  rfl

set_option maxRecDepth 8192 in
set_option maxHeartbeats 1000000 in
theorem s3_out (V : Valuation τ sig (Elt Ideal)) :
    after (((RefOps.ops (F := Ideal)).drop 42).drop 31) V (Proc.devRef .tc main_v94 : DevRef τ sig)
      = refTail (F := Ideal) (V (Proc.devRef .tc main_v53 : DevRef τ sig)) (V (Proc.devRef .tc main_arg0 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  simp only [RefOps.ops, List.take_succ_cons, List.take_zero, List.drop_succ_cons, List.drop_zero]
  after_results_simp
  simp only [TRef.toBuf, TRef.ofBuf, cast_eq]
  unfold refTail
  rfl

/-- Folding over two stretches in a row is folding over the first, then over the second from there. -/
theorem after_concat (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The fold over the whole line is the fold over its three stretches in turn. -/
theorem after_split (V : Valuation τ sig (Elt Ideal)) :
    after (RefOps.ops (F := Ideal)) V
      = after (((RefOps.ops (F := Ideal)).drop 42).drop 31) (after (((RefOps.ops (F := Ideal)).drop 42).take 31)
          (after ((RefOps.ops (F := Ideal)).take 42) V)) := by
  rw [← after_concat, ← after_concat, List.take_append_drop, List.take_append_drop]

/-- The result buffer after the whole line: the third layer of the second of the first, each reading its arguments
    where the launch left them (no earlier stretch writes an argument). -/
theorem out_eq (V : Valuation τ sig (Elt Ideal)) :
    after (RefOps.ops (F := Ideal)) V (Proc.devRef .tc main_v94 : DevRef τ sig)
      = refTail (F := Ideal) (refE2 (F := Ideal) (refH (F := Ideal) (V (Proc.devRef .tc main_arg1 : DevRef τ sig)) (V (Proc.devRef .tc main_arg2 : DevRef τ sig)) (V (Proc.devRef .tc main_arg4 : DevRef τ sig)) (V (Proc.devRef .tc main_arg5 : DevRef τ sig)) (V (Proc.devRef .tc main_arg6 : DevRef τ sig)))
          (V (Proc.devRef .tc main_arg3 : DevRef τ sig)) (V (Proc.devRef .tc main_arg7 : DevRef τ sig)) (V (Proc.devRef .tc main_arg8 : DevRef τ sig)))
        (V (Proc.devRef .tc main_arg0 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  rw [after_split, s3_out, s2_out, s1_out,
    keep_mid un_main_arg0, keep_mid un_main_arg9, keep_mid un_main_arg10, keep_mid un_main_arg11, keep_mid un_main_arg12,
    keep_take un_main_arg0, keep_take un_main_arg9, keep_take un_main_arg10, keep_take un_main_arg11, keep_take un_main_arg12,
    keep_take un_main_arg3, keep_take un_main_arg7, keep_take un_main_arg8]

/-! ## The run -/

/-- On every device, from any memory with zero counters: every weakly fair execution of @main terminates with the
    result buffer at the three layers' composed term of the launch contents of the arguments, and every argument as
    launched: the straight line's run gives each buffer at the fold of the operations over the launch contents, and
    the fold is read back at the result and at each argument. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c =>
      ⟨(h c main_v94).trans (out_eq (launchContents m c)),
       (h c main_arg0).trans (keep_all un_main_arg0 (launchContents m c)),
       (h c main_arg1).trans (keep_all un_main_arg1 (launchContents m c)),
       (h c main_arg2).trans (keep_all un_main_arg2 (launchContents m c)),
       (h c main_arg3).trans (keep_all un_main_arg3 (launchContents m c)),
       (h c main_arg4).trans (keep_all un_main_arg4 (launchContents m c)),
       (h c main_arg5).trans (keep_all un_main_arg5 (launchContents m c)),
       (h c main_arg6).trans (keep_all un_main_arg6 (launchContents m c)),
       (h c main_arg7).trans (keep_all un_main_arg7 (launchContents m c)),
       (h c main_arg8).trans (keep_all un_main_arg8 (launchContents m c)),
       (h c main_arg9).trans (keep_all un_main_arg9 (launchContents m c)),
       (h c main_arg10).trans (keep_all un_main_arg10 (launchContents m c)),
       (h c main_arg11).trans (keep_all un_main_arg11 (launchContents m c)),
       (h c main_arg12).trans (keep_all un_main_arg12 (launchContents m c))⟩)
    (StableHlo.run_seq scopedRefs_eq scopedSems_eq (defs (F := Ideal)) (main (F := Ideal)) (fun _ => RefOps.ops (F := Ideal)) main_eq
      (fun _ => RefOps.ops_sub (F := Ideal)) m ρ)

end Cert.ReferenceIdeal.RefRun

end
-- ==== Proof.LibRows3.lean ====
/-
  General lemma: jnp's row take `x[idx]` of a table x : [N, C] at an index array idx : [B, M] read at an index.

  `Host.gather` with offset_dims [2], collapsed_slice_dims [0], start_index_map [0], index_vector_dim 2 and slice
  sizes [1, C], over an operand [N, C] and start indices [B, M, 1], reads at (b, n, c) the operand's row
  idx[b, n, 0] (read signed, clamped into [0, N − 1]) at column c.
-/
import Idealize.ShloMosaic.PureOps.Ideal
import Idealize.ShloMosaic.Lib.ValueIdx

noncomputable section

namespace Cert.Lib.Rows3

open Idealize.ShloMosaic Idealize.ShloMosaic.ValueIdx

/-- The dimension numbers of a row take at a rank-2 index array: operand [N, C], start indices [B, M, 1], result [B, M, C]. -/
abbrev gatherDims (N C B M : Nat)
    (wf : GatherDims.WF ⟨2, ![N, C]⟩ ⟨3, ![B, M, 1]⟩ ⟨3, ![B, M, C]⟩ [2] [0] [] [0] [] 2 ![1, C]) :
    GatherDims ⟨2, ![N, C]⟩ ⟨3, ![B, M, 1]⟩ ⟨3, ![B, M, C]⟩ where
  offsetDims := [2]
  collapsedSliceDims := [0]
  operandBatchingDims := []
  startIndicesBatchingDims := []
  startIndexMap := [0]
  indexVectorDim := 2
  sliceSizes := ![1, C]
  wf := wf

/-- THE ROW TAKE READ AT (b, n, c): the operand at row idx[b, n, 0], read signed and clamped into [0, N − 1], column c. -/
theorem gather_rows3_apply {α : Type} {N C B M w : Nat} (hN : 0 < N)
    (wf : GatherDims.WF ⟨2, ![N, C]⟩ ⟨3, ![B, M, 1]⟩ ⟨3, ![B, M, C]⟩ [2] [0] [] [0] [] 2 ![1, C])
    (x : (⟨2, ![N, C]⟩ : Shape).Idx → α) (idx : IVec ⟨3, ![B, M, 1]⟩ w) (b : Fin B) (n : Fin M) (c : Fin C) :
    Host.gather (gatherDims N C B M wf) x idx (ix3 b n c)
      = x (ix2 ⟨min (idx (ix3 b n (0 : Fin 1))).toInt.toNat (N - 1), by omega⟩ c) := by
  unfold Host.gather
  congr 1
  funext a
  refine Fin.ext ?_
  match a with
  | ⟨0, _⟩ =>
    -- the collapsed axis: the clamped start index; no batching coordinate and no offset coordinate
    show (gatherDims N C B M wf).start (ix3 b n c) idx 0 + (gatherDims N C B M wf).batchCoord (ix3 b n c) 0
      + (gatherDims N C B M wf).offCoord (ix3 b n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C B M wf).startIndexMap from List.mem_singleton.mpr rfl)]
    have hsi : (gatherDims N C B M wf).siIdx (ix3 b n c) ⟨List.idxOf (0 : Fin 2) (gatherDims N C B M wf).startIndexMap,
        List.idxOf_lt_length_iff.2 (List.mem_singleton.mpr rfl)⟩ = ix3 b n (0 : Fin 1) := by
      funext d; refine Fin.ext ?_
      match d with
      | ⟨0, _⟩ => rfl
      | ⟨1, _⟩ => rfl
      | ⟨2, _⟩ => rfl
    rw [hsi]
    rfl
  | ⟨1, _⟩ =>
    -- the offset axis: start 0, no batching coordinate, the result's column
    show (gatherDims N C B M wf).start (ix3 b n c) idx 1 + (gatherDims N C B M wf).batchCoord (ix3 b n c) 1
      + (gatherDims N C B M wf).offCoord (ix3 b n c) 1 = c.val
    rw [GatherDims.batchCoord_eq_zero _ _ _ List.not_mem_nil]
    have hst : (gatherDims N C B M wf).start (ix3 b n c) idx 1 = 0 := by
      unfold GatherDims.start
      rw [dif_neg (show (1 : Fin 2) ∉ (gatherDims N C B M wf).startIndexMap from by
        intro h; exact Nat.one_ne_zero (congrArg Fin.val (List.mem_singleton.mp h)))]
    have hoff : (gatherDims N C B M wf).offCoord (ix3 b n c) 1 = c.val := by
      unfold GatherDims.offCoord
      rw [dif_pos (show (1 : Fin 2) ∈ (gatherDims N C B M wf).sKept from
        (GatherDims.mem_sKept _ _).mpr ⟨fun h => Nat.one_ne_zero (congrArg Fin.val (List.mem_singleton.mp h)), List.not_mem_nil⟩)]
      rfl
    rw [hst, hoff]; simp

end Cert.Lib.Rows3

end
-- ==== Proof.RefRead1.lean ====
/- The reference's first layer read at an index: gathers of table rows, a sum over the eight neighbours, two products
   with the weight matrices, a clamp at zero, a sum over the sixteen internal nodes and a softmax. Moving the sum over
   the neighbours across the product with `M` is distributivity, which holds on the reals. -/
import proofs.«404633_j41051297415545_3_alg».proof.Proof.RefTerm
import proofs.«404633_j41051297415545_3_alg».proof.Proof.Spec
import Idealize.ShloMosaic.PureOps.Ideal.Laws
import Idealize.ShloMosaic.Lib.ValueIdx
import proofs.«404633_j41051297415545_3_alg».proof.Proof.LibRows3
import Idealize.ShloMosaic.Lib.IdealHost
import Idealize.ShloMosaic.Lib.StableHlo.Predicate

noncomputable section

open scoped BigOperators

namespace Cert.ReferenceIdeal.RefRead1

open Idealize.ShloMosaic Idealize.ShloMosaic.ValueIdx Cert.ReferenceIdeal Cert.ReferenceIdeal.RefTerm Cert.Spec

/-- An index word below 2³¹ is not negative, so the wrap of negative indices returns the word itself. -/
theorem wrap_eq {T : Shape} (hb : (⟨0, ![]⟩ : Shape).BroadcastsInDim T ![]) (N : BitVec 32) (a : IVec T 32)
    (h : ∀ i, (a i).toNat < 2 ^ 31) :
    select (cmpi .slt a (broadcastInDim T ![] hb (constantI ⟨0, ![]⟩ 32 0#32)))
      (addi a (broadcastInDim T ![] hb (constantI ⟨0, ![]⟩ 32 N))) a = a := by
  funext i
  show Scalar.select (IntOp.cmpi .slt (a i) (broadcastInDim T ![] hb (constantI ⟨0, ![]⟩ 32 0#32) i)) _ (a i) = a i
  rw [broadcastInDim_scalar_apply]
  have hne : IntOp.cmpi .slt (a i) (constantI ⟨0, ![]⟩ 32 0#32 ix0) ≠ 1#1 := by
    intro hc
    have := (StableHlo.Predicate.slt_iff_toNat (h i) (by decide)).mp hc
    exact Nat.not_lt_zero _ this
  unfold Scalar.select
  exact if_neg hne

/-- The take of table rows at a rank-2 index array, read at (n, k, d). -/
theorem gather3_apply (x : FVec Ideal S50000x128 .f32) (idx : IVec S10000x16x1 32) (n : Fin 10000) (k : Fin 16) (d : Fin 128) :
    Host.gather gather_S50000x128_S10000x16x1_S10000x16x128_2_0_n_n_0_2_1128 x idx (ix3 n k d)
      = x (ix2 (rowIx 50000 (by norm_num) (idx (ix3 n k (0 : Fin 1)))) d) :=
  Cert.Lib.Rows3.gather_rows3_apply (by norm_num) Facts₀.gather_S50000x128_S10000x16x1_S10000x16x128_2_0_n_n_0_2_1128_wf x idx n k d

/-- The dimension numbers of a row take at a rank-3 index array: operand [N, C], start indices [B, M, K, 1], result [B, M, K, C]. -/
abbrev gatherDims4 (N C B M K : Nat)
    (wf : GatherDims.WF ⟨2, ![N, C]⟩ ⟨4, ![B, M, K, 1]⟩ ⟨4, ![B, M, K, C]⟩ [3] [0] [] [0] [] 3 ![1, C]) :
    GatherDims ⟨2, ![N, C]⟩ ⟨4, ![B, M, K, 1]⟩ ⟨4, ![B, M, K, C]⟩ where
  offsetDims := [3]
  collapsedSliceDims := [0]
  operandBatchingDims := []
  startIndicesBatchingDims := []
  startIndexMap := [0]
  indexVectorDim := 3
  sliceSizes := ![1, C]
  wf := wf

/-- The row take at a rank-3 index array read at (b, n, k, c): the operand at row idx[b, n, k, 0], read signed and
    clamped into [0, N − 1], column c. -/
theorem gather_rows4_apply {α : Type} {N C B M K w : Nat} (hN : 0 < N)
    (wf : GatherDims.WF ⟨2, ![N, C]⟩ ⟨4, ![B, M, K, 1]⟩ ⟨4, ![B, M, K, C]⟩ [3] [0] [] [0] [] 3 ![1, C])
    (x : (⟨2, ![N, C]⟩ : Shape).Idx → α) (idx : IVec ⟨4, ![B, M, K, 1]⟩ w) (b : Fin B) (n : Fin M) (k : Fin K) (c : Fin C) :
    Host.gather (gatherDims4 N C B M K wf) x idx (ix4 b n k c)
      = x (ix2 ⟨min (idx (ix4 b n k (0 : Fin 1))).toInt.toNat (N - 1), by omega⟩ c) := by
  unfold Host.gather
  congr 1
  funext a
  refine Fin.ext ?_
  match a with
  | ⟨0, _⟩ =>
    -- the collapsed axis: the clamped start index, with no batching and no offset coordinate
    show (gatherDims4 N C B M K wf).start (ix4 b n k c) idx 0 + (gatherDims4 N C B M K wf).batchCoord (ix4 b n k c) 0
      + (gatherDims4 N C B M K wf).offCoord (ix4 b n k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims4 N C B M K wf).startIndexMap from List.mem_singleton.mpr rfl)]
    have hsi : (gatherDims4 N C B M K wf).siIdx (ix4 b n k c) ⟨List.idxOf (0 : Fin 2) (gatherDims4 N C B M K wf).startIndexMap,
        List.idxOf_lt_length_iff.2 (List.mem_singleton.mpr rfl)⟩ = ix4 b n k (0 : Fin 1) := by
      funext d; refine Fin.ext ?_
      match d with
      | ⟨0, _⟩ => rfl
      | ⟨1, _⟩ => rfl
      | ⟨2, _⟩ => rfl
      | ⟨3, _⟩ => rfl
    rw [hsi]
    rfl
  | ⟨1, _⟩ =>
    -- the offset axis: start 0, no batching coordinate, the result's column
    show (gatherDims4 N C B M K wf).start (ix4 b n k c) idx 1 + (gatherDims4 N C B M K wf).batchCoord (ix4 b n k c) 1
      + (gatherDims4 N C B M K wf).offCoord (ix4 b n k c) 1 = c.val
    rw [GatherDims.batchCoord_eq_zero _ _ _ List.not_mem_nil]
    have hst : (gatherDims4 N C B M K wf).start (ix4 b n k c) idx 1 = 0 := by
      unfold GatherDims.start
      rw [dif_neg (show (1 : Fin 2) ∉ (gatherDims4 N C B M K wf).startIndexMap from by
        intro h; exact Nat.one_ne_zero (congrArg Fin.val (List.mem_singleton.mp h)))]
    have hoff : (gatherDims4 N C B M K wf).offCoord (ix4 b n k c) 1 = c.val := by
      unfold GatherDims.offCoord
      rw [dif_pos (show (1 : Fin 2) ∈ (gatherDims4 N C B M K wf).sKept from
        (GatherDims.mem_sKept _ _).mpr ⟨fun h => Nat.one_ne_zero (congrArg Fin.val (List.mem_singleton.mp h)), List.not_mem_nil⟩)]
      rfl
    rw [hst, hoff]; simp

/-- The take of table rows at a rank-3 index array, read at (n, k, j, d). -/
theorem gather4_apply (x : FVec Ideal S50000x128 .f32) (idx : IVec S10000x16x8x1 32) (n : Fin 10000) (k : Fin 16) (j : Fin 8)
    (d : Fin 128) :
    Host.gather gather_S50000x128_S10000x16x8x1_S10000x16x8x128_3_0_n_n_0_3_1128 x idx (ix4 n k j d)
      = x (ix2 (rowIx 50000 (by norm_num) (idx (ix4 n k j (0 : Fin 1)))) d) :=
  gather_rows4_apply (by norm_num) Facts₀.gather_S50000x128_S10000x16x8x1_S10000x16x8x128_3_0_n_n_0_3_1128_wf x idx n k j d

/-- The zero word is the real number zero. -/
theorem zero_const : constant (F := Ideal) S_ .f32 0x00000000#32 (Shape.Idx.first Facts₀.h_S_) = (0 : EReal) := by
  show Ideal.ofBits .f32 0x00000000#32 = 0
  exact Ideal.ofBits_zero_f32

/-- The word of −∞ is the bottom of the extended reals. -/
theorem bot_word : Ideal.ofBits .f32 0xFF800000#32 = (⊥ : EReal) := by
  simp [Ideal.ofBits, Ideal.ieee]

/-- The sum over the eight neighbours (axis 2 of a rank-4 array), read at (n, k, d). -/
theorem sum8_apply (x : FVec Ideal S10000x16x8x128 .f32) (n : Fin 10000) (k : Fin 16) (d : Fin 128) :
    Host.reduceAdd x (constant (F := Ideal) S_ .f32 0x00000000#32) Facts₀.reducesTo_S10000x16x8x128_S10000x16x128_d2 Facts₀.h_S_ (ix3 n k d)
      = ∑ j : Fin 8, x (ix4 n k j d) := by
  have h' := Facts₀.reducesTo_S10000x16x8x128_S10000x16x128_d2
  have h : S10000x16x8x128.Reduces [2] S10000x16x128 := ⟨h'.1, by decide, h'.2⟩
  rw [hostReduceAdd_apply, Ideal.hostReduceAdd_single h' h, zero_const, zero_add]
  show ∑ j : Fin 8, x (h.lift (ix3 n k d) j) = _
  refine Finset.sum_congr rfl fun j _ => congrArg x (funext fun a => Fin.ext ?_)
  match a with
  | ⟨0, _⟩ => rfl
  | ⟨1, _⟩ => rfl
  | ⟨2, _⟩ => rfl
  | ⟨3, _⟩ => rfl

/-- The sum over the sixteen internal nodes (axis 1 of a rank-3 array), read at (n, q). -/
theorem sum16_apply (x : FVec Ideal S10000x16x128 .f32) (n : Fin 10000) (q : Fin 128) :
    Host.reduceAdd x (constant (F := Ideal) S_ .f32 0x00000000#32) Facts₀.reducesTo_S10000x16x128_S10000x128_d1 Facts₀.h_S_ (ix2 n q)
      = ∑ k : Fin 16, x (ix3 n k q) := by
  have h' := Facts₀.reducesTo_S10000x16x128_S10000x128_d1
  have h : S10000x16x128.Reduces [1] S10000x128 := ⟨h'.1, by decide, h'.2⟩
  rw [hostReduceAdd_apply, Ideal.hostReduceAdd_single h' h, zero_const, zero_add]
  show ∑ k : Fin 16, x (h.lift (ix2 n q) k) = _
  refine Finset.sum_congr rfl fun k _ => congrArg x (funext fun a => Fin.ext ?_)
  match a with
  | ⟨0, _⟩ => rfl
  | ⟨1, _⟩ => rfl
  | ⟨2, _⟩ => rfl

/-- The sum along a row (axis 1 of a rank-2 array), read at n. -/
theorem sum128_apply (x : FVec Ideal S10000x128 .f32) (n : Fin 10000) :
    Host.reduceAdd x (constant (F := Ideal) S_ .f32 0x00000000#32) Facts₀.reducesTo_S10000x128_S10000_d1 Facts₀.h_S_ (ix1 n)
      = ∑ q : Fin 128, x (ix2 n q) := by
  have h' := Facts₀.reducesTo_S10000x128_S10000_d1
  have h : S10000x128.Reduces [1] S10000 := ⟨h'.1, by decide, h'.2⟩
  rw [hostReduceAdd_apply, Ideal.hostReduceAdd_single h' h, zero_const, zero_add]
  show ∑ q : Fin 128, x (h.lift (ix1 n) q) = _
  refine Finset.sum_congr rfl fun q _ => congrArg x (funext fun a => Fin.ext ?_)
  match a with
  | ⟨0, _⟩ => rfl
  | ⟨1, _⟩ => rfl

/-- The largest entry of a row, from −∞ (a maximum along axis 1 of a rank-2 array), read at n. -/
theorem max128_apply (x : FVec Ideal S10000x128 .f32) (n : Fin 10000) :
    Host.reduce FloatOps.maximumf x (constant (F := Ideal) S_ .f32 0xFF800000#32) Facts₀.reducesTo_S10000x128_S10000_d1 Facts₀.h_S_ (ix1 n)
      = rowMax (fun q : Fin 128 => x (ix2 n q)) := by
  have h' := Facts₀.reducesTo_S10000x128_S10000_d1
  have h : S10000x128.Reduces [1] S10000 := ⟨h'.1, by decide, h'.2⟩
  rw [Host.reduce_eq_fold_single FloatOps.maximumf x _ h' h Facts₀.h_S_]
  have hf : (x ∘ h.lift (ix1 n)) = fun q : Fin 128 => x (ix2 n q) := by
    funext q
    refine congrArg x (funext fun a => Fin.ext ?_)
    match a with
    | ⟨0, _⟩ => rfl
    | ⟨1, _⟩ => rfl
  show (Finset.univ : Finset (Fin 128)).fold max (Ideal.ofBits .f32 0xFF800000#32) (x ∘ h.lift (ix1 n)) = _
  rw [hf, bot_word]
  rfl

/-- The product contracting the feature axis of a rank-3 array with the second axis of a weight matrix, read at (n, k, i). -/
theorem dot_apply (l : FVec Ideal S10000x16x128 .f32) (W : FVec Ideal S128x128 .f32) (n : Fin 10000) (k : Fin 16) (i : Fin 128) :
    Host.dotGeneral (F := Ideal) dot_S10000x16x128_S128x128_S10000x16x128_2_1_01_0_n_n none l W (ix3 n k i)
      = ∑ d : Fin 128, l (ix3 n k d) * W (ix2 i d) := by
  show FloatOps.dotGeneral _ none _ l W (ix3 n k i) = _
  rw [Ideal.dotGeneral_apply,
    ← Equiv.sum_comp (contrEquiv1 dot_S10000x16x128_S128x128_S10000x16x128_2_1_01_0_n_n 128 rfl rfl).symm]
  refine Finset.sum_congr rfl fun c _ => ?_
  have c3 := contrEquiv1_symm_val dot_S10000x16x128_S128x128_S10000x16x128_2_1_01_0_n_n 128 rfl rfl c
  have l3 : dot_S10000x16x128_S128x128_S10000x16x128_2_1_01_0_n_n.lhsIdx (ix3 n k i)
      ((contrEquiv1 dot_S10000x16x128_S128x128_S10000x16x128_2_1_01_0_n_n 128 rfl rfl).symm c) = ix3 n k c := by
    funext ax; apply Fin.ext
    match ax with
    | ⟨0, _⟩ => rfl
    | ⟨1, _⟩ => rfl
    | ⟨2, _⟩ =>
      exact (DotDims.lhsIdx_val_of_single dot_S10000x16x128_S128x128_S10000x16x128_2_1_01_0_n_n
        (cl := (2 : Fin 3)) rfl _ _).trans c3
  have r3 : dot_S10000x16x128_S128x128_S10000x16x128_2_1_01_0_n_n.rhsIdx (ix3 n k i)
      ((contrEquiv1 dot_S10000x16x128_S128x128_S10000x16x128_2_1_01_0_n_n 128 rfl rfl).symm c) = ix2 i c := by
    funext ax; apply Fin.ext
    match ax with
    | ⟨0, _⟩ => rfl
    | ⟨1, _⟩ =>
      exact (DotDims.rhsIdx_val_of_single dot_S10000x16x128_S128x128_S10000x16x128_2_1_01_0_n_n
        (cr := (1 : Fin 2)) rfl _ _).trans c3
  rw [l3, r3]

/-- A vector of row values spread along the rows (through a unit column), read at (n, q). -/
theorem keep_apply {α : Type} (v : S10000.Idx → α) (n : Fin 10000) (q : Fin 128) :
    broadcastInDim S10000x128 ![0, 1] Facts₀.bcast_S10000x1_S10000x128_0_1
      (broadcastInDim S10000x1 ![0] Facts₀.bcast_S10000_S10000x1_0 v) (ix2 n q) = v (ix1 n) := by
  unfold broadcastInDim
  refine congrArg v (funext fun a => Fin.ext ?_)
  match a with
  | ⟨0, _⟩ => rfl

/-- A rank-2 index array with a trailing unit axis, read at (n, k, 0). -/
theorem unit3_apply {α : Type} (v : S10000x16.Idx → α) (n : Fin 10000) (k : Fin 16) :
    broadcastInDim S10000x16x1 ![0, 1] Facts₀.bcast_S10000x16_S10000x16x1_0_1 v (ix3 n k (0 : Fin 1)) = v (ix2 n k) := by
  unfold broadcastInDim
  refine congrArg v (funext fun a => Fin.ext ?_)
  match a with
  | ⟨0, _⟩ => rfl
  | ⟨1, _⟩ => rfl

/-- A rank-3 index array with a trailing unit axis, read at (n, k, j, 0). -/
theorem unit4_apply {α : Type} (v : S10000x16x8.Idx → α) (n : Fin 10000) (k : Fin 16) (j : Fin 8) :
    broadcastInDim S10000x16x8x1 ![0, 1, 2] Facts₀.bcast_S10000x16x8_S10000x16x8x1_0_1_2 v (ix4 n k j (0 : Fin 1)) = v (ix3 n k j) := by
  unfold broadcastInDim
  refine congrArg v (funext fun a => Fin.ext ?_)
  match a with
  | ⟨0, _⟩ => rfl
  | ⟨1, _⟩ => rfl
  | ⟨2, _⟩ => rfl

/-- A table row taken at an index word of a rank-2 index array, read at (n, k, d). -/
theorem embRow (ids : IVec S10000x16 32) (E : FVec Ideal S50000x128 .f32) (n : Fin 10000) (k : Fin 16) (d : Fin 128) :
    Host.gather gather_S50000x128_S10000x16x1_S10000x16x128_2_0_n_n_0_2_1128 E
        (broadcastInDim S10000x16x1 ![0, 1] Facts₀.bcast_S10000x16_S10000x16x1_0_1 ids) (ix3 n k d)
      = E (ix2 (rowIx 50000 (by norm_num) (ids (ix2 n k))) d) := by
  rw [gather3_apply, unit3_apply]

/-- A table row taken at an index word of a rank-3 index array, read at (n, k, j, d). -/
theorem nbRow (nids : IVec S10000x16x8 32) (E : FVec Ideal S50000x128 .f32) (n : Fin 10000) (k : Fin 16) (j : Fin 8) (d : Fin 128) :
    Host.gather gather_S50000x128_S10000x16x8x1_S10000x16x8x128_3_0_n_n_0_3_1128 E
        (broadcastInDim S10000x16x8x1 ![0, 1, 2] Facts₀.bcast_S10000x16x8_S10000x16x8x1_0_1_2 nids) (ix4 n k j d)
      = E (ix2 (rowIx 50000 (by norm_num) (nids (ix3 n k j))) d) := by
  rw [gather4_apply, unit4_apply]

/-- The sum of the eight neighbours' table rows, read at (n, k, d). -/
theorem nbSum (nids : IVec S10000x16x8 32) (E : FVec Ideal S50000x128 .f32) (n : Fin 10000) (k : Fin 16) (d : Fin 128) :
    Host.reduceAdd (Host.gather gather_S50000x128_S10000x16x8x1_S10000x16x8x128_3_0_n_n_0_3_1128 E
        (broadcastInDim S10000x16x8x1 ![0, 1, 2] Facts₀.bcast_S10000x16x8_S10000x16x8x1_0_1_2 nids))
        (constant (F := Ideal) S_ .f32 0x00000000#32) Facts₀.reducesTo_S10000x16x8x128_S10000x16x128_d2 Facts₀.h_S_ (ix3 n k d)
      = ∑ j : Fin 8, E (ix2 (rowIx 50000 (by norm_num) (nids (ix3 n k j))) d) :=
  (sum8_apply _ n k d).trans (Finset.sum_congr rfl fun j _ => nbRow nids E n k j d)

/-- The clamp at zero of a sum of two arrays, read at (n, k, q). -/
theorem relu_apply (a b : FVec Ideal S10000x16x128 .f32) (n : Fin 10000) (k : Fin 16) (q : Fin 128) :
    maximumf (addf a b) (broadcastInDim S10000x16x128 ![] Facts₀.bcast_S_S10000x16x128 (constant (F := Ideal) S_ .f32 0x00000000#32))
        (ix3 n k q) = max (a (ix3 n k q) + b (ix3 n k q)) 0 := by
  rw [maximumf_apply, broadcastInDim_scalar_apply, addf_apply]
  exact congrArg (max _) Ideal.ofBits_zero_f32

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distributivity on the reals: multiplying a sum of rows by a column is the sum of the rows' products with it. -/
theorem sum_mul_comm_real {ι κ : Type} [Fintype ι] [Fintype κ] (x : κ → ι → ℝ) (m : ι → ℝ) :
    ∑ d, (∑ j, x j d) * m d = ∑ j, ∑ d, x j d * m d := by
  rw [Finset.sum_comm]
  exact Finset.sum_congr rfl fun d _ => Finset.sum_mul _ _ _

/-- The same on extended reals whose entries are all real. -/
theorem sum_mul_comm_ereal {ι κ : Type} [Fintype ι] [Fintype κ] (x : κ → ι → EReal) (m : ι → EReal)
    (hx : ∀ j d, ∃ r : ℝ, x j d = (r : EReal)) (hm : ∀ d, ∃ r : ℝ, m d = (r : EReal)) :
    ∑ d, (∑ j, x j d) * m d = ∑ j, ∑ d, x j d * m d := by
  choose xr hxr using hx
  choose mr hmr using hm
  have e1 : ∀ d, (∑ j, x j d) * m d = (((∑ j, xr j d) * mr d : ℝ) : EReal) := fun d => by
    rw [EReal.coe_mul, coe_sum, hmr d]
    exact congrArg (· * (mr d : EReal)) (Finset.sum_congr rfl fun j _ => hxr j d)
  have e2 : ∀ j, ∑ d, x j d * m d = ((∑ d, xr j d * mr d : ℝ) : EReal) := fun j => by
    rw [coe_sum]
    exact Finset.sum_congr rfl fun d _ => by rw [EReal.coe_mul, hxr j d, hmr d]
  rw [Finset.sum_congr rfl fun d _ => e1 d, Finset.sum_congr rfl fun j _ => e2 j, ← coe_sum, ← coe_sum,
    sum_mul_comm_real xr mr]

/-- The exponentials of a rank-2 array's entries less their row's largest entry, as the reference computes them:
    a maximum along the rows from −∞, once more against −∞, spread back along the rows and subtracted. -/
def expShift (x : FVec Ideal S10000x128 .f32) : FVec Ideal S10000x128 .f32 :=
  Host.exp (subf x (broadcastInDim S10000x128 ![0, 1] Facts₀.bcast_S10000x1_S10000x128_0_1
    (broadcastInDim S10000x1 ![0] Facts₀.bcast_S10000_S10000x1_0
      (maximumf (broadcastInDim S10000 ![] Facts₀.bcast_S_S10000 (constant (F := Ideal) S_ .f32 0xFF800000#32))
        (Host.reduce FloatOps.maximumf x (constant (F := Ideal) S_ .f32 0xFF800000#32)
          Facts₀.reducesTo_S10000x128_S10000_d1 Facts₀.h_S_)))))

theorem expShift_apply (x : FVec Ideal S10000x128 .f32) (n : Fin 10000) (q : Fin 128) :
    expShift x (ix2 n q) = Ideal.exp (x (ix2 n q) - rowMax (fun q' : Fin 128 => x (ix2 n q'))) := by
  have hm : (maximumf (broadcastInDim S10000 ![] Facts₀.bcast_S_S10000 (constant (F := Ideal) S_ .f32 0xFF800000#32))
        (Host.reduce FloatOps.maximumf x (constant (F := Ideal) S_ .f32 0xFF800000#32)
          Facts₀.reducesTo_S10000x128_S10000_d1 Facts₀.h_S_)) (ix1 n) = rowMax (fun q' : Fin 128 => x (ix2 n q')) := by
    rw [maximumf_apply, broadcastInDim_scalar_apply, max128_apply]
    show max (Ideal.ofBits .f32 0xFF800000#32) _ = _
    rw [bot_word]
    exact max_eq_right bot_le
  unfold expShift
  show Ideal.exp ((subf x _) (ix2 n q)) = _
  rw [subf_apply, keep_apply, hm]

/-- The softmax along the rows, as the reference computes it: the shifted exponentials over their row sums. -/
def softOp (x : FVec Ideal S10000x128 .f32) : FVec Ideal S10000x128 .f32 :=
  Host.divf (expShift x) (broadcastInDim S10000x128 ![0, 1] Facts₀.bcast_S10000x1_S10000x128_0_1
    (broadcastInDim S10000x1 ![0] Facts₀.bcast_S10000_S10000x1_0
      (Host.reduceAdd (expShift x) (constant (F := Ideal) S_ .f32 0x00000000#32)
        Facts₀.reducesTo_S10000x128_S10000_d1 Facts₀.h_S_)))

theorem softOp_apply (x : FVec Ideal S10000x128 .f32) (n : Fin 10000) (q : Fin 128) :
    softOp x (ix2 n q) = softmaxRow (fun q' : Fin 128 => x (ix2 n q')) q := by
  unfold softOp
  rw [hostDivf_apply, keep_apply, sum128_apply, expShift_apply]
  unfold softmaxRow
  exact congrArg _ (Finset.sum_congr rfl fun q' _ => expShift_apply x n q')

theorem refH_apply (ids : (⟨S10000x16, .i32⟩ : BufTy).Contents (Elt Ideal)) (nids : (⟨S10000x16x8, .i32⟩ : BufTy).Contents (Elt Ideal))
    (E : (⟨S50000x128, .f32⟩ : BufTy).Contents (Elt Ideal)) (W M : (⟨S128x128, .f32⟩ : BufTy).Contents (Elt Ideal))
    (finE : ∀ i, ∃ r : ℝ, E i = (r : EReal)) (finW : ∀ i, ∃ r : ℝ, W i = (r : EReal)) (finM : ∀ i, ∃ r : ℝ, M i = (r : EReal))
    (in1 : ∀ i, (ids i).toNat < 50000) (in2 : ∀ i, (nids i).toNat < 50000) (n : Fin 10000) (q : Fin 128) :
    refH (F := Ideal) ids nids E W M (ix2 n q)
      = hRow (mulT (cur2 E) (cur2 W)) (mulT (cur2 E) (cur2 M)) (cur2 ids) (cur3 nids) n q := by
  have h1 : ∀ i, (ids i).toNat < 2 ^ 31 := fun i => lt_trans (in1 i) (by norm_num)
  have h2 : ∀ i, (nids i).toNat < 2 ^ 31 := fun i => lt_trans (in2 i) (by norm_num)
  unfold refH
  dsimp only
  rw [wrap_eq Facts₀.bcast_S_S10000x16 50000#32 ids h1, wrap_eq Facts₀.bcast_S_S10000x16x8 50000#32 nids h2]
  -- the softmax along the features
  refine (softOp_apply _ n q).trans ?_
  unfold hRow
  refine congrArg (fun r => softmaxRow r q) (funext fun q' => ?_)
  -- the sum over the sixteen internal nodes
  refine (sum16_apply _ n q').trans ?_
  unfold rSum
  refine Finset.sum_congr rfl fun k _ => ?_
  -- the clamp at zero of the two products' sum
  refine (relu_apply _ _ n k q').trans ?_
  refine congrArg (fun t => max t (0 : EReal)) (congrArg₂ (· + ·) ?_ ?_)
  · -- the node's own row times the first weight matrix
    refine (dot_apply _ W n k q').trans ?_
    exact Finset.sum_congr rfl fun d _ => congrArg (· * W (ix2 q' d)) (embRow ids E n k d)
  · -- the sum over the neighbours moves across the product with the second weight matrix
    refine (dot_apply _ M n k q').trans ?_
    refine (Finset.sum_congr rfl fun d _ => congrArg (· * M (ix2 q' d)) (nbSum nids E n k d)).trans ?_
    exact sum_mul_comm_ereal (fun (j : Fin 8) (d : Fin 128) => E (ix2 (rowIx 50000 (by norm_num) (nids (ix3 n k j))) d))
      (fun d : Fin 128 => M (ix2 q' d)) (fun _ _ => finE _) (fun _ => finM _)

end Cert.ReferenceIdeal.RefRead1

end
-- ==== Proof.RefRead2.lean ====
/- The reference's second layer read at an index: a gather of rows of the first layer's result, a sum over the sixteen
   neighbours, two products with the weight matrices, a clamp at zero and a softmax. Moving the sum over the neighbours
   across the product with `V` is distributivity, which holds on the reals. -/
import proofs.«404633_j41051297415545_3_alg».proof.Proof.RefTerm
import proofs.«404633_j41051297415545_3_alg».proof.Proof.Spec
import Idealize.ShloMosaic.PureOps.Ideal.Laws
import Idealize.ShloMosaic.Lib.ValueIdx
import proofs.«404633_j41051297415545_3_alg».proof.Proof.LibRows3
import Idealize.ShloMosaic.Lib.IdealHost
import Idealize.ShloMosaic.Lib.Pipeline.Value
import Idealize.ShloMosaic.Lib.StableHlo.Predicate

noncomputable section

open scoped BigOperators

namespace Cert.ReferenceIdeal.RefRead2

open Idealize.ShloMosaic Idealize.ShloMosaic.ValueIdx Cert.ReferenceIdeal Cert.ReferenceIdeal.RefTerm Cert.Spec
open Cert.ReferenceIdeal.Facts₀

/-- A neighbour word inside the table is not negative as a signed integer, so the wrap of negative indices returns it. -/
theorem wrap_self (w : BitVec 32) (hw : w.toNat < 10000) :
    Scalar.select (IntOp.cmpi .slt w 0#32) (IntOp.addi w 10000#32) w = w := by
  have h0 : ¬ IntOp.cmpi .slt w 0#32 = 1#1 := by
    rw [StableHlo.Predicate.slt_iff_toNat (by omega) (by decide)]
    simp
  exact if_neg h0

/-- The start indices of the row take, read at (n, k, 0): the neighbour word itself. -/
theorem start_apply (ext : IVec S10000x16 32) (in3 : ∀ i, (ext i).toNat < 10000)
    (n : Fin 10000) (k : Fin 16) :
    (broadcastInDim S10000x16x1 ![0, 1] bcast_S10000x16_S10000x16x1_0_1
      (select (cmpi .slt ext (broadcastInDim S10000x16 ![] bcast_S_S10000x16 (constantI S_ 32 0#32)))
        (addi ext (broadcastInDim S10000x16 ![] bcast_S_S10000x16 (constantI S_ 32 10000#32))) ext)
      : IVec S10000x16x1 32) (ix3 n k (0 : Fin 1)) = ext (ix2 n k) := by
  rw [broadcastInDim_apply _ _ _ _ (ix2 n k) (by
    intro a; match a with
    | ⟨0, _⟩ => rfl
    | ⟨1, _⟩ => rfl)]
  rw [select_apply]
  show Scalar.select (IntOp.cmpi .slt (ext (ix2 n k)) _) (IntOp.addi (ext (ix2 n k)) _) (ext (ix2 n k)) = _
  rw [broadcastInDim_scalar_apply, broadcastInDim_scalar_apply]
  exact wrap_self _ (in3 _)

/-- The row take read at (n, k, c): the table's row named by the start index, column c. -/
theorem rows_apply (h : FVec Ideal S10000x128 .f32) (idx : IVec S10000x16x1 32)
    (n : Fin 10000) (k : Fin 16) (c : Fin 128) :
    Host.gather gather_S10000x128_S10000x16x1_S10000x16x128_2_0_n_n_0_2_1128 h idx (ix3 n k c)
      = h (ix2 (rowIx 10000 (by norm_num) (idx (ix3 n k (0 : Fin 1)))) c) :=
  Cert.Lib.Rows3.gather_rows3_apply (by norm_num) gather_S10000x128_S10000x16x1_S10000x16x128_2_0_n_n_0_2_1128_wf h idx n k c

/-- The sum over the sixteen neighbours read at (n, c). -/
theorem sum16_apply (x : FVec Ideal S10000x16x128 .f32) (n : Fin 10000) (c : Fin 128) :
    Host.reduceAdd (F := Ideal) x (constant (F := Ideal) S_ .f32 0x00000000#32) reducesTo_S10000x16x128_S10000x128_d1 h_S_ (ix2 n c)
      = ∑ k : Fin 16, x (ix3 n k c) := by
  rw [hostReduceAdd_apply, Ideal.hostReduceAdd_single _ (by decide : S10000x16x128.Reduces [1] S10000x128)]
  rw [constant_apply, Ideal.ofBits_zero_f32, zero_add]
  refine Finset.sum_congr rfl fun k _ => congrArg x ?_
  funext a
  match a with
  | ⟨0, _⟩ => rfl
  | ⟨1, _⟩ => rfl
  | ⟨2, _⟩ => rfl

/-! The products with the weight matrices: both operands are contracted on their second axis. -/

theorem dot_lhs_0 (j : S10000x128.Idx) (k : dot_S10000x128_S128x128_S10000x128_1_1_0_0_n_n.contr.Idx) :
    (dot_S10000x128_S128x128_S10000x128_1_1_0_0_n_n.lhsIdx j k 0).val = (j 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl

theorem dot_lhs_1 (j : S10000x128.Idx) (k : dot_S10000x128_S128x128_S10000x128_1_1_0_0_n_n.contr.Idx) :
    (dot_S10000x128_S128x128_S10000x128_1_1_0_0_n_n.lhsIdx j k 1).val = (k ⟨0, by decide⟩).val :=
  dot_S10000x128_S128x128_S10000x128_1_1_0_0_n_n.lhsIdx_val_of_single rfl j k

theorem dot_rhs_0 (j : S10000x128.Idx) (k : dot_S10000x128_S128x128_S10000x128_1_1_0_0_n_n.contr.Idx) :
    (dot_S10000x128_S128x128_S10000x128_1_1_0_0_n_n.rhsIdx j k 0).val = (j 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl

theorem dot_rhs_1 (j : S10000x128.Idx) (k : dot_S10000x128_S128x128_S10000x128_1_1_0_0_n_n.contr.Idx) :
    (dot_S10000x128_S128x128_S10000x128_1_1_0_0_n_n.rhsIdx j k 1).val = (k ⟨0, by decide⟩).val :=
  dot_S10000x128_S128x128_S10000x128_1_1_0_0_n_n.rhsIdx_val_of_single rfl j k

/-- The product read at (n, i): the sum over d of l[n, d] · r[i, d]. -/
theorem dot_apply (l : FVec Ideal S10000x128 .f32) (r : FVec Ideal S128x128 .f32)
    (n : Fin 10000) (i : Fin 128) :
    Host.dotGeneral (F := Ideal) dot_S10000x128_S128x128_S10000x128_1_1_0_0_n_n none l r (ix2 n i)
      = ∑ d : Fin 128, l (ix2 n d) * r (ix2 i d) := by
  show FloatOps.dotGeneral _ none _ l r (ix2 n i) = _
  rw [Ideal.dotGeneral_apply, ← Equiv.sum_comp (contrEquiv1 dot_S10000x128_S128x128_S10000x128_1_1_0_0_n_n 128 rfl rfl).symm]
  refine Finset.sum_congr rfl fun c _ => ?_
  have hk := contrEquiv1_symm_val dot_S10000x128_S128x128_S10000x128_1_1_0_0_n_n 128 rfl rfl c
  have hl : dot_S10000x128_S128x128_S10000x128_1_1_0_0_n_n.lhsIdx (ix2 n i) ((contrEquiv1 _ 128 rfl rfl).symm c) = ix2 n c := by
    funext ax; apply Fin.ext
    match ax with
    | ⟨0, _⟩ => exact dot_lhs_0 _ _
    | ⟨1, _⟩ => exact (dot_lhs_1 _ _).trans hk
  have hr : dot_S10000x128_S128x128_S10000x128_1_1_0_0_n_n.rhsIdx (ix2 n i) ((contrEquiv1 _ 128 rfl rfl).symm c) = ix2 i c := by
    funext ax; apply Fin.ext
    match ax with
    | ⟨0, _⟩ => exact dot_rhs_0 _ _
    | ⟨1, _⟩ => exact (dot_rhs_1 _ _).trans hk
  rw [hl, hr]

/-- The reduced index n with the feature q put back is (n, q). -/
theorem lift_row (h : S10000x128.Reduces [1] S10000) (n : Fin 10000) (q : Fin (S10000x128.size 1)) :
    h.lift (ix1 n) q = ix2 n (⟨q.val, q.isLt⟩ : Fin 128) := by
  funext c; apply Fin.ext
  match c with
  | ⟨0, _⟩ => rfl
  | ⟨1, _⟩ => rfl

/-- The largest entry of row n, from −∞. -/
theorem max128_apply (x : FVec Ideal S10000x128 .f32) (n : Fin 10000) :
    Host.reduce FloatOps.maximumf x (constant (F := Ideal) S_ .f32 0xFF800000#32) reducesTo_S10000x128_S10000_d1 h_S_ (ix1 n)
      = rowMax (fun q : Fin 128 => x (ix2 n q)) := by
  rw [Host.reduce_eq_fold_single FloatOps.maximumf x _ reducesTo_S10000x128_S10000_d1 (by decide : S10000x128.Reduces [1] S10000) h_S_]
  have hb : Ideal.ofBits .f32 0xFF800000#32 = (⊥ : EReal) := by simp [Ideal.ofBits, Ideal.ieee]
  have hf : (x ∘ (by decide : S10000x128.Reduces [1] S10000).lift (ix1 n)) = fun q : Fin 128 => x (ix2 n q) :=
    funext fun q => congrArg x (lift_row _ n q)
  unfold rowMax
  rw [← hb]
  exact congrArg (fun f => Finset.fold max (Ideal.ofBits .f32 0xFF800000#32) f (Finset.univ : Finset (Fin 128))) hf

/-- The sum of row n. -/
theorem sum128_apply (x : FVec Ideal S10000x128 .f32) (n : Fin 10000) :
    Host.reduceAdd (F := Ideal) x (constant (F := Ideal) S_ .f32 0x00000000#32) reducesTo_S10000x128_S10000_d1 h_S_ (ix1 n)
      = ∑ q : Fin 128, x (ix2 n q) := by
  rw [hostReduceAdd_apply, Ideal.hostReduceAdd_single _ (by decide : S10000x128.Reduces [1] S10000)]
  rw [constant_apply, Ideal.ofBits_zero_f32, zero_add]
  exact Finset.sum_congr rfl fun q _ => congrArg x (lift_row _ n q)

/-- A column of row values spread over the features reads the row's value. -/
theorem spread_apply (v : FVec Ideal S10000 .f32) (n : Fin 10000) (q : Fin 128) :
    broadcastInDim S10000x128 ![0, 1] bcast_S10000x1_S10000x128_0_1 (broadcastInDim S10000x1 ![0] bcast_S10000_S10000x1_0 v) (ix2 n q)
      = v (ix1 n) := by
  rw [broadcastInDim_apply _ _ _ _ (ix2 n (0 : Fin 1)) (by
    intro a; match a with
    | ⟨0, _⟩ => rfl
    | ⟨1, _⟩ => rfl)]
  rw [broadcastInDim_apply _ _ _ _ (ix1 n) (by
    intro a; match a with
    | ⟨0, _⟩ => rfl)]

/-! Distributivity over the neighbours: the sum of the rows times the matrix is the sum of the rows' products. -/

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: Σ_d (Σ_j a j d) · m d = Σ_j Σ_d a j d · m d. -/
theorem sum_rows_mul_real {J D : Type*} [Fintype J] [Fintype D] (a : J → D → ℝ) (m : D → ℝ) :
    ∑ d, (∑ j, a j d) * m d = ∑ j, ∑ d, a j d * m d := by
  simp_rw [Finset.sum_mul]
  exact Finset.sum_comm

/-- The same for extended reals whose entries are all real. -/
theorem sum_rows_mul {J D : Type*} [Fintype J] [Fintype D] (x : J → D → EReal) (M : D → EReal)
    (hx : ∀ j d, ∃ r : ℝ, x j d = (r : EReal)) (hM : ∀ d, ∃ r : ℝ, M d = (r : EReal)) :
    ∑ d, (∑ j, x j d) * M d = ∑ j, ∑ d, x j d * M d := by
  choose a ha using hx
  choose m hm using hM
  simp only [ha, hm]
  simp only [← coe_sum, ← EReal.coe_mul]
  rw [sum_rows_mul_real]

/-- The softmax along the features, read at (n, q). -/
theorem softmax_apply (x : FVec Ideal S10000x128 .f32) (n : Fin 10000) (q : Fin 128) :
    Host.divf
      (Host.exp (subf x (broadcastInDim S10000x128 ![0, 1] bcast_S10000x1_S10000x128_0_1 (broadcastInDim S10000x1 ![0] bcast_S10000_S10000x1_0
        (maximumf (broadcastInDim S10000 ![] bcast_S_S10000 (constant (F := Ideal) S_ .f32 0xFF800000#32))
          (Host.reduce FloatOps.maximumf x (constant (F := Ideal) S_ .f32 0xFF800000#32) reducesTo_S10000x128_S10000_d1 h_S_))))))
      (broadcastInDim S10000x128 ![0, 1] bcast_S10000x1_S10000x128_0_1 (broadcastInDim S10000x1 ![0] bcast_S10000_S10000x1_0
        (Host.reduceAdd (F := Ideal)
          (Host.exp (subf x (broadcastInDim S10000x128 ![0, 1] bcast_S10000x1_S10000x128_0_1 (broadcastInDim S10000x1 ![0] bcast_S10000_S10000x1_0
            (maximumf (broadcastInDim S10000 ![] bcast_S_S10000 (constant (F := Ideal) S_ .f32 0xFF800000#32))
              (Host.reduce FloatOps.maximumf x (constant (F := Ideal) S_ .f32 0xFF800000#32) reducesTo_S10000x128_S10000_d1 h_S_))))))
          (constant (F := Ideal) S_ .f32 0x00000000#32) reducesTo_S10000x128_S10000_d1 h_S_)))
      (ix2 n q)
      = softmaxRow (fun q' : Fin 128 => x (ix2 n q')) q := by
  have hb : Ideal.ofBits .f32 0xFF800000#32 = (⊥ : EReal) := by simp [Ideal.ofBits, Ideal.ieee]
  have hm : ∀ q' : Fin 128,
      (broadcastInDim S10000x128 ![0, 1] bcast_S10000x1_S10000x128_0_1 (broadcastInDim S10000x1 ![0] bcast_S10000_S10000x1_0
        (maximumf (broadcastInDim S10000 ![] bcast_S_S10000 (constant (F := Ideal) S_ .f32 0xFF800000#32))
          (Host.reduce FloatOps.maximumf x (constant (F := Ideal) S_ .f32 0xFF800000#32) reducesTo_S10000x128_S10000_d1 h_S_))))
        (ix2 n q') = rowMax (fun q' : Fin 128 => x (ix2 n q')) := by
    intro q'
    rw [spread_apply, maximumf_apply, broadcastInDim_scalar_apply, constant_apply, max128_apply, hb]
    exact max_eq_right bot_le
  have he : ∀ q' : Fin 128,
      (Host.exp (subf x (broadcastInDim S10000x128 ![0, 1] bcast_S10000x1_S10000x128_0_1 (broadcastInDim S10000x1 ![0] bcast_S10000_S10000x1_0
        (maximumf (broadcastInDim S10000 ![] bcast_S_S10000 (constant (F := Ideal) S_ .f32 0xFF800000#32))
          (Host.reduce FloatOps.maximumf x (constant (F := Ideal) S_ .f32 0xFF800000#32) reducesTo_S10000x128_S10000_d1 h_S_))))))
        (ix2 n q') = Ideal.exp (x (ix2 n q') - rowMax (fun q' : Fin 128 => x (ix2 n q'))) := by
    intro q'
    show FloatOps.hostUnary .exp (subf x _ (ix2 n q')) = _
    rw [Ideal.hostUnary_exp_def, subf_apply, hm q']
  rw [hostDivf_apply, he q, spread_apply, sum128_apply]
  simp only [he]
  rfl

/-- The sum over the neighbours of the gathered rows, read at (n, d). -/
theorem nbrsum_apply (h : FVec Ideal S10000x128 .f32) (ext : IVec S10000x16 32) (in3 : ∀ i, (ext i).toNat < 10000)
    (n : Fin 10000) (d : Fin 128) :
    Host.reduceAdd (F := Ideal)
      (Host.gather gather_S10000x128_S10000x16x1_S10000x16x128_2_0_n_n_0_2_1128 h
        (broadcastInDim S10000x16x1 ![0, 1] bcast_S10000x16_S10000x16x1_0_1
          (select (cmpi .slt ext (broadcastInDim S10000x16 ![] bcast_S_S10000x16 (constantI S_ 32 0#32)))
            (addi ext (broadcastInDim S10000x16 ![] bcast_S_S10000x16 (constantI S_ 32 10000#32))) ext)))
      (constant (F := Ideal) S_ .f32 0x00000000#32) reducesTo_S10000x16x128_S10000x128_d1 h_S_ (ix2 n d)
      = ∑ k : Fin 16, h (ix2 (rowIx 10000 (by norm_num) (ext (ix2 n k))) d) := by
  refine (sum16_apply _ n d).trans (Finset.sum_congr rfl fun k _ => ?_)
  refine (rows_apply _ _ n k d).trans ?_
  exact congrArg (fun w => h (ix2 (rowIx 10000 (by norm_num) w) d)) (start_apply ext in3 n k)

/-- The second layer before its softmax, read at (n, q). -/
theorem pre_apply (h : FVec Ideal S10000x128 .f32) (ext : IVec S10000x16 32) (U V : FVec Ideal S128x128 .f32)
    (finh : ∀ i, ∃ r : ℝ, h i = (r : EReal)) (finV : ∀ i, ∃ r : ℝ, V i = (r : EReal))
    (in3 : ∀ i, (ext i).toNat < 10000) (n : Fin 10000) (q : Fin 128) :
    (maximumf
      (addf (Host.dotGeneral (F := Ideal) dot_S10000x128_S128x128_S10000x128_1_1_0_0_n_n none h U)
        (Host.dotGeneral (F := Ideal) dot_S10000x128_S128x128_S10000x128_1_1_0_0_n_n none
          (Host.reduceAdd (F := Ideal)
            (Host.gather gather_S10000x128_S10000x16x1_S10000x16x128_2_0_n_n_0_2_1128 h
              (broadcastInDim S10000x16x1 ![0, 1] bcast_S10000x16_S10000x16x1_0_1
                (select (cmpi .slt ext (broadcastInDim S10000x16 ![] bcast_S_S10000x16 (constantI S_ 32 0#32)))
                  (addi ext (broadcastInDim S10000x16 ![] bcast_S_S10000x16 (constantI S_ 32 10000#32))) ext)))
            (constant (F := Ideal) S_ .f32 0x00000000#32) reducesTo_S10000x16x128_S10000x128_d1 h_S_) V))
      (broadcastInDim S10000x128 ![] bcast_S_S10000x128 (constant (F := Ideal) S_ .f32 0x00000000#32))
      : FVec Ideal S10000x128 .f32) (ix2 n q)
      = ePre (mulT (cur2 h) (cur2 U)) (mulT (cur2 h) (cur2 V)) (cur2 ext) n q := by
  rw [maximumf_apply, addf_apply, broadcastInDim_scalar_apply, constant_apply, Ideal.ofBits_zero_f32, dot_apply, dot_apply]
  simp only [nbrsum_apply h ext in3]
  rw [sum_rows_mul (fun (k : Fin 16) (d : Fin 128) => h (ix2 (rowIx 10000 (by norm_num) (ext (ix2 n k))) d))
    (fun d : Fin 128 => V (ix2 q d)) (fun k d => finh _) (fun d => finV _)]
  rfl

theorem refE2_apply (h : (⟨S10000x128, .f32⟩ : BufTy).Contents (Elt Ideal)) (ext : (⟨S10000x16, .i32⟩ : BufTy).Contents (Elt Ideal)) (U V : (⟨S128x128, .f32⟩ : BufTy).Contents (Elt Ideal))
    (finh : ∀ i, ∃ r : ℝ, h i = (r : EReal)) (finU : ∀ i, ∃ r : ℝ, U i = (r : EReal)) (finV : ∀ i, ∃ r : ℝ, V i = (r : EReal))
    (in3 : ∀ i, (ext i).toNat < 10000) (n : Fin 10000) (q : Fin 128) :
    refE2 (F := Ideal) h ext U V (ix2 n q)
      = eRow (mulT (cur2 h) (cur2 U)) (mulT (cur2 h) (cur2 V)) (cur2 ext) n q := by
  unfold refE2
  dsimp only
  refine (softmax_apply _ n q).trans ?_
  unfold eRow
  exact congrArg (fun r => softmaxRow r q) (funext fun q' => pre_apply h ext U V finh finV in3 n q')

end Cert.ReferenceIdeal.RefRead2

end
-- ==== Proof.SpecLemmas.lean ====
/- Finiteness through the specification: a product of real matrices is real, and a softmax of a real row is real
   (its exponentials are positive reals, so is their sum). -/
import proofs.«404633_j41051297415545_3_alg».proof.Proof.Spec

noncomputable section

open scoped BigOperators

namespace Cert.Spec

open Idealize.ShloMosaic

/-- The coercion of the reals commutes with the maximum of two. -/
private theorem coe_max_real (a b : ℝ) : ((max a b : ℝ) : EReal) = max (a : EReal) (b : EReal) :=
  EReal.coe_strictMono.monotone.map_max

/-- The coercion of the reals commutes with finite sums. -/
private theorem coe_sum_real {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
private theorem exists_real_sum {ι : Type} [Fintype ι] (f : ι → EReal) (h : ∀ i, ∃ r : ℝ, f i = (r : EReal)) :
    ∃ r : ℝ, ∑ i, f i = (r : EReal) := by
  choose g hg using h
  exact ⟨∑ i, g i, by rw [← coe_sum_real]; exact Finset.sum_congr rfl (fun i _ => hg i)⟩

/-- The running maximum of real entries from the bottom element is the bottom element over the empty set
    and a real over any other. -/
private theorem fold_max_real {ι : Type} (s : Finset ι) (r : ι → EReal) (h : ∀ i, ∃ t : ℝ, r i = (t : EReal)) :
    s = ∅ ∨ ∃ m : ℝ, s.fold max ⊥ r = (m : EReal) := by
  classical
  induction s using Finset.induction_on with
  | empty => exact Or.inl rfl
  | insert a s ha ih =>
    right
    obtain ⟨t, ht⟩ := h a
    rw [Finset.fold_insert ha, ht]
    rcases ih with h0 | ⟨m, hm⟩
    · subst h0
      exact ⟨t, by simp⟩
    · rw [hm]
      exact ⟨max t m, (coe_max_real t m).symm⟩

/-- The largest entry of a non-empty real row is a real. -/
private theorem exists_real_rowMax {n : ℕ} (hn : 0 < n) (r : Fin n → EReal) (h : ∀ i, ∃ t : ℝ, r i = (t : EReal)) :
    ∃ m : ℝ, rowMax r = (m : EReal) := by
  rcases fold_max_real Finset.univ r h with h0 | hm
  · exact absurd (Finset.mem_univ (⟨0, hn⟩ : Fin n)) (by rw [h0]; exact Finset.notMem_empty _)
  · exact hm

/-- The softmax of a non-empty real row is real: the exponentials are positive reals, so their sum is a
    positive real, and a real divided by a non-zero real is a real. -/
private theorem exists_real_softmaxRow {n : ℕ} (hn : 0 < n) (r : Fin n → EReal) (h : ∀ i, ∃ t : ℝ, r i = (t : EReal))
    (i : Fin n) : ∃ t : ℝ, softmaxRow r i = (t : EReal) := by
  obtain ⟨m, hm⟩ := exists_real_rowMax hn r h
  choose g hg using h
  have hexp : ∀ j, Ideal.exp (r j - rowMax r) = ((Real.exp (g j - m) : ℝ) : EReal) := by
    intro j
    rw [hg j, hm, ← EReal.coe_sub, Ideal.exp_coe]
  have hsum : (∑ j : Fin n, Ideal.exp (r j - rowMax r)) = ((∑ j : Fin n, Real.exp (g j - m) : ℝ) : EReal) := by
    rw [← coe_sum_real]
    exact Finset.sum_congr rfl (fun j _ => hexp j)
  have hpos : (0 : ℝ) < ∑ j : Fin n, Real.exp (g j - m) :=
    Finset.sum_pos (fun j _ => Real.exp_pos _) ⟨⟨0, hn⟩, Finset.mem_univ _⟩
  unfold softmaxRow
  rw [hsum, hexp i, Ideal.div_coe (ne_of_gt hpos), ← EReal.coe_mul]
  exact ⟨_, rfl⟩

theorem mulT_finite {a : ℕ} (x : Fin a → Fin 128 → EReal) (W : Fin 128 → Fin 128 → EReal)
    (hx : Finite2 x) (hW : Finite2 W) : Finite2 (mulT x W) := by
  intro p q
  unfold mulT
  refine exists_real_sum _ (fun d => ?_)
  obtain ⟨u, hu⟩ := hx p d
  obtain ⟨v, hv⟩ := hW q d
  exact ⟨u * v, by rw [hu, hv, EReal.coe_mul]⟩

/-- Layer one before its softmax is real on real tables. -/
private theorem rSum_finite (EW EM : Fin 50000 → Fin 128 → EReal) (ids : Fin 10000 → Fin 16 → BitVec 32)
    (nids : Fin 10000 → Fin 16 → Fin 8 → BitVec 32) (h1 : Finite2 EW) (h2 : Finite2 EM) :
    Finite2 (rSum EW EM ids nids) := by
  intro n q
  unfold rSum
  refine exists_real_sum _ (fun k => ?_)
  obtain ⟨u, hu⟩ := h1 (rowIx 50000 (by norm_num) (ids n k)) q
  obtain ⟨v, hv⟩ := exists_real_sum (fun j : Fin 8 => EM (rowIx 50000 (by norm_num) (nids n k j)) q)
    (fun j => h2 _ q)
  refine ⟨max (u + v) 0, ?_⟩
  rw [hu, hv, ← EReal.coe_add, ← EReal.coe_zero, ← coe_max_real]

theorem hRow_finite (EW EM : Fin 50000 → Fin 128 → EReal) (ids : Fin 10000 → Fin 16 → BitVec 32)
    (nids : Fin 10000 → Fin 16 → Fin 8 → BitVec 32) (h1 : Finite2 EW) (h2 : Finite2 EM) :
    Finite2 (hRow EW EM ids nids) := by
  intro n q
  unfold hRow
  exact exists_real_softmaxRow (by norm_num) _ (fun i => rSum_finite EW EM ids nids h1 h2 n i) q

end Cert.Spec

end
-- ==== Proof.RefValue.lean ====
/- The reference's two layers, composed, are the specification's two layers of the arguments. -/
import proofs.«404633_j41051297415545_3_alg».proof.Proof.RefRead1
import proofs.«404633_j41051297415545_3_alg».proof.Proof.RefRead2
import proofs.«404633_j41051297415545_3_alg».proof.Proof.SpecLemmas

noncomputable section

open scoped BigOperators

namespace Cert.ReferenceIdeal.RefValue

open Idealize.ShloMosaic Idealize.ShloMosaic.ValueIdx Cert.ReferenceIdeal Cert.ReferenceIdeal.RefTerm Cert.Spec

/-- Real entries of an array are real entries of its reading by coordinates. -/
theorem finite2_cur2 {a b : ℕ} (x : (⟨2, ![a, b]⟩ : Shape).Idx → EReal) (h : ∀ i, ∃ r : ℝ, x i = (r : EReal)) :
    Finite2 (cur2 x) := fun p q => h (ix2 p q)

theorem layers (ids : (⟨S10000x16, .i32⟩ : BufTy).Contents (Elt Ideal)) (nids : (⟨S10000x16x8, .i32⟩ : BufTy).Contents (Elt Ideal)) (ext : (⟨S10000x16, .i32⟩ : BufTy).Contents (Elt Ideal))
    (E : (⟨S50000x128, .f32⟩ : BufTy).Contents (Elt Ideal)) (W M U V : (⟨S128x128, .f32⟩ : BufTy).Contents (Elt Ideal))
    (finE : ∀ i, ∃ r : ℝ, E i = (r : EReal)) (finW : ∀ i, ∃ r : ℝ, W i = (r : EReal)) (finM : ∀ i, ∃ r : ℝ, M i = (r : EReal))
    (finU : ∀ i, ∃ r : ℝ, U i = (r : EReal)) (finV : ∀ i, ∃ r : ℝ, V i = (r : EReal))
    (in1 : ∀ i, (ids i).toNat < 50000) (in2 : ∀ i, (nids i).toNat < 50000) (in3 : ∀ i, (ext i).toNat < 10000) :
    refE2 (F := Ideal) (refH (F := Ideal) ids nids E W M) ext U V
      = uncur2 (eAll (cur2 E) (cur2 W) (cur2 M) (cur2 U) (cur2 V) (cur2 ids) (cur3 nids) (cur2 ext)) := by
  have hh : cur2 (refH (F := Ideal) ids nids E W M)
      = hRow (mulT (cur2 E) (cur2 W)) (mulT (cur2 E) (cur2 M)) (cur2 ids) (cur3 nids) := by
    funext n q; exact RefRead1.refH_apply ids nids E W M finE finW finM in1 in2 n q
  have hfin : Finite2 (hRow (mulT (cur2 E) (cur2 W)) (mulT (cur2 E) (cur2 M)) (cur2 ids) (cur3 nids)) :=
    hRow_finite _ _ _ _ (mulT_finite _ _ (finite2_cur2 E finE) (finite2_cur2 W finW))
      (mulT_finite _ _ (finite2_cur2 E finE) (finite2_cur2 M finM))
  have finh : ∀ i, ∃ r : ℝ, refH (F := Ideal) ids nids E W M i = (r : EReal) := by
    intro i
    obtain ⟨n, q, rfl⟩ : ∃ (n : Fin 10000) (q : Fin 128), i = ix2 n q := ⟨i 0, i 1, eq_ix2 i⟩
    have := hfin n q
    rw [← hh] at this
    exact this
  funext i
  obtain ⟨n, q, rfl⟩ : ∃ (n : Fin 10000) (q : Fin 128), i = ix2 n q := ⟨i 0, i 1, eq_ix2 i⟩
  refine (RefRead2.refE2_apply _ ext U V finh finU finV in3 n q).trans ?_
  rw [hh]
  rfl

end Cert.ReferenceIdeal.RefValue

end
-- ==== Proof.TailEq.lean ====
/- The two programs close with the same operations: the reference's closing stage and the kernel program's host
   operations after its second region are one function of the second layer's result and the arguments. -/
import proofs.«404633_j41051297415545_3_alg».proof.Proof.Tail
import proofs.«404633_j41051297415545_3_alg».proof.Proof.RefTerm

noncomputable section

namespace Cert.TailEq

open Idealize.ShloMosaic

attribute [local irreducible] Host.gather Host.reduce Host.reduceAdd concatenate in
theorem refTail_eq (e : (⟨Cert.ReferenceIdeal.S10000x128, .f32⟩ : BufTy).Contents (Elt Ideal)) (batch : (⟨Cert.ReferenceIdeal.S2048x2, .i32⟩ : BufTy).Contents (Elt Ideal)) (W1 : (⟨Cert.ReferenceIdeal.S128x256, .f32⟩ : BufTy).Contents (Elt Ideal))
    (b1 : (⟨Cert.ReferenceIdeal.S128, .f32⟩ : BufTy).Contents (Elt Ideal)) (W2 : (⟨Cert.ReferenceIdeal.S2x128, .f32⟩ : BufTy).Contents (Elt Ideal)) (b2 : (⟨Cert.ReferenceIdeal.S2, .f32⟩ : BufTy).Contents (Elt Ideal)) :
    Cert.ReferenceIdeal.RefTerm.refTail (F := Ideal) e batch W1 b1 W2 b2
      = Cert.KernelIdeal.Tail.tail (F := Ideal) e batch W1 b1 W2 b2 := by
  unfold Cert.ReferenceIdeal.RefTerm.refTail Cert.KernelIdeal.Tail.tail
  rfl

end Cert.TailEq

end
-- ==== Proof.PreFacts.lean ====
/- What the precondition says of the arguments: every entry of the five float inputs that the two layers read is a real
   number, and every index word lies inside the table it indexes. -/
import proofs.«404633_j41051297415545_3_alg».proof.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

variable [Cert.Pre_finite_inputs.Facts]

/-- The domain the two layers need. -/
structure Dom (a1 : IVec S10000x16 32) (a2 : IVec S10000x16x8 32) (a3 : IVec S10000x16 32)
    (E : FVec Ideal S50000x128 .f32) (W M U V : FVec Ideal S128x128 .f32) : Prop where
  finE : ∀ i, ∃ r : ℝ, E i = (r : EReal)
  finW : ∀ i, ∃ r : ℝ, W i = (r : EReal)
  finM : ∀ i, ∃ r : ℝ, M i = (r : EReal)
  finU : ∀ i, ∃ r : ℝ, U i = (r : EReal)
  finV : ∀ i, ∃ r : ℝ, V i = (r : EReal)
  in1 : ∀ i, (a1 i).toNat < 50000
  in2 : ∀ i, (a2 i).toNat < 50000
  in3 : ∀ i, (a3 i).toNat < 10000

/-- The result shape of a reduction over all axes has no axis, hence one index. -/
theorem idx_eq (a b : S_.Idx) : a = b := funext fun d => d.elim0

/-- An extended real whose absolute value lies below +∞ is a real number. -/
theorem real_of_abs_lt (x : EReal)
    (e : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  unfold Ideal.cmp at e'
  rw [StableHlo.Predicate.ofBool_eq_one_iff, decide_eq_true_eq, max_lt_iff] at e'
  induction x using EReal.rec with
  | bot => exact absurd e'.2 (by simp)
  | coe r => exact ⟨r, rfl⟩
  | top => exact absurd e'.1 (by simp)

/-- All-of a finiteness check: when the conjunction over every entry of "|x| < +∞" is true, every entry is real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  real_of_abs_lt (x i) (Host.reduce_andi_eq_one _ _ hr hu j e i (idx_eq _ _))

/-- A 32-bit word that is at least 0 and below N as a signed number, N below 2³¹, is below N as a natural number. -/
theorem toNat_lt_of_signed (w : BitVec 32) (N : Nat) (hN : N < 2 ^ 31) (h0 : IntOp.cmpi .sge w 0#32 = 1#1)
    (h1 : IntOp.cmpi .slt w (BitVec.ofNat 32 N) = 1#1) : w.toNat < N := by
  unfold IntOp.cmpi at h0 h1
  rw [StableHlo.Predicate.ofBool_eq_one_iff] at h0 h1
  simp only [BitVec.slt, BitVec.sle, decide_eq_true_eq] at h0 h1
  rw [StableHlo.Predicate.toInt_ofNat_small N hN] at h1
  have z : (0#32 : BitVec 32).toInt = 0 := by decide
  rw [z] at h0
  have h32 := w.isLt
  rw [BitVec.toInt_eq_toNat_cond] at h0 h1
  split at h0 <;> omega

/-- All-of a two-sided range check: when the conjunction over every word of "0 ≤ w ∧ w < N" is true, every word is below N. -/
theorem range_of_all {s : Shape} {axes : List (Fin s.rank)} (a : IVec s 32) (N : Nat) (hN : N < 2 ^ 31)
    (hb : S_.BroadcastsInDim s (![] : Fin 0 → Fin s.rank)) (hr : s.ReducesTo axes S_) (hu : 0 < S_.numel) (j : S_.Idx)
    (e : Host.reduce IntOp.andi
      (andi (cmpi .sge a (broadcastInDim s ![] hb (constantI S_ 32 0#32)))
        (cmpi .slt a (broadcastInDim s ![] hb (constantI S_ 32 (BitVec.ofNat 32 N)))))
      (constantI S_ 1 1#1) hr hu j = 1#1) (i : s.Idx) : (a i).toNat < N := by
  have h := Host.reduce_andi_eq_one _ _ hr hu j e i (idx_eq _ _)
  obtain ⟨h0, h1⟩ := IntOp.andi_eq_one.1 h
  exact toNat_lt_of_signed (a i) N hN h0 h1

/-- A conjunction of two truth values at the one index is true exactly when both are. -/
theorem andi_one_iff (x y : IVec S_ 1) (j : S_.Idx) : andi x y j = 1#1 ↔ x j = 1#1 ∧ y j = 1#1 := IntOp.andi_eq_one

/-- The printed precondition, all ones, gives the domain. -/
theorem dom_of_pre (a0 : IVec S2048x2 32) (a1 : IVec S10000x16 32) (a2 : IVec S10000x16x8 32) (a3 : IVec S10000x16 32)
    (a4 : FVec Ideal S50000x128 .f32) (a5 a6 a7 a8 : FVec Ideal S128x128 .f32) (a9 : FVec Ideal S128x256 .f32)
    (a10 : FVec Ideal S128 .f32) (a11 : FVec Ideal S2x128 .f32) (a12 : FVec Ideal S2 .f32)
    (h : fn (F := Ideal) a0 a1 a2 a3 a4 a5 a6 a7 a8 a9 a10 a11 a12 = fun _ => 1#1) :
    Dom a1 a2 a3 a4 a5 a6 a7 a8 := by
  -- the precondition at its one index is a twelve-fold conjunction, nested to the left, of reductions by "and"
  have e := congrFun h (fun a => a.elim0)
  unfold fn fn_part1 fn_part2 fn_part3 at e
  dsimp only at e
  simp only [andi_one_iff] at e
  obtain ⟨⟨⟨⟨⟨⟨⟨⟨⟨⟨⟨e4, e5⟩, e6⟩, e7⟩, e8⟩, -⟩, -⟩, -⟩, -⟩, e1⟩, e2⟩, e3⟩ := e
  exact
    { finE := real_of_all a4 _ _ _ _ e4
      finW := real_of_all a5 _ _ _ _ e5
      finM := real_of_all a6 _ _ _ _ e6
      finU := real_of_all a7 _ _ _ _ e7
      finV := real_of_all a8 _ _ _ _ e8
      in1 := range_of_all a1 50000 (by norm_num) _ _ _ _ e1
      in2 := range_of_all a2 50000 (by norm_num) _ _ _ _ e2
      in3 := range_of_all a3 10000 (by norm_num) _ _ _ _ e3 }

end Cert.PreFacts

end
-- ==== Proof.lean ====
/-
  The certificate of a two-layer graph convolution with a link-prediction head.

  Both programs compute, per node `n` and feature `q`: layer one, the softmax along `q` of
  `Σ_k max (Σ_d E[id_k, d] W[q, d] + Σ_j Σ_d E[nid_kj, d] M[q, d]) 0`; layer two, the softmax of
  `max (Σ_d h[n, d] U[q, d] + Σ_j Σ_d h[ext_j, d] V[q, d]) 0`; then the same closing operations (two row takes, a
  concatenation, two affine maps with a leaky clamp between, a softmax over the two classes).

  The kernel program multiplies the tables by the transposed weights first and takes rows after, the take done as a
  product with the mask "index word = row number" accumulated over chunks of 2000 rows; the reference takes rows first,
  sums them over the neighbours, and multiplies after.  A row take and that masked product agree when the index word
  lies inside the table (outside it the reference's take clamps while the mask selects nothing), and the two orders of
  summing and multiplying agree on real entries (distributivity); both are what the precondition supplies.  A change of
  float format is the identity on extended reals.

  The kernel side: each body's stored block is the closing payload of the loop's carried value (BodyRun), that value is
  a row selection (OneHot), the payload is group sums, a clamp and a softmax (Payload), the blocks tile the result arrays
  (Blocks), the host products are `mulT` (HostRead, HostK), composed in KValue.  The reference side: its run (RefRun)
  and its two layers read at an index (RefRead1, RefRead2), composed in RefValue.  The closing operations are one
  function on both sides (TailEq).
-/
import proofs.«404633_j41051297415545_3_alg».proof.Defs
import proofs.«404633_j41051297415545_3_alg».proof.Proof.Gen.Kernel
import proofs.«404633_j41051297415545_3_alg».proof.Proof.Gen.Kernel.Frame
import proofs.«404633_j41051297415545_3_alg».proof.Proof.Gen.KernelIdeal
import proofs.«404633_j41051297415545_3_alg».proof.Proof.Gen.KernelIdeal.Frame
import proofs.«404633_j41051297415545_3_alg».proof.Proof.Gen.ReferenceIdeal
import proofs.«404633_j41051297415545_3_alg».proof.Proof.Gen.Pre_finite_inputs
import proofs.«404633_j41051297415545_3_alg».proof.Proof.RunK
import proofs.«404633_j41051297415545_3_alg».proof.Proof.KValue
import proofs.«404633_j41051297415545_3_alg».proof.Proof.RefRun
import proofs.«404633_j41051297415545_3_alg».proof.Proof.RefValue
import proofs.«404633_j41051297415545_3_alg».proof.Proof.TailEq
import proofs.«404633_j41051297415545_3_alg».proof.Proof.PreFacts
import Idealize.ShloMosaic.Adequacy
import Idealize.ShloMosaic.Init

noncomputable section

namespace Cert.Proof

open Idealize.ShloMosaic Idealize.ShloMosaic.ValueIdx Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end at the closing operations applied to the specification's two layers of the arguments. -/
theorem algebraic : Cert.algebraic_KernelIdeal_ReferenceIdeal := by
  intro m ρ m' ρ' hpre hagree
  have dom := fun c => Cert.PreFacts.dom_of_pre _ _ _ _ _ _ _ _ _ _ _ _ _ (hpre c)
  refine ⟨fun c => Cert.KernelIdeal.Tail.tail (F := Ideal) (uncur2 (eAll (cur2 ((m ((c.tc : Thread Cert.KernelIdeal.nD Cert.KernelIdeal.τ).loc Cert.KernelIdeal.main_arg4)) : Cert.KernelIdeal.S50000x128.Idx → EReal)) (cur2 ((m ((c.tc : Thread Cert.KernelIdeal.nD Cert.KernelIdeal.τ).loc Cert.KernelIdeal.main_arg5)) : Cert.KernelIdeal.S128x128.Idx → EReal)) (cur2 ((m ((c.tc : Thread Cert.KernelIdeal.nD Cert.KernelIdeal.τ).loc Cert.KernelIdeal.main_arg6)) : Cert.KernelIdeal.S128x128.Idx → EReal)) (cur2 ((m ((c.tc : Thread Cert.KernelIdeal.nD Cert.KernelIdeal.τ).loc Cert.KernelIdeal.main_arg7)) : Cert.KernelIdeal.S128x128.Idx → EReal)) (cur2 ((m ((c.tc : Thread Cert.KernelIdeal.nD Cert.KernelIdeal.τ).loc Cert.KernelIdeal.main_arg8)) : Cert.KernelIdeal.S128x128.Idx → EReal))
        (cur2 ((m ((c.tc : Thread Cert.KernelIdeal.nD Cert.KernelIdeal.τ).loc Cert.KernelIdeal.main_arg1)) : Cert.KernelIdeal.S10000x16.Idx → BitVec 32)) (cur3 ((m ((c.tc : Thread Cert.KernelIdeal.nD Cert.KernelIdeal.τ).loc Cert.KernelIdeal.main_arg2)) : Cert.KernelIdeal.S10000x16x8.Idx → BitVec 32)) (cur2 ((m ((c.tc : Thread Cert.KernelIdeal.nD Cert.KernelIdeal.τ).loc Cert.KernelIdeal.main_arg3)) : Cert.KernelIdeal.S10000x16.Idx → BitVec 32))))
      (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result m ρ c (dom c).in1 (dom c).in2 (dom c).in3), (h c).2⟩)
      (Cert.KernelIdeal.RunK.run m ρ)
  · refine (θ_run Cert.ReferenceIdeal.defs _ _).mono (fun r h c => ⟨(h c).1.trans ?_, (h c).2⟩)
      (Cert.ReferenceIdeal.RefRun.run m' ρ')
    unfold Cert.ReferenceIdeal.RefRun.out
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2]
    exact (congrArg (fun e => Cert.ReferenceIdeal.RefTerm.refTail (F := Ideal) e (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (Cert.ReferenceIdeal.RefValue.layers (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (dom c).finE (dom c).finW (dom c).finM (dom c).finU (dom c).finV (dom c).in1 (dom c).in2 (dom c).in3)).trans
      (Cert.TailEq.refTail_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
